-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S4096 : Shape := ⟨1, ![4096]⟩
abbrev S8192 : Shape := ⟨1, ![8192]⟩
abbrev S128x4096 : Shape := ⟨2, ![128, 4096]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S4096 : S_.BroadcastsInDim S4096 (![] : Fin 0 → Fin S4096.rank)
  reducesTo_S4096_S_d0 : S4096.ReducesTo [0] S_
  bcast_S_S8192 : S_.BroadcastsInDim S8192 (![] : Fin 0 → Fin S8192.rank)
  reducesTo_S8192_S_d0 : S8192.ReducesTo [0] S_
  bcast_S_S128x4096 : S_.BroadcastsInDim S128x4096 (![] : Fin 0 → Fin S128x4096.rank)
  reducesTo_S128x4096_S_d0_1 : S128x4096.ReducesTo [0, 1] S_

variable [Facts]

def fn_part1 {F : FTy → Type} [FloatOps F] (main_arg4 : FVec F S128x4096 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S128x4096 .f32 := Host.absf main_arg4
  let main_cst_6 : FVec F S_ .f32 := constant S_ .f32 0x7F800000#32
  let main_v20 : FVec F S128x4096 .f32 := broadcastInDim S128x4096 ![] bcast_S_S128x4096 main_cst_6
  let main_v21 : IVec S128x4096 1 := cmpf .olt main_v19 main_v20
  let main_c_7 : IVec S_ 1 := constantI S_ 1 1#1
  let main_v22 : IVec S_ 1 := (fun x v => Host.reduce IntOp.andi x v reducesTo_S128x4096_S_d0_1 h_S_) main_v21 main_c_7
  let main_v23 : IVec S_ 1 := andi main_v18 main_v22
  main_v23

def fn {F : FTy → Type} [FloatOps F] (main_arg0 : FVec F S4096x8192 .f32) (main_arg1 : FVec F S4096x8192 .f32) (main_arg2 : FVec F S4096 .f32) (main_arg3 : FVec F S8192 .f32) (main_arg4 : FVec F S128x4096 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_v13 main_v16
-- ==== Kernel.lean ====
abbrev S4096x8192 : Shape := ⟨2, ![4096, 8192]⟩
abbrev S4096 : Shape := ⟨1, ![4096]⟩
abbrev S8192 : Shape := ⟨1, ![8192]⟩
abbrev S128x4096 : Shape := ⟨2, ![128, 4096]⟩
abbrev S256x8192 : Shape := ⟨2, ![256, 8192]⟩
abbrev S1x4096 : Shape := ⟨2, ![1, 4096]⟩
abbrev S1x8192 : Shape := ⟨2, ![1, 8192]⟩
abbrev S4096x4096 : Shape := ⟨2, ![4096, 4096]⟩
abbrev S1024x1024 : Shape := ⟨2, ![1024, 1024]⟩
abbrev S1x1024 : Shape := ⟨2, ![1, 1024]⟩
abbrev S4096x128 : Shape := ⟨2, ![4096, 128]⟩
abbrev S512x4096 : Shape := ⟨2, ![512, 4096]⟩
abbrev S512x128 : Shape := ⟨2, ![512, 128]⟩

abbrev nBuf : Space → Nat
  | .hbm => 11
  | .vmem => 27
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096, .f32⟩
  | .hbm, ⟨3, _⟩ => ⟨S8192, .f32⟩
  | .hbm, ⟨4, _⟩ => ⟨S128x4096, .f32⟩
  | .hbm, ⟨5, _⟩ => ⟨S4096x8192, .bf16⟩
  | .hbm, ⟨6, _⟩ => ⟨S1x4096, .f32⟩
  | .hbm, ⟨7, _⟩ => ⟨S1x8192, .f32⟩
  | .hbm, ⟨8, _⟩ => ⟨S4096x4096, .f32⟩
  | .hbm, ⟨9, _⟩ => ⟨S4096x128, .f32⟩
  | .hbm, ⟨10, _⟩ => ⟨S4096x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .bf16⟩
  | .local _ .vmem, ⟨3, _⟩ => ⟨S256x8192, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S512x4096, .f32⟩
  | .local _ .vmem, ⟨14, _⟩ => ⟨S512x4096, .f32⟩
  | .local _ .vmem, ⟨15, _⟩ => ⟨S128x4096, .f32⟩
  | .local _ .vmem, ⟨16, _⟩ => ⟨S512x128, .f32⟩
  | .local _ .vmem, ⟨17, _⟩ => ⟨S512x128, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S1024x1024, .bf16⟩
  | .local _ .vmem, ⟨22, _⟩ => ⟨S1x1024, .f32⟩
  | .local _ .vmem, ⟨23, _⟩ => ⟨S1x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![4, 8, 4], ![false, false, false]⟩

def k3_cond2 (i : grid3.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

class Facts₀ : Prop where
  inb_S256x8192_S256x8192_0_0 : ∀ a, (![0, 0] : Fin 2 → Nat) a + S256x8192.size a ≤ S256x8192.size a
  h_S256x8192 : 0 < S256x8192.numel
  natLt_1_32 : 1 < 32
  bitsLt_bf16_f32 : FTy.bits .bf16 < FTy.bits .f32
  packedbf16_S256x8192_S256x8192_0_0 : (Rect.unit (s := S256x8192) ![0, 0] S256x8192.size inb_S256x8192_S256x8192_0_0).PackedRows (EltTy.packing .bf16)
  shapeCasts_S4096_S1x4096 : S4096.ShapeCasts S1x4096
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S128x4096_S128x4096_0_0 : ∀ a, (![0, 0] : Fin 2 → Nat) a + S128x4096.size a ≤ S128x4096.size a
  h_S128x4096 : 0 < S128x4096.numel
  inb_S512x128_S512x128_0_0 : ∀ a, (![0, 0] : Fin 2 → Nat) a + S512x128.size a ≤ S512x128.size a
  h_S512x128 : 0 < S512x128.numel
  dot_S1024x1024_S1024x1024_S1024x1024_1_1_0_0_n_n_wf : DotDims.WF S1024x1024 S1024x1024 S1024x1024 [1] [1] [0] [0] [] []
  dot_S512x4096_S128x4096_S512x128_1_1_0_0_n_n_wf : DotDims.WF S512x4096 S128x4096 S512x128 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S4096x8192.size a
  hwx0_1 : ∀ i : grid0.Coords, EltTy.bits .bf16 = 32 ∨ (Rect.block (s := S4096x8192) S256x8192.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x8192.size a
  hwx1_0 : ∀ i : grid1.Coords, EltTy.bits .f32 = 32 ∨ (Rect.block (s := S4096x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x8192.size a
  hwx1_1 : ∀ i : grid1.Coords, EltTy.bits .bf16 = 32 ∨ (Rect.block (s := S4096x8192) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .f32 = 32 ∨ (Rect.block (s := S4096x4096) S512x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x4096.size a ≤ S128x4096.size a
  hwx2_1 : ∀ i : grid2.Coords, EltTy.bits .f32 = 32 ∨ (Rect.block (s := S128x4096) S128x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S4096x128.size a
  hwx2_2 : ∀ i : grid2.Coords, EltTy.bits .f32 = 32 ∨ (Rect.block (s := S4096x128) S512x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x4096.size a
  hwx3_0 : ∀ i : grid3.Coords, EltTy.bits .f32 = 32 ∨ (Rect.block (s := S4096x4096) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x8192.size a
  hwx3_1 : ∀ i : grid3.Coords, EltTy.bits .bf16 = 32 ∨ (Rect.block (s := S4096x8192) S1024x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x8192.size a
  hwx3_2 : ∀ i : grid3.Coords, EltTy.bits .f32 = 32 ∨ (Rect.block (s := S1x8192) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S4096x8192.size a
  hwx3_3 : ∀ i : grid3.Coords, EltTy.bits .f32 = 32 ∨ (Rect.block (s := S4096x8192) S1024x1024.size (cc3_transform_3 i) (hinb3_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x4096_S128x4096_S512x128_1_1_0_0_n_n : DotDims S512x4096 S128x4096 S512x128 where
  lhsContracting := [1]
  rhsContracting := [1]
  lhsNonContracting := [0]
  rhsNonContracting := [0]
  lhsBatch := []
  rhsBatch := []
  wf := dot_S512x4096_S128x4096_S512x128_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v3) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S512x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v3) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v5) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S4096x8192 : Shape := ⟨2, ![4096, 8192]⟩
abbrev S4096 : Shape := ⟨1, ![4096]⟩
abbrev S8192 : Shape := ⟨1, ![8192]⟩
abbrev S128x4096 : Shape := ⟨2, ![128, 4096]⟩
abbrev S_ : Shape := ⟨0, ![]⟩
abbrev S4096x4096 : Shape := ⟨2, ![4096, 4096]⟩
abbrev S1x4096 : Shape := ⟨2, ![1, 4096]⟩
abbrev S4096x128 : Shape := ⟨2, ![4096, 128]⟩
abbrev S1x8192 : Shape := ⟨2, ![1, 8192]⟩

abbrev nBuf : Space → Nat
  | .hbm => 32
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096, .f32⟩
  | .hbm, ⟨3, _⟩ => ⟨S8192, .f32⟩
  | .hbm, ⟨4, _⟩ => ⟨S128x4096, .f32⟩
  | .hbm, ⟨5, _⟩ => ⟨S_, .f32⟩
  | .hbm, ⟨6, _⟩ => ⟨S4096x8192, .f32⟩
  | .hbm, ⟨7, _⟩ => ⟨S4096x8192, .i1⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .i1⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x128, .f32⟩
  | .hbm, ⟨22, _⟩ => ⟨S4096x8192, .f32⟩
  | .hbm, ⟨23, _⟩ => ⟨S1x8192, .f32⟩
  | .hbm, ⟨24, _⟩ => ⟨S4096x8192, .f32⟩
  | .hbm, ⟨25, _⟩ => ⟨S4096x8192, .f32⟩
  | .hbm, ⟨26, _⟩ => ⟨S_, .f32⟩
  | .hbm, ⟨27, _⟩ => ⟨S4096x8192, .f32⟩
  | .hbm, ⟨28, _⟩ => ⟨S4096x8192, .i1⟩
  | .hbm, ⟨29, _⟩ => ⟨S4096x8192, .f32⟩
  | .hbm, ⟨30, _⟩ => ⟨S4096x8192, .f32⟩
  | .hbm, ⟨31, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  dot_S4096x8192_S4096x8192_S4096x4096_1_1_0_0_n_n_wf : DotDims.WF S4096x8192 S4096x8192 S4096x4096 [1] [1] [0] [0] [] []
  dot_S4096x4096_S128x4096_S4096x128_1_1_0_0_n_n_wf : DotDims.WF S4096x4096 S128x4096 S4096x128 [1] [1] [0] [0] [] []
  dot_S4096x4096_S4096x8192_S4096x8192_1_0_0_1_n_n_wf : DotDims.WF S4096x4096 S4096x8192 S4096x8192 [1] [0] [0] [1] [] []

variable [Facts₀]

def dot_S4096x8192_S4096x8192_S4096x4096_1_1_0_0_n_n : DotDims S4096x8192 S4096x8192 S4096x4096 where
  lhsContracting := [1]
  rhsContracting := [1]
  lhsNonContracting := [0]
  rhsNonContracting := [0]
  lhsBatch := []
  rhsBatch := []
  wf := dot_S4096x8192_S4096x8192_S4096x4096_1_1_0_0_n_n_wf
def dot_S4096x4096_S128x4096_S4096x128_1_1_0_0_n_n : DotDims S4096x4096 S128x4096 S4096x128 where
  lhsContracting := [1]
  rhsContracting := [1]
  lhsNonContracting := [0]
  rhsNonContracting := [0]
  lhsBatch := []
  rhsBatch := []
  wf := dot_S4096x4096_S128x4096_S4096x128_1_1_0_0_n_n_wf
def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.KBData.lean ====
/-
  What the four kernel regions compute, region by region, as the pipeline's proof data.

  The program binarises the encoder weights (region 0), encodes (region 1: a matrix product accumulated in a
  scratch buffer over the innermost grid axis, thresholded after the last step), classifies (region 2: one matrix
  product per row block) and decodes (region 3: as region 1, over the hidden axis). Each region's data are stated
  at a parameter `V`, the contents of the core's buffers when the region is entered: a window's block at a grid
  point is read off its array in `V`, and what the body leaves in each staging buffer is a term over the body's
  own pure payload functions of those blocks. For the two accumulating regions the scratch buffer's contents after
  point `n` are a recursion on `n`: the step's partial product added to zero at the first step of a run along
  the innermost axis, to what the point before left otherwise; the region's invariant holds the scratch buffer at
  exactly those contents, beside what returns the other scoped buffers and the generator register.
-/
import proofs.«162706_j42030549959310_1_alg».proof.Proof.Gen.Kernel.Launch
import proofs.«162706_j42030549959310_1_alg».proof.Proof.Gen.Kernel.Skeleton
import proofs.«162706_j42030549959310_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the encoder weights binarised, one block of 256 rows at a point -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the input block stays; the output buffer holds the body's payload of the input block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (iblk0 V c 0 t)
  Φ _ := Pipeline.ΦA spec0 c
  q _ := fullShare
  owed _ := 0

/-! ## Region 1: the encoding, accumulated over the 8 steps of the innermost axis -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator after point `n`: this step's product added to zero when the step is the first of its
    run of 8, else to what the point before left. -/
def acc1 (c : Dev nD) : (n : ℕ) → n < cfg1.N → Vec F S1024x1024 .f32
  | 0, hn => k1_pay2 (iblk1 V c 0 ⟨0, hn⟩) (k1_pay1 (F := F)) (iblk1 V c 1 ⟨0, hn⟩)
  | n + 1, hn => k1_pay2 (iblk1 V c 0 ⟨n + 1, hn⟩)
      (if (n + 1) % 8 = 0 then (k1_pay1 (F := F)) else acc1 c n (Nat.lt_of_succ_lt hn)) (iblk1 V c 1 ⟨n + 1, hn⟩)

/-- Region 1's scratch accumulator as a memref. -/
abbrev scM1 : Memref sig .tc .vmem S1024x1024 .f32 := Memref.whole cc1_scratch0

/-- What gives the class's invariant back once the accumulator is returned at any contents. -/
abbrev back1 (c : Dev nD) : sProp 𝕄 :=
  iprop((∃ d, owns (c : Thread nD τ) scM1 fullShare d) -∗ Pipeline.ΦA spec1 c)

/-- Region 1's invariant before position `n`: the accumulator at anything before the first point, then at what
    the point before left; beside it what returns the rest. -/
def Phi1 (c : Dev nD) : (n : ℕ) → n ≤ cfg1.N → sProp 𝕄
  | 0, _ => iprop((∃ d, owns (c : Thread nD τ) scM1 fullShare d) ∗ back1 c)
  | n + 1, hn => iprop(owns (c : Thread nD τ) scM1 fullShare (acc1 V c n hn) ∗ back1 c)

/-- Region 1's proof data: the three input blocks stay; the output buffer, where it is stored (the last step of a
    run), holds the thresholded accumulator plus bias. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := Phi1 V c t.val (Nat.le_of_lt_succ t.isLt)
  q _ := fullShare
  owed _ := 0

/-! ## Region 2: the classifier, one block of 512 rows at a point -/

/-- Window `w`'s block at point `t`, read off its array as region 2 finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Region 2's proof data: the two input blocks stay; the output buffer holds the body's product of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (iblk2 V c 0 t) (iblk2 V c 1 t)
  Φ _ := Pipeline.ΦA spec2 c
  q _ := fullShare
  owed _ := 0

/-! ## Region 3: the decoding, accumulated over the 4 steps of the innermost axis -/

/-- Window `w`'s block at point `t`, read off its array as region 3 finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch accumulator after point `n`: this step's product added to zero when the step is the first of its
    run of 4, else to what the point before left. -/
def acc3 (c : Dev nD) : (n : ℕ) → n < cfg3.N → Vec F S1024x1024 .f32
  | 0, hn => k3_pay2 (iblk3 V c 0 ⟨0, hn⟩) (k3_pay1 (F := F)) (iblk3 V c 1 ⟨0, hn⟩)
  | n + 1, hn => k3_pay2 (iblk3 V c 0 ⟨n + 1, hn⟩)
      (if (n + 1) % 4 = 0 then (k3_pay1 (F := F)) else acc3 c n (Nat.lt_of_succ_lt hn)) (iblk3 V c 1 ⟨n + 1, hn⟩)

/-- Region 3's scratch accumulator as a memref. -/
abbrev scM3 : Memref sig .tc .vmem S1024x1024 .f32 := Memref.whole cc3_scratch0

/-- What gives the class's invariant back once the accumulator is returned at any contents. -/
abbrev back3 (c : Dev nD) : sProp 𝕄 :=
  iprop((∃ d, owns (c : Thread nD τ) scM3 fullShare d) -∗ Pipeline.ΦA spec3 c)

/-- Region 3's invariant before position `n`. -/
def Phi3 (c : Dev nD) : (n : ℕ) → n ≤ cfg3.N → sProp 𝕄
  | 0, _ => iprop((∃ d, owns (c : Thread nD τ) scM3 fullShare d) ∗ back3 c)
  | n + 1, hn => iprop(owns (c : Thread nD τ) scM3 fullShare (acc3 V c n hn) ∗ back3 c)

/-- Region 3's proof data. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (iblk3 V c 2 t)
  Φ t := Phi3 V c t.val (Nat.le_of_lt_succ t.isLt)
  q _ := fullShare
  owed _ := 0

end Cert.Kernel.Hand

end
-- ==== Proof.LibWholeStore.lean ====
/-
  A buffer stored whole and read back.

  A store through the rectangle that starts at the origin and has the buffer's own extents replaces every
  element of the buffer, so the contents read afterwards are the stored value whatever the buffer held and
  whatever stores came before; and a load through that rectangle reads the contents themselves.
-/
import Idealize.ShloMosaic.Lib.Pipeline.Value
import Idealize.ShloMosaic.Lib.Pipeline.FrameBody

noncomputable section

namespace Cert.WholeStore

open Idealize.ShloMosaic

variable {Val : EltTy → Type} [∀ e, Nonempty (Val e)] {S : Shape} {e : EltTy}
variable {sig : RefSig} {κ : Kind} {sp : Space}

/-- After a list of stores whose LAST one (the head of the list) fills the whole buffer, the buffer reads as that
    store's value: every index lies in the last store's rectangle, and the last store to an index wins. -/
theorem read_writes_head (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩)]
  exact View.canon_cons_unit_zero h inb w L

/-- A load through the whole-buffer rectangle reads the contents. -/
theorem readAt_whole (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld]; exact View.ld_unit_zero h inb _

/-- The origin of a rank-2 shape, however it is spelt. -/
theorem origin2 : (![0, 0] : Fin 2 → ℕ) = fun _ => 0 := by
  funext a; fin_cases a <;> rfl

end Cert.WholeStore

end
-- ==== Proof.KBFrame02.lean ====
/-
  Regions 0 and 2: the body obligations of the two kernels that keep nothing between grid points.

  Each loads its input blocks whole, computes one value and stores it whole into its output block; the class's
  invariant and what the core owes pass through untouched, and every input's staging buffer holds its block at
  every point (fetched there, or fetched earlier with the block index unmoved since).
-/
import proofs.«162706_j42030549959310_1_alg».proof.Proof.KBData
import proofs.«162706_j42030549959310_1_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.WholeStore

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: binarise -/

set_option maxHeartbeats 1000000 in
/-- The body: the output buffer, whatever it held, is left at the payload of the input block. -/
theorem run_body0 (c : Dev nD) (E : Set ℕ) (i : grid0.Coords) (arg1 : Memref sig .tc .vmem S256x8192 .f32) (harg1 : arg1.IsWhole) (arg2 : Memref sig .tc .vmem S256x8192 .bf16) (harg2 : arg2.IsWhole)
    (x0 : Vec F S256x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__binarize_kernel i arg1 harg1 arg2 harg2) K := by
  simp only [cc0__binarize_kernel_eq_skeleton]; unfold cc0__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  simp only [read_writes_head (S := S256x8192) _ _ origin2, readAt_whole (S := S256x8192) _ _ origin2]

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay1 (iblk0 V c 0 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d)))
    ⊢ wp frame (wpE (defs₀ (F := F)) Variants.none c none) Set.univ (bodyAt0 t) (fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t))) := by
  unfold bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (run_body0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

/-! ## Region 2: classify -/

set_option maxHeartbeats 1000000 in
/-- The body: the output buffer, whatever it held, is left at the product of the two input blocks. -/
theorem run_body2 (c : Dev nD) (E : Set ℕ) (i : grid2.Coords) (arg1 : Memref sig .tc .vmem S512x4096 .f32) (harg1 : arg1.IsWhole) (arg2 : Memref sig .tc .vmem S128x4096 .f32) (harg2 : arg2.IsWhole) (arg3 : Memref sig .tc .vmem S512x128 .f32) (harg3 : arg3.IsWhole)
    (x0 : Vec F S512x4096 .f32) (x1 : Vec F S128x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k2_pay1 x0 x1)) -∗ K ⟨⟩))
      ⊢ wp frame (wpE (defs₀ (F := F)) Variants.none c none) E (cc2__classify_kernel i arg1 harg1 arg2 harg2 arg3 harg3) K := by
  simp only [cc2__classify_kernel_eq_skeleton]; unfold cc2__classify_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  simp only [read_writes_head (S := S512x128) _ _ origin2, readAt_whole (S := S512x4096) _ _ origin2,
    readAt_whole (S := S128x4096) _ _ origin2]

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay1 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) (fun _ =>
        iprop((dat2 V c).Φ t.succ ∗ (dat2 V c).owesAt () t.succ
          ∗ owns (c : Thread nD τ) (st2_0 t) fullShare ((dat2 V c).after 0 t)
          ∗ owns (c : Thread nD τ) (st2_1 t) fullShare ((dat2 V c).after 1 t)
          ∗ owns (c : Thread nD τ) (st2_2 t) fullShare ((dat2 V c).after 2 t))) := by
  unfold bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (run_body2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KBFrame1.lean ====
/-
  Region 1: the body obligation of the accumulating kernel, at every grid point.

  The innermost grid axis has 8 steps. At a step the body adds the product of the step's two blocks into the
  scratch accumulator, after zeroing it when the step is the first of its run; after the last step of a run it adds
  the bias row to the accumulator, thresholds, and stores the result block. So there are three kinds of point: the
  first of a run (the accumulator may hold anything and is left at zero plus the product), a middle one (the
  accumulator holds what the point before left), and the last (as a middle one, and the output block is stored).
  The output window is idle at every point but the last of a run, where it is also written back. The region's
  invariant carries the accumulator at exactly what the recursion `acc1` says, beside a promise that returns the
  class's invariant once the accumulator is handed back.
-/
import proofs.«162706_j42030549959310_1_alg».proof.Proof.KBData
import proofs.«162706_j42030549959310_1_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.WholeStore

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Which kind of point -/

/-- The innermost coordinate of point `t` is `t mod 8`. -/
theorem inner1 : ∀ t : Fin cfg1.N, ((grid1.coords t) 2).val = t.val % 8 :=
  (by decide +kernel : ∀ t : Fin grid1.N, ((grid1.coords t) 2).val = t.val % 8)

/-- The body's first condition (zero the accumulator) holds exactly at the first step of a run. -/
theorem resets1_iff (i : grid1.Coords) :
    (Scalar.cmpi .ne (Scalar.extui (Scalar.cmpi .eq (BitVec.ofNat 32 (i 2).val) 0#32) : BitVec 32) 0#32 = 1#1) ↔ (i 2).val = 0 := by
  have h : ∀ j : Fin 8, (Scalar.cmpi .ne (Scalar.extui (Scalar.cmpi .eq (BitVec.ofNat 32 j.val) 0#32) : BitVec 32) 0#32 = 1#1) ↔ j.val = 0 := by decide
  exact h (i 2)

/-- The body's second condition (store the output) holds exactly at the last step of a run. -/
theorem stores1_iff (i : grid1.Coords) : k1_cond2 i = 1#1 ↔ (i 2).val = 7 := by
  have h : ∀ j : Fin 8, (Scalar.cmpi .ne (Scalar.extui (Scalar.cmpi .eq (BitVec.ofNat 32 j.val) 7#32) : BitVec 32) 0#32 = 1#1) ↔ j.val = 7 := by decide
  exact h (i 2)

/-! ## The body at each kind of point -/

set_option maxHeartbeats 2000000 in
/-- First step of a run: the accumulator, whatever it held, is left at zero plus the product of the two blocks. -/
theorem run_first1 (c : Dev nD) (E : Set ℕ) (i : grid1.Coords) (hk : (i 2).val = 0)
    (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (x : Vec F S1024x1024 .f32) (w : Vec F S1024x1024 .bf16) (K : PUnit → sProp 𝕄) :
    iprop(owns (c : Thread nD τ) arg3 fullShare x ∗ owns (c : Thread nD τ) arg4 fullShare w
        ∗ (∃ d, owns (c : Thread nD τ) arg7 fullShare d)
        ∗ (iprop(owns (c : Thread nD τ) arg3 fullShare x ∗ owns (c : Thread nD τ) arg4 fullShare w
            ∗ owns (c : Thread nD τ) arg7 fullShare (k1_pay2 x (k1_pay1 (F := F)) w)) -∗ K ⟨⟩))
      ⊢ wp frame (wpE (defs₀ (F := F)) Variants.none c none) E (cc1__encode_kernel i arg3 harg3 arg4 harg4 arg5 harg5 arg6 harg6 arg7 harg7) K := by
  have hc1 : (Scalar.cmpi .ne (Scalar.extui (Scalar.cmpi .eq (BitVec.ofNat 32 (i 2).val) 0#32) : BitVec 32) 0#32 = 1#1) :=
    (resets1_iff i).mpr hk
  have hc2 : ¬ k1_cond2 i = 1#1 := fun h => by have := (stores1_iff i).mp h; omega
  simp only [cc1__encode_kernel_eq_skeleton]; unfold cc1__encode_kernel_skel
  unfold owns
  iintro ⟨⟨%f3, %hf3, H3⟩, ⟨%f4, %hf4, H4⟩, ⟨%d7, %f7, -, H7⟩, Hk⟩
  subst hf3 hf4
  sl_exec (disch := first | exact hc1 | exact hc2)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  sl_unfold_words
  simp only [read_writes_head (S := S1024x1024) _ _ origin2, readAt_whole (S := S1024x1024) _ _ origin2,
    View.readCov_unit_zero (S := S1024x1024) _ origin2]

set_option maxHeartbeats 2000000 in
/-- A middle step: the product of the two blocks is added to what the accumulator held. -/
theorem run_mid1 (c : Dev nD) (E : Set ℕ) (i : grid1.Coords) (hk0 : (i 2).val ≠ 0) (hk1 : (i 2).val ≠ 7)
    (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (x : Vec F S1024x1024 .f32) (w : Vec F S1024x1024 .bf16) (a : Vec F S1024x1024 .f32) (K : PUnit → sProp 𝕄) :
    iprop(owns (c : Thread nD τ) arg3 fullShare x ∗ owns (c : Thread nD τ) arg4 fullShare w
        ∗ owns (c : Thread nD τ) arg7 fullShare a
        ∗ (iprop(owns (c : Thread nD τ) arg3 fullShare x ∗ owns (c : Thread nD τ) arg4 fullShare w
            ∗ owns (c : Thread nD τ) arg7 fullShare (k1_pay2 x a w)) -∗ K ⟨⟩))
      ⊢ wp frame (wpE (defs₀ (F := F)) Variants.none c none) E (cc1__encode_kernel i arg3 harg3 arg4 harg4 arg5 harg5 arg6 harg6 arg7 harg7) K := by
  have hc1 : ¬ (Scalar.cmpi .ne (Scalar.extui (Scalar.cmpi .eq (BitVec.ofNat 32 (i 2).val) 0#32) : BitVec 32) 0#32 = 1#1) :=
    fun h => hk0 ((resets1_iff i).mp h)
  have hc2 : ¬ k1_cond2 i = 1#1 := fun h => hk1 ((stores1_iff i).mp h)
  simp only [cc1__encode_kernel_eq_skeleton]; unfold cc1__encode_kernel_skel
  unfold owns
  iintro ⟨⟨%f3, %hf3, H3⟩, ⟨%f4, %hf4, H4⟩, ⟨%f7, %hf7, H7⟩, Hk⟩
  subst hf3 hf4 hf7
  sl_exec (disch := first | exact hc1 | exact hc2)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  sl_unfold_words
  simp only [read_writes_head (S := S1024x1024) _ _ origin2, readAt_whole (S := S1024x1024) _ _ origin2,
    View.readCov_unit_zero (S := S1024x1024) _ origin2]

set_option maxHeartbeats 2000000 in
/-- Last step of a run: the product is added to the accumulator, and the output block is stored from the new
    accumulator and the bias row. -/
theorem run_last1 (c : Dev nD) (E : Set ℕ) (i : grid1.Coords) (hk : (i 2).val = 7)
    (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (x : Vec F S1024x1024 .f32) (w : Vec F S1024x1024 .bf16) (b : Vec F S1x1024 .f32) (a : Vec F S1024x1024 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 x a w) b) ∗ owns (c : Thread nD τ) arg7 fullShare (k1_pay2 x a w)) -∗ K ⟨⟩))
      ⊢ wp frame (wpE (defs₀ (F := F)) Variants.none c none) E (cc1__encode_kernel i arg3 harg3 arg4 harg4 arg5 harg5 arg6 harg6 arg7 harg7) K := by
  have hc1 : ¬ (Scalar.cmpi .ne (Scalar.extui (Scalar.cmpi .eq (BitVec.ofNat 32 (i 2).val) 0#32) : BitVec 32) 0#32 = 1#1) := fun h => by
    have := (resets1_iff i).mp h; omega
  have hc2 : k1_cond2 i = 1#1 := (stores1_iff i).mpr hk
  simp only [cc1__encode_kernel_eq_skeleton]; unfold cc1__encode_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  subst hf3 hf4 hf5 hf7
  sl_exec (disch := first | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    simp only [read_writes_head (S := S1024x1024) _ _ origin2, readAt_whole (S := S1024x1024) _ _ origin2,
      readAt_whole (S := S1x1024) _ _ origin2, View.readCov_unit_zero (S := S1024x1024) _ origin2]
  iexists _; isplitr
  swap; · iexact H7
  ipureintro
  sl_unfold_words
  simp only [read_writes_head (S := S1024x1024) _ _ origin2, readAt_whole (S := S1024x1024) _ _ origin2,
    View.readCov_unit_zero (S := S1024x1024) _ origin2]

/-! ## The proof data projected -/

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]

/-- Each input's staging buffer holds its block at every point, whether the point fetched it or the block index
    has not moved since it was fetched. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The accumulator's recursion, by kind of point -/

theorem acc1_first (c : Dev nD) (t : Fin cfg1.N) (h : t.val % 8 = 0) :
    acc1 V c t.val t.isLt = k1_pay2 (iblk1 V c 0 t) (k1_pay1 (F := F)) (iblk1 V c 1 t) := by
  obtain ⟨n, hn⟩ := t
  cases n with
  | zero => rfl
  | succ n => simp only [acc1]; rw [if_pos h]

theorem acc1_step (c : Dev nD) (t : Fin cfg1.N) (h : t.val % 8 ≠ 0) :
    acc1 V c t.val t.isLt = k1_pay2 (iblk1 V c 0 t)
      (acc1 V c (t.val - 1) (Nat.lt_of_le_of_lt (Nat.sub_le _ _) t.isLt)) (iblk1 V c 1 t) := by
  obtain ⟨n, hn⟩ := t
  cases n with
  | zero => exact absurd (Nat.zero_mod _) h
  | succ n => simp only [acc1]; rw [if_neg h]; rfl

/-! ## The invariant, by position -/

theorem Phi1_any (c : Dev nD) (n : ℕ) (h : n ≤ cfg1.N) :
    Phi1 V c n h ⊢ iprop((∃ d, owns (c : Thread nD τ) scM1 fullShare d) ∗ back1 c) := by
  cases n with
  | zero => exact .rfl
  | succ n =>
    show iprop(owns (c : Thread nD τ) scM1 fullShare (acc1 V c n h) ∗ back1 c) ⊢ _
    iintro ⟨HS, Hb⟩
    isplitl [HS]
    · iexists _; iexact HS
    iexact Hb

theorem Phi1_pos (c : Dev nD) (n : ℕ) (h : n ≤ cfg1.N) (hz : n ≠ 0) :
    Phi1 V c n h = iprop(owns (c : Thread nD τ) scM1 fullShare (acc1 V c (n - 1) (by omega)) ∗ back1 c) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-! ## The output window: idle but at the last step of a run -/

theorem idle1_3 (t : Fin cfg1.N) (h : t.val % 8 ≠ 7) : cfg1.idle 3 (cfg1.grid.coords t) = true := by
  show (!(k1_cond2 (grid1.coords t) == 1#1)) = true
  have : ¬ k1_cond2 (grid1.coords t) = 1#1 := fun e => h (by rw [← inner1 t]; exact (stores1_iff _).mp e)
  simp [this]

theorem live1_3 (t : Fin cfg1.N) (h : t.val % 8 = 7) : cfg1.idle 3 (cfg1.grid.coords t) = false := by
  show (!(k1_cond2 (grid1.coords t) == 1#1)) = false
  have : k1_cond2 (grid1.coords t) = 1#1 := (stores1_iff _).mpr (by rw [inner1 t]; exact h)
  simp [this]

theorem noflush1_3 (t : Fin cfg1.N) (h : t.val % 8 ≠ 7) : (cfg1.win 3).flush t = false := by
  cases hf : (cfg1.win 3).flush t with
  | false => rfl
  | true => exact absurd ((flush1_3 t).mp hf) h

/-! ## The body obligation -/

set_option maxHeartbeats 4000000 in
/-- The body at any point, by its kind. -/
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
        iprop((dat1 V c).Φ t.succ ∗ (dat1 V c).owesAt () t.succ
          ∗ (dat1 V c).leavesExact 0 t ∗ (dat1 V c).leavesExact 1 t
          ∗ (dat1 V c).leavesExact 2 t ∗ (dat1 V c).leavesExact 3 t)) := by
  unfold bodyAt1
  simp only [before1_0, before1_1, before1_2]
  rw [show (dat1 V c).owesAt () t.succ = (dat1 V c).owesAt () t.castSucc from rfl]
  rw [show (dat1 V c).Φ t.succ = iprop(owns (c : Thread nD τ) scM1 fullShare (acc1 V c t.val t.isLt) ∗ back1 c) from rfl]
  rw [Phi1_castSucc]
  rw [show (dat1 V c).leavesExact 0 t = owns (c : Thread nD τ) (st1_0 t) fullShare (iblk1 V c 0 t) from by
    unfold Dat.leavesExact; rw [show cfg1.idle 0 (cfg1.grid.coords t) = false from rfl, after1_0]]
  rw [show (dat1 V c).leavesExact 1 t = owns (c : Thread nD τ) (st1_1 t) fullShare (iblk1 V c 1 t) from by
    unfold Dat.leavesExact; rw [show cfg1.idle 1 (cfg1.grid.coords t) = false from rfl, after1_1]]
  rw [show (dat1 V c).leavesExact 2 t = owns (c : Thread nD τ) (st1_2 t) fullShare (iblk1 V c 2 t) from by
    unfold Dat.leavesExact; rw [show cfg1.idle 2 (cfg1.grid.coords t) = false from rfl, after1_2]]
  by_cases h0 : t.val % 8 = 0
  · -- first step of a run
    have hne : t.val % 8 ≠ 7 := by omega
    rw [Dat.leavesExact_idle (dat1 V c) 3 t (idle1_3 t hne) (noflush1_3 t hne), acc1_first V c t h0]
    iintro ⟨HΦ, Ho, ⟨%d0, H0⟩, ⟨%d1, H1⟩, ⟨%d2, H2⟩, ⟨%d3, H3⟩⟩
    ihave HΦ' := (Phi1_any V c _ _) $$ HΦ
    icases HΦ' with ⟨HS, Hb⟩
    iapply (run_first1 c Set.univ (grid1.coords t) (by rw [inner1 t]; exact h0) _ _ _ _ _ _ _ _ _ _ (iblk1 V c 0 t) (iblk1 V c 1 t) _)
    isplitl [H0]; · iexact H0
    isplitl [H1]; · iexact H1
    isplitl [HS]; · iexact HS
    iintro ⟨H0, H1, HS⟩
    isplitl [HS Hb]
    · isplitl [HS]; · iexact HS
      iexact Hb
    isplitl [Ho]; · iexact Ho
    isplitl [H0]; · iexact H0
    isplitl [H1]; · iexact H1
    isplitl [H2]; · iexact H2
    iexists d3; iexact H3
  · have hz : t.val ≠ 0 := fun e => h0 (by rw [e])
    rw [Phi1_pos V c _ _ hz, acc1_step V c t h0]
    by_cases h1 : t.val % 8 = 7
    · -- last step of a run
      rw [show (dat1 V c).leavesExact 3 t = owns (c : Thread nD τ) (st1_3 t) fullShare ((dat1 V c).after 3 t) from by
        unfold Dat.leavesExact; rw [live1_3 t h1], after1_3, acc1_step V c t h0]
      iintro ⟨⟨HS, Hb⟩, Ho, ⟨%d0, H0⟩, ⟨%d1, H1⟩, ⟨%d2, H2⟩, ⟨%d3, H3⟩⟩
      iapply (run_last1 c Set.univ (grid1.coords t) (by rw [inner1 t]; exact h1) _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hb]
      · isplitl [HS]; · iexact HS
        iexact Hb
      isplitl [Ho]; · iexact Ho
      isplitl [H0]; · iexact H0
      isplitl [H1]; · iexact H1
      isplitl [H2]; · iexact H2
      iexact H3
    · -- a middle step
      rw [Dat.leavesExact_idle (dat1 V c) 3 t (idle1_3 t h1) (noflush1_3 t h1)]
      iintro ⟨⟨HS, Hb⟩, Ho, ⟨%d0, H0⟩, ⟨%d1, H1⟩, ⟨%d2, H2⟩, ⟨%d3, H3⟩⟩
      iapply (run_mid1 c Set.univ (grid1.coords t) (by rw [inner1 t]; exact h0) (by rw [inner1 t]; exact h1) _ _ _ _ _ _ _ _ _ _ (iblk1 V c 0 t) (iblk1 V c 1 t) _ _)
      isplitl [H0]; · iexact H0
      isplitl [H1]; · iexact H1
      isplitl [HS]; · iexact HS
      iintro ⟨H0, H1, HS⟩
      isplitl [HS Hb]
      · isplitl [HS]; · iexact HS
        iexact Hb
      isplitl [Ho]; · iexact Ho
      isplitl [H0]; · iexact H0
      isplitl [H1]; · iexact H1
      isplitl [H2]; · iexact H2
      iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the region -/

/-- The class's invariant with the accumulator taken out of the scoped rest. -/
theorem PhiA1_split (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [owns_whole]
  rfl

/-- What the region is entered with is the invariant before the first point. -/
theorem hin1 (c : Dev nD) : Pipeline.ΦA spec1 c ⊢ (dat1 V c).Φ 0 := by
  show _ ⊢ iprop((∃ d, owns (c : Thread nD τ) scM1 fullShare d) ∗ back1 c)
  unfold back1
  rw [PhiA1_split]
  iintro ⟨⟨HS, Hrest⟩, Hr⟩
  isplitl [HS]; · iexact HS
  iintro HS
  isplitl [HS Hrest]
  · isplitl [HS]; · iexact HS
    iexact Hrest
  iexact Hr

/-- After the last point the invariant gives the class's invariant back: the accumulator's contents are forgotten. -/
theorem hout1 (c : Dev nD) : (dat1 V c).Φ (Fin.last cfg1.N) ⊢ Pipeline.ΦA spec1 c := by
  have h := Phi1_any V c (Fin.last cfg1.N).val (Nat.le_of_lt_succ (Fin.last cfg1.N).isLt)
  refine (show (dat1 V c).Φ (Fin.last cfg1.N) ⊢ _ from h).trans ?_
  unfold back1
  iintro ⟨HS, Hb⟩
  iapply Hb
  iexact HS

end Cert.Kernel.Hand

end
-- ==== Proof.KBFrame3.lean ====
/-
  Region 3: the body obligation of the accumulating kernel, at every grid point.

  The innermost grid axis has 4 steps. At a step the body adds the product of the step's two blocks into the
  scratch accumulator, after zeroing it when the step is the first of its run; after the last step of a run it adds
  the bias row to the accumulator, thresholds, and stores the result block. So there are three kinds of point: the
  first of a run (the accumulator may hold anything and is left at zero plus the product), a middle one (the
  accumulator holds what the point before left), and the last (as a middle one, and the output block is stored).
  The output window is idle at every point but the last of a run, where it is also written back. The region's
  invariant carries the accumulator at exactly what the recursion `acc3` says, beside a promise that returns the
  class's invariant once the accumulator is handed back.
-/
import proofs.«162706_j42030549959310_1_alg».proof.Proof.KBData
import proofs.«162706_j42030549959310_1_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.WholeStore

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Which kind of point -/

/-- The innermost coordinate of point `t` is `t mod 4`. -/
theorem inner3 : ∀ t : Fin cfg3.N, ((grid3.coords t) 2).val = t.val % 4 :=
  (by decide +kernel : ∀ t : Fin grid3.N, ((grid3.coords t) 2).val = t.val % 4)

/-- The body's first condition (zero the accumulator) holds exactly at the first step of a run. -/
theorem resets3_iff (i : grid3.Coords) :
    (Scalar.cmpi .ne (Scalar.extui (Scalar.cmpi .eq (BitVec.ofNat 32 (i 2).val) 0#32) : BitVec 32) 0#32 = 1#1) ↔ (i 2).val = 0 := by
  have h : ∀ j : Fin 4, (Scalar.cmpi .ne (Scalar.extui (Scalar.cmpi .eq (BitVec.ofNat 32 j.val) 0#32) : BitVec 32) 0#32 = 1#1) ↔ j.val = 0 := by decide
  exact h (i 2)

/-- The body's second condition (store the output) holds exactly at the last step of a run. -/
theorem stores3_iff (i : grid3.Coords) : k3_cond2 i = 1#1 ↔ (i 2).val = 3 := by
  have h : ∀ j : Fin 4, (Scalar.cmpi .ne (Scalar.extui (Scalar.cmpi .eq (BitVec.ofNat 32 j.val) 3#32) : BitVec 32) 0#32 = 1#1) ↔ j.val = 3 := by decide
  exact h (i 2)

/-! ## The body at each kind of point -/

set_option maxHeartbeats 2000000 in
/-- First step of a run: the accumulator, whatever it held, is left at zero plus the product of the two blocks. -/
theorem run_first3 (c : Dev nD) (E : Set ℕ) (i : grid3.Coords) (hk : (i 2).val = 0)
    (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (x : Vec F S1024x1024 .f32) (w : Vec F S1024x1024 .bf16) (K : PUnit → sProp 𝕄) :
    iprop(owns (c : Thread nD τ) arg3 fullShare x ∗ owns (c : Thread nD τ) arg4 fullShare w
        ∗ (∃ d, owns (c : Thread nD τ) arg7 fullShare d)
        ∗ (iprop(owns (c : Thread nD τ) arg3 fullShare x ∗ owns (c : Thread nD τ) arg4 fullShare w
            ∗ owns (c : Thread nD τ) arg7 fullShare (k3_pay2 x (k3_pay1 (F := F)) w)) -∗ K ⟨⟩))
      ⊢ wp frame (wpE (defs₀ (F := F)) Variants.none c none) E (cc3__decode_kernel i arg3 harg3 arg4 harg4 arg5 harg5 arg6 harg6 arg7 harg7) K := by
  have hc1 : (Scalar.cmpi .ne (Scalar.extui (Scalar.cmpi .eq (BitVec.ofNat 32 (i 2).val) 0#32) : BitVec 32) 0#32 = 1#1) :=
    (resets3_iff i).mpr hk
  have hc2 : ¬ k3_cond2 i = 1#1 := fun h => by have := (stores3_iff i).mp h; omega
  simp only [cc3__decode_kernel_eq_skeleton]; unfold cc3__decode_kernel_skel
  unfold owns
  iintro ⟨⟨%f3, %hf3, H3⟩, ⟨%f4, %hf4, H4⟩, ⟨%d7, %f7, -, H7⟩, Hk⟩
  subst hf3 hf4
  sl_exec (disch := first | exact hc1 | exact hc2)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  sl_unfold_words
  simp only [read_writes_head (S := S1024x1024) _ _ origin2, readAt_whole (S := S1024x1024) _ _ origin2,
    View.readCov_unit_zero (S := S1024x1024) _ origin2]

set_option maxHeartbeats 2000000 in
/-- A middle step: the product of the two blocks is added to what the accumulator held. -/
theorem run_mid3 (c : Dev nD) (E : Set ℕ) (i : grid3.Coords) (hk0 : (i 2).val ≠ 0) (hk1 : (i 2).val ≠ 3)
    (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (x : Vec F S1024x1024 .f32) (w : Vec F S1024x1024 .bf16) (a : Vec F S1024x1024 .f32) (K : PUnit → sProp 𝕄) :
    iprop(owns (c : Thread nD τ) arg3 fullShare x ∗ owns (c : Thread nD τ) arg4 fullShare w
        ∗ owns (c : Thread nD τ) arg7 fullShare a
        ∗ (iprop(owns (c : Thread nD τ) arg3 fullShare x ∗ owns (c : Thread nD τ) arg4 fullShare w
            ∗ owns (c : Thread nD τ) arg7 fullShare (k3_pay2 x a w)) -∗ K ⟨⟩))
      ⊢ wp frame (wpE (defs₀ (F := F)) Variants.none c none) E (cc3__decode_kernel i arg3 harg3 arg4 harg4 arg5 harg5 arg6 harg6 arg7 harg7) K := by
  have hc1 : ¬ (Scalar.cmpi .ne (Scalar.extui (Scalar.cmpi .eq (BitVec.ofNat 32 (i 2).val) 0#32) : BitVec 32) 0#32 = 1#1) :=
    fun h => hk0 ((resets3_iff i).mp h)
  have hc2 : ¬ k3_cond2 i = 1#1 := fun h => hk1 ((stores3_iff i).mp h)
  simp only [cc3__decode_kernel_eq_skeleton]; unfold cc3__decode_kernel_skel
  unfold owns
  iintro ⟨⟨%f3, %hf3, H3⟩, ⟨%f4, %hf4, H4⟩, ⟨%f7, %hf7, H7⟩, Hk⟩
  subst hf3 hf4 hf7
  sl_exec (disch := first | exact hc1 | exact hc2)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  sl_unfold_words
  simp only [read_writes_head (S := S1024x1024) _ _ origin2, readAt_whole (S := S1024x1024) _ _ origin2,
    View.readCov_unit_zero (S := S1024x1024) _ origin2]

set_option maxHeartbeats 2000000 in
/-- Last step of a run: the product is added to the accumulator, and the output block is stored from the new
    accumulator and the bias row. -/
theorem run_last3 (c : Dev nD) (E : Set ℕ) (i : grid3.Coords) (hk : (i 2).val = 3)
    (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (x : Vec F S1024x1024 .f32) (w : Vec F S1024x1024 .bf16) (b : Vec F S1x1024 .f32) (a : Vec F S1024x1024 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare (k3_pay3 (k3_pay2 x a w) b) ∗ owns (c : Thread nD τ) arg7 fullShare (k3_pay2 x a w)) -∗ K ⟨⟩))
      ⊢ wp frame (wpE (defs₀ (F := F)) Variants.none c none) E (cc3__decode_kernel i arg3 harg3 arg4 harg4 arg5 harg5 arg6 harg6 arg7 harg7) K := by
  have hc1 : ¬ (Scalar.cmpi .ne (Scalar.extui (Scalar.cmpi .eq (BitVec.ofNat 32 (i 2).val) 0#32) : BitVec 32) 0#32 = 1#1) := fun h => by
    have := (resets3_iff i).mp h; omega
  have hc2 : k3_cond2 i = 1#1 := (stores3_iff i).mpr hk
  simp only [cc3__decode_kernel_eq_skeleton]; unfold cc3__decode_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  subst hf3 hf4 hf5 hf7
  sl_exec (disch := first | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    simp only [read_writes_head (S := S1024x1024) _ _ origin2, readAt_whole (S := S1024x1024) _ _ origin2,
      readAt_whole (S := S1x1024) _ _ origin2, View.readCov_unit_zero (S := S1024x1024) _ origin2]
  iexists _; isplitr
  swap; · iexact H7
  ipureintro
  sl_unfold_words
  simp only [read_writes_head (S := S1024x1024) _ _ origin2, readAt_whole (S := S1024x1024) _ _ origin2,
    View.readCov_unit_zero (S := S1024x1024) _ origin2]

/-! ## The proof data projected -/

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay3 (acc3 V c t.val t.isLt) (iblk3 V c 2 t) := by dsimp only [dat3]

/-- Each input's staging buffer holds its block at every point, whether the point fetched it or the block index
    has not moved since it was fetched. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

/-! ## The accumulator's recursion, by kind of point -/

theorem acc3_first (c : Dev nD) (t : Fin cfg3.N) (h : t.val % 4 = 0) :
    acc3 V c t.val t.isLt = k3_pay2 (iblk3 V c 0 t) (k3_pay1 (F := F)) (iblk3 V c 1 t) := by
  obtain ⟨n, hn⟩ := t
  cases n with
  | zero => rfl
  | succ n => simp only [acc3]; rw [if_pos h]

theorem acc3_step (c : Dev nD) (t : Fin cfg3.N) (h : t.val % 4 ≠ 0) :
    acc3 V c t.val t.isLt = k3_pay2 (iblk3 V c 0 t)
      (acc3 V c (t.val - 1) (Nat.lt_of_le_of_lt (Nat.sub_le _ _) t.isLt)) (iblk3 V c 1 t) := by
  obtain ⟨n, hn⟩ := t
  cases n with
  | zero => exact absurd (Nat.zero_mod _) h
  | succ n => simp only [acc3]; rw [if_neg h]; rfl

/-! ## The invariant, by position -/

theorem Phi3_any (c : Dev nD) (n : ℕ) (h : n ≤ cfg3.N) :
    Phi3 V c n h ⊢ iprop((∃ d, owns (c : Thread nD τ) scM3 fullShare d) ∗ back3 c) := by
  cases n with
  | zero => exact .rfl
  | succ n =>
    show iprop(owns (c : Thread nD τ) scM3 fullShare (acc3 V c n h) ∗ back3 c) ⊢ _
    iintro ⟨HS, Hb⟩
    isplitl [HS]
    · iexists _; iexact HS
    iexact Hb

theorem Phi3_pos (c : Dev nD) (n : ℕ) (h : n ≤ cfg3.N) (hz : n ≠ 0) :
    Phi3 V c n h = iprop(owns (c : Thread nD τ) scM3 fullShare (acc3 V c (n - 1) (by omega)) ∗ back3 c) := by
  cases n with
  | zero => exact absurd rfl hz
  | succ n => rfl

theorem Phi3_castSucc (c : Dev nD) (t : Fin cfg3.N) :
    (dat3 V c).Φ t.castSucc = Phi3 V c t.val (Nat.le_of_lt t.isLt) := by
  dsimp only [dat3]; simp only [Fin.coe_castSucc]

/-! ## The output window: idle but at the last step of a run -/

theorem idle3_3 (t : Fin cfg3.N) (h : t.val % 4 ≠ 3) : cfg3.idle 3 (cfg3.grid.coords t) = true := by
  show (!(k3_cond2 (grid3.coords t) == 1#1)) = true
  have : ¬ k3_cond2 (grid3.coords t) = 1#1 := fun e => h (by rw [← inner3 t]; exact (stores3_iff _).mp e)
  simp [this]

theorem live3_3 (t : Fin cfg3.N) (h : t.val % 4 = 3) : cfg3.idle 3 (cfg3.grid.coords t) = false := by
  show (!(k3_cond2 (grid3.coords t) == 1#1)) = false
  have : k3_cond2 (grid3.coords t) = 1#1 := (stores3_iff _).mpr (by rw [inner3 t]; exact h)
  simp [this]

theorem noflush3_3 (t : Fin cfg3.N) (h : t.val % 4 ≠ 3) : (cfg3.win 3).flush t = false := by
  cases hf : (cfg3.win 3).flush t with
  | false => rfl
  | true => exact absurd ((flush3_3 t).mp hf) h

/-! ## The body obligation -/

set_option maxHeartbeats 4000000 in
/-- The body at any point, by its kind. -/
theorem sound_body3 (c : Dev nD) (t : Fin cfg3.N) :
    iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d)))
    ⊢ wp frame (wpE (defs₀ (F := F)) Variants.none c none) Set.univ (bodyAt3 t) (fun _ =>
        iprop((dat3 V c).Φ t.succ ∗ (dat3 V c).owesAt () t.succ
          ∗ (dat3 V c).leavesExact 0 t ∗ (dat3 V c).leavesExact 1 t
          ∗ (dat3 V c).leavesExact 2 t ∗ (dat3 V c).leavesExact 3 t)) := by
  unfold bodyAt3
  simp only [before3_0, before3_1, before3_2]
  rw [show (dat3 V c).owesAt () t.succ = (dat3 V c).owesAt () t.castSucc from rfl]
  rw [show (dat3 V c).Φ t.succ = iprop(owns (c : Thread nD τ) scM3 fullShare (acc3 V c t.val t.isLt) ∗ back3 c) from rfl]
  rw [Phi3_castSucc]
  rw [show (dat3 V c).leavesExact 0 t = owns (c : Thread nD τ) (st3_0 t) fullShare (iblk3 V c 0 t) from by
    unfold Dat.leavesExact; rw [show cfg3.idle 0 (cfg3.grid.coords t) = false from rfl, after3_0]]
  rw [show (dat3 V c).leavesExact 1 t = owns (c : Thread nD τ) (st3_1 t) fullShare (iblk3 V c 1 t) from by
    unfold Dat.leavesExact; rw [show cfg3.idle 1 (cfg3.grid.coords t) = false from rfl, after3_1]]
  rw [show (dat3 V c).leavesExact 2 t = owns (c : Thread nD τ) (st3_2 t) fullShare (iblk3 V c 2 t) from by
    unfold Dat.leavesExact; rw [show cfg3.idle 2 (cfg3.grid.coords t) = false from rfl, after3_2]]
  by_cases h0 : t.val % 4 = 0
  · -- first step of a run
    have hne : t.val % 4 ≠ 3 := by omega
    rw [Dat.leavesExact_idle (dat3 V c) 3 t (idle3_3 t hne) (noflush3_3 t hne), acc3_first V c t h0]
    iintro ⟨HΦ, Ho, ⟨%d0, H0⟩, ⟨%d1, H1⟩, ⟨%d2, H2⟩, ⟨%d3, H3⟩⟩
    ihave HΦ' := (Phi3_any V c _ _) $$ HΦ
    icases HΦ' with ⟨HS, Hb⟩
    iapply (run_first3 c Set.univ (grid3.coords t) (by rw [inner3 t]; exact h0) _ _ _ _ _ _ _ _ _ _ (iblk3 V c 0 t) (iblk3 V c 1 t) _)
    isplitl [H0]; · iexact H0
    isplitl [H1]; · iexact H1
    isplitl [HS]; · iexact HS
    iintro ⟨H0, H1, HS⟩
    isplitl [HS Hb]
    · isplitl [HS]; · iexact HS
      iexact Hb
    isplitl [Ho]; · iexact Ho
    isplitl [H0]; · iexact H0
    isplitl [H1]; · iexact H1
    isplitl [H2]; · iexact H2
    iexists d3; iexact H3
  · have hz : t.val ≠ 0 := fun e => h0 (by rw [e])
    rw [Phi3_pos V c _ _ hz, acc3_step V c t h0]
    by_cases h1 : t.val % 4 = 3
    · -- last step of a run
      rw [show (dat3 V c).leavesExact 3 t = owns (c : Thread nD τ) (st3_3 t) fullShare ((dat3 V c).after 3 t) from by
        unfold Dat.leavesExact; rw [live3_3 t h1], after3_3, acc3_step V c t h0]
      iintro ⟨⟨HS, Hb⟩, Ho, ⟨%d0, H0⟩, ⟨%d1, H1⟩, ⟨%d2, H2⟩, ⟨%d3, H3⟩⟩
      iapply (run_last3 c Set.univ (grid3.coords t) (by rw [inner3 t]; exact h1) _ _ _ _ _ _ _ _ _ _ (iblk3 V c 0 t) (iblk3 V c 1 t) (iblk3 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hb]
      · isplitl [HS]; · iexact HS
        iexact Hb
      isplitl [Ho]; · iexact Ho
      isplitl [H0]; · iexact H0
      isplitl [H1]; · iexact H1
      isplitl [H2]; · iexact H2
      iexact H3
    · -- a middle step
      rw [Dat.leavesExact_idle (dat3 V c) 3 t (idle3_3 t h1) (noflush3_3 t h1)]
      iintro ⟨⟨HS, Hb⟩, Ho, ⟨%d0, H0⟩, ⟨%d1, H1⟩, ⟨%d2, H2⟩, ⟨%d3, H3⟩⟩
      iapply (run_mid3 c Set.univ (grid3.coords t) (by rw [inner3 t]; exact h0) (by rw [inner3 t]; exact h1) _ _ _ _ _ _ _ _ _ _ (iblk3 V c 0 t) (iblk3 V c 1 t) _ _)
      isplitl [H0]; · iexact H0
      isplitl [H1]; · iexact H1
      isplitl [HS]; · iexact HS
      iintro ⟨H0, H1, HS⟩
      isplitl [HS Hb]
      · isplitl [HS]; · iexact HS
        iexact Hb
      isplitl [Ho]; · iexact Ho
      isplitl [H0]; · iexact H0
      isplitl [H1]; · iexact H1
      isplitl [H2]; · iexact H2
      iexists d3; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Into and out of the region -/

/-- The class's invariant with the accumulator taken out of the scoped rest. -/
theorem PhiA3_split (c : Dev nD) :
    (Pipeline.ΦA spec3 c : sProp 𝕄)
      = iprop(((∃ d, owns (c : Thread nD τ) scM3 fullShare d)
          ∗ Pipeline.scopedRestBut (Ix := Unit) (Name := ℕ) (U := UR sig nD τ) (Lvl := ℕ) (Val := Elt F) spec3 c [cc3_scratch0])
          ∗ (∃ r, prngReg c r)) := by
  unfold Pipeline.ΦA
  rw [Pipeline.scopedRest_split_of_list spec3 c [cc3_scratch0] (by decide) (by decide)]
  simp only [owns_whole]
  rfl

/-- What the region is entered with is the invariant before the first point. -/
theorem hin3 (c : Dev nD) : Pipeline.ΦA spec3 c ⊢ (dat3 V c).Φ 0 := by
  show _ ⊢ iprop((∃ d, owns (c : Thread nD τ) scM3 fullShare d) ∗ back3 c)
  unfold back3
  rw [PhiA3_split]
  iintro ⟨⟨HS, Hrest⟩, Hr⟩
  isplitl [HS]; · iexact HS
  iintro HS
  isplitl [HS Hrest]
  · isplitl [HS]; · iexact HS
    iexact Hrest
  iexact Hr

/-- After the last point the invariant gives the class's invariant back: the accumulator's contents are forgotten. -/
theorem hout3 (c : Dev nD) : (dat3 V c).Φ (Fin.last cfg3.N) ⊢ Pipeline.ΦA spec3 c := by
  have h := Phi3_any V c (Fin.last cfg3.N).val (Nat.le_of_lt_succ (Fin.last cfg3.N).isLt)
  refine (show (dat3 V c).Φ (Fin.last cfg3.N) ⊢ _ from h).trans ?_
  unfold back3
  iintro ⟨HS, Hb⟩
  iapply Hb
  iexact HS

end Cert.Kernel.Hand

end
-- ==== Proof.KBRun.lean ====
/-
  The whole program's run: region 0, two reshapes on the host, regions 1, 2 and 3.

  Between two items the core holds every unscoped buffer whole at a known valuation: the launch memory; after a
  region, the same with that region's output array replaced by what its write-backs leave (its input arrays are
  never written); after the host stretch, the two reshaped bias rows added. Each region is entered with its
  windows' arrays taken out of that valuation and left with them put back; the scoped buffers and the semaphores
  are the pipeline library's business. The run's conclusion reads every unscoped buffer of a final state at the
  last valuation, from which the arguments come back as launched and the three results as the regions' arrays.
-/
import proofs.«162706_j42030549959310_1_alg».proof.Proof.KBFrame02
import proofs.«162706_j42030549959310_1_alg».proof.Proof.KBFrame1
import proofs.«162706_j42030549959310_1_alg».proof.Proof.KBFrame3
import proofs.«162706_j42030549959310_1_alg».proof.Proof.Gen.Kernel.Regions
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- The core's buffers at launch. -/
abbrev W0 : Dev nD → Valuation τ sig (Elt F) := fun c b => m (c, b)
abbrev V0 : (c : Dev nD) → (b : Ref sig .tc) → Buf (Elt F) ((c : Thread nD τ).loc b) := fun c b => W0 m c b

/-- The core's buffers when region 0 ends: its windows' arrays at what the write-backs leave (an input's as
    entered), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the two reshapes. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- The core's buffers when region 1 ends: its windows' arrays at what the write-backs leave (an input's as
    entered), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The core's buffers when region 2 ends: its windows' arrays at what the write-backs leave (an input's as
    entered), every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- The core's buffers when region 3 ends: its windows' arrays at what the write-backs leave (an input's as
    entered), every other buffer as entered. -/
def W5 (c : Dev nD) : Valuation τ sig (Elt F) :=
  Pipeline.withArrays spec3 c (W4 m c) fun w => (dat3 (V4 m) c).arrAt w cfg3.N
theorem W5_arr (c : Dev nD) (w : Fin cfg3.W) :
    W5 m c (Proc.devRef .tc (Pipeline.arrRef spec3 w)) = (dat3 (V4 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) := by
  unfold W5; exact Pipeline.withArrays_of_ne spec3 c _ _ b hb
/-- The same read at the TensorCore's references. -/
abbrev V5 : (c : Dev nD) → (b : Ref sig .tc) → Buf (Elt F) ((c : Thread nD τ).loc b) := fun c b => W5 m c b
theorem hF3 (c : Dev nD) (w : Fin cfg3.W) : (dat3 (V4 m) c).arrAt w cfg3.N = V5 m c (Pipeline.arrRef spec3 w) :=
  (W5_arr m c w).symm
theorem hrest3 (c : Dev nD) : ∀ b, b ∉ Finset.univ.image (Pipeline.arrRef spec3) → V5 m c b = V4 m c b :=
  fun b hb => W5_of_ne m c b fun w e => hb (Finset.mem_image.mpr ⟨w, Finset.mem_univ _, e⟩)

/-! ## What an item leaves alone -/

/-- Region 0 changes only its output array. -/
theorem W1_keep (c : Dev nD) (b : Ref sig .tc) (hb : b ≠ main_v0) : W1 m c (Proc.devRef .tc b) = W0 m c (Proc.devRef .tc b) := by
  by_cases h : ∃ w, Pipeline.arrRef spec0 w = b
  · obtain ⟨w, rfl⟩ := h
    match w with
    | ⟨0, _⟩ => exact (W1_arr m c 0).trans (((dat0 (V0 m) c).arrAt_in 0 rfl _).trans (A_eq0 (V0 m) c 0))
    | ⟨1, _⟩ => exact absurd rfl hb
  · exact W1_of_ne m c b fun w e => h ⟨w, e⟩

/-- The reshapes write only the two bias rows. -/
theorem W2_keep (c : Dev nD) (b : Ref sig .tc) (hb : b ∉ hostOps1_W) : W2 m c (Proc.devRef .tc b) = W1 m c (Proc.devRef .tc b) :=
  StableHlo.after_of_writes_sub hostOps1 _ hostOps1_writes hb

/-- Region 1 changes only its output array. -/
theorem W3_keep (c : Dev nD) (b : Ref sig .tc) (hb : b ≠ main_v3) : W3 m c (Proc.devRef .tc b) = W2 m c (Proc.devRef .tc b) := by
  by_cases h : ∃ w, Pipeline.arrRef spec1 w = b
  · obtain ⟨w, rfl⟩ := h
    match w with
    | ⟨0, _⟩ => exact (W3_arr m c 0).trans (((dat1 (V2 m) c).arrAt_in 0 rfl _).trans (A_eq1 (V2 m) c 0))
    | ⟨1, _⟩ => exact (W3_arr m c 1).trans (((dat1 (V2 m) c).arrAt_in 1 rfl _).trans (A_eq1 (V2 m) c 1))
    | ⟨2, _⟩ => exact (W3_arr m c 2).trans (((dat1 (V2 m) c).arrAt_in 2 rfl _).trans (A_eq1 (V2 m) c 2))
    | ⟨3, _⟩ => exact absurd rfl hb
  · exact W3_of_ne m c b fun w e => h ⟨w, e⟩

/-- Region 2 changes only its output array. -/
theorem W4_keep (c : Dev nD) (b : Ref sig .tc) (hb : b ≠ main_v4) : W4 m c (Proc.devRef .tc b) = W3 m c (Proc.devRef .tc b) := by
  by_cases h : ∃ w, Pipeline.arrRef spec2 w = b
  · obtain ⟨w, rfl⟩ := h
    match w with
    | ⟨0, _⟩ => exact (W4_arr m c 0).trans (((dat2 (V3 m) c).arrAt_in 0 rfl _).trans (A_eq2 (V3 m) c 0))
    | ⟨1, _⟩ => exact (W4_arr m c 1).trans (((dat2 (V3 m) c).arrAt_in 1 rfl _).trans (A_eq2 (V3 m) c 1))
    | ⟨2, _⟩ => exact absurd rfl hb
  · exact W4_of_ne m c b fun w e => h ⟨w, e⟩

/-- Region 3 changes only its output array. -/
theorem W5_keep (c : Dev nD) (b : Ref sig .tc) (hb : b ≠ main_v5) : W5 m c (Proc.devRef .tc b) = W4 m c (Proc.devRef .tc b) := by
  by_cases h : ∃ w, Pipeline.arrRef spec3 w = b
  · obtain ⟨w, rfl⟩ := h
    match w with
    | ⟨0, _⟩ => exact (W5_arr m c 0).trans (((dat3 (V4 m) c).arrAt_in 0 rfl _).trans (A_eq3 (V4 m) c 0))
    | ⟨1, _⟩ => exact (W5_arr m c 1).trans (((dat3 (V4 m) c).arrAt_in 1 rfl _).trans (A_eq3 (V4 m) c 1))
    | ⟨2, _⟩ => exact (W5_arr m c 2).trans (((dat3 (V4 m) c).arrAt_in 2 rfl _).trans (A_eq3 (V4 m) c 2))
    | ⟨3, _⟩ => exact absurd rfl hb
  · exact W5_of_ne m c b fun w e => h ⟨w, e⟩

/-- A buffer no item writes reaches the end as launched. -/
theorem W5_launch (c : Dev nD) (b : Ref sig .tc) (h0 : b ≠ main_v0) (h1 : b ∉ hostOps1_W) (h3 : b ≠ main_v3) (h4 : b ≠ main_v4) (h5 : b ≠ main_v5) :
    W5 m c (Proc.devRef .tc b) = m ((c : Thread nD τ).loc b) :=
  (W5_keep m c b h5).trans <| (W4_keep m c b h4).trans <| (W3_keep m c b h3).trans <| (W2_keep m c b h1).trans <| (W1_keep m c b h0).trans rfl

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V3 m) c
  | ⟨3, _⟩ => fun c => dat3 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 as a segment: entered with every unscoped buffer at `W0`, left with them at `W1`. Its
    windows' arrays are taken out of the unscoped buffers at entry and put back at what the write-backs leave; the
    generator register goes into the invariant and comes back; the core owes nothing; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W2`, left with them at `W3`. Its
    windows' arrays are taken out of the unscoped buffers at entry and put back at what the write-backs leave; the
    generator register goes into the invariant and comes back; the core owes nothing; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from by
      unfold Pipeline.ΦA
      iintro ⟨Hp, -, Hr⟩
      isplitl [Hr]; · iexact Hr
      iexact Hp).trans ?_
    exact hin1 (V2 m) c
  hout c := by
    rw [Pipeline.ownSems0_none]
    refine (show (pdats m 1 c).Φ (Fin.last _) ⊢ (Pipeline.ΦA spec1 c : sProp 𝕄) from hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W3`, left with them at `W4`. Its
    windows' arrays are taken out of the unscoped buffers at entry and put back at what the write-backs leave; the
    generator register goes into the invariant and comes back; the core owes nothing; the kernel has no semaphore
    of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W4`, left with them at `W5`. Its
    windows' arrays are taken out of the unscoped buffers at entry and put back at what the write-backs leave; the
    generator register goes into the invariant and comes back; the core owes nothing; the kernel has no semaphore
    of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m) c).loose
  hwaits := Pipeline.hwaits_of_owed_zero _ _ _ _ L lv 3 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec3 c : sProp 𝕄) from by
      unfold Pipeline.ΦA
      iintro ⟨Hp, -, Hr⟩
      isplitl [Hr]; · iexact Hr
      iexact Hp).trans ?_
    exact hin3 (V4 m) c
  hout c := by
    rw [Pipeline.ownSems0_none]
    refine (show (pdats m 3 c).Φ (Fin.last _) ⊢ (Pipeline.ΦA spec3 c : sProp 𝕄) from hout3 (V4 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V4 m c) (V5 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- @main's five items in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .region (reg2 m),
    .region (reg3 m) ]

theorem main_run (c : Dev nD) : main (F := F) c = Pipeline.Seg.run (segs m) := (main_chain c).trans (by chain_rfl)

set_option backward.isDefEq.respectTransparency.types false in
/-- From any memory with zero counters every weakly fair execution of @main terminates, and every final state holds
    every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN, read: the five arguments end as launched, and the three results hold what regions 3, 2 and 1 leave in
    their output arrays. -/
theorem run_main : θ_run defs (onTc (τ := τ) (main (F := F))) ⟨m, fun _ => 0, ρ⟩ (fun r => ∀ c : Dev nD,
      r.2.mem ((c.tc : Thread nD τ).loc main_v5) = (dat3 (V4 m) c).arrAt 3 cfg3.N
      ∧ r.2.mem ((c.tc : Thread nD τ).loc main_v4) = (dat2 (V3 m) c).arrAt 2 cfg2.N
      ∧ r.2.mem ((c.tc : Thread nD τ).loc main_v3) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
    (h c _ (mem_uc main_v5 (by decide))).trans (W5_arr m c 3),
    (h c _ (mem_uc main_v4 (by decide))).trans ((W5_keep m c main_v4 (by decide)).trans (W4_arr m c 2)),
    (h c _ (mem_uc main_v3 (by decide))).trans ((W5_keep m c main_v3 (by decide)).trans ((W4_keep m c main_v3 (by decide)).trans (W3_arr m c 3))),
    (h c _ (mem_uc main_arg0 (by decide))).trans (W5_launch m c main_arg0 (by decide) (by decide) (by decide) (by decide) (by decide)),
    (h c _ (mem_uc main_arg1 (by decide))).trans (W5_launch m c main_arg1 (by decide) (by decide) (by decide) (by decide) (by decide)),
    (h c _ (mem_uc main_arg2 (by decide))).trans (W5_launch m c main_arg2 (by decide) (by decide) (by decide) (by decide) (by decide)),
    (h c _ (mem_uc main_arg3 (by decide))).trans (W5_launch m c main_arg3 (by decide) (by decide) (by decide) (by decide) (by decide)),
    (h c _ (mem_uc main_arg4 (by decide))).trans (W5_launch m c main_arg4 (by decide) (by decide) (by decide) (by decide) (by decide))⟩)
    (run_all m ρ)

/-! ## What each region is entered with -/

/-- Region 1 reads the data as launched, -/
theorem V2_arg0 (c : Dev nD) : V2 m c main_arg0 = m ((c : Thread nD τ).loc main_arg0) :=
  (W2_keep m c main_arg0 (by decide)).trans ((W1_keep m c main_arg0 (by decide)).trans rfl)
/-- the binarised weights region 0 left, -/
theorem V2_v0 (c : Dev nD) : V2 m c main_v0 = (dat0 (V0 m) c).arrAt 1 cfg0.N :=
  (W2_keep m c main_v0 (by decide)).trans (W1_arr m c 1)
/-- the encoder weights region 0 read, as launched. -/
theorem V0_arg1 (c : Dev nD) : V0 m c main_arg1 = m ((c : Thread nD τ).loc main_arg1) := rfl
/-- Region 2 reads the code region 1 left and the classifier weights as launched. -/
theorem V3_v3 (c : Dev nD) : V3 m c main_v3 = (dat1 (V2 m) c).arrAt 3 cfg1.N := W3_arr m c 3
theorem V3_arg4 (c : Dev nD) : V3 m c main_arg4 = m ((c : Thread nD τ).loc main_arg4) :=
  (W3_keep m c main_arg4 (by decide)).trans ((W2_keep m c main_arg4 (by decide)).trans ((W1_keep m c main_arg4 (by decide)).trans rfl))
/-- Region 3 reads the code, the binarised weights, -/
theorem V4_v3 (c : Dev nD) : V4 m c main_v3 = (dat1 (V2 m) c).arrAt 3 cfg1.N :=
  (W4_keep m c main_v3 (by decide)).trans (W3_arr m c 3)
theorem V4_v0 (c : Dev nD) : V4 m c main_v0 = (dat0 (V0 m) c).arrAt 1 cfg0.N :=
  (W4_keep m c main_v0 (by decide)).trans ((W3_keep m c main_v0 (by decide)).trans (V2_v0 m c))
/-- and the decoder bias as the host stretch reshaped it. -/
theorem V4_v2 (c : Dev nD) : V4 m c main_v2 = V2 m c main_v2 :=
  (W4_keep m c main_v2 (by decide)).trans (W3_keep m c main_v2 (by decide))

end Cert.Kernel.Hand

end
-- ==== Proof.KIData.lean ====
/-
  What the four kernel regions compute, region by region, as the pipeline's proof data.

  The program binarises the encoder weights (region 0), encodes (region 1: a matrix product accumulated in a
  scratch buffer over the innermost grid axis, thresholded after the last step), classifies (region 2: one matrix
  product per row block) and decodes (region 3: as region 1, over the hidden axis). Each region's data are stated
  at a parameter `V`, the contents of the core's buffers when the region is entered: a window's block at a grid
  point is read off its array in `V`, and what the body leaves in each staging buffer is a term over the body's
  own pure payload functions of those blocks. For the two accumulating regions the scratch buffer's contents after
  point `n` are a recursion on `n`: the step's partial product added to zero at the first step of a run along
  the innermost axis, to what the point before left otherwise; the region's invariant holds the scratch buffer at
  exactly those contents, beside what returns the other scoped buffers and the generator register.
-/
import proofs.«162706_j42030549959310_1_alg».proof.Proof.Gen.KernelIdeal.Launch
import proofs.«162706_j42030549959310_1_alg».proof.Proof.Gen.KernelIdeal.Skeleton
import proofs.«162706_j42030549959310_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the encoder weights binarised, one block of 256 rows at a point -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the input block stays; the output buffer holds the body's payload of the input block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (iblk0 V c 0 t)
  Φ _ := Pipeline.ΦA spec0 c
  q _ := fullShare
  owed _ := 0

/-! ## Region 1: the encoding, accumulated over the 8 steps of the innermost axis -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator after point `n`: this step's product added to zero when the step is the first of its
    run of 8, else to what the point before left. -/
def acc1 (c : Dev nD) : (n : ℕ) → n < cfg1.N → Vec F S1024x1024 .f32
  | 0, hn => k1_pay2 (iblk1 V c 0 ⟨0, hn⟩) (k1_pay1 (F := F)) (iblk1 V c 1 ⟨0, hn⟩)
  | n + 1, hn => k1_pay2 (iblk1 V c 0 ⟨n + 1, hn⟩)
      (if (n + 1) % 8 = 0 then (k1_pay1 (F := F)) else acc1 c n (Nat.lt_of_succ_lt hn)) (iblk1 V c 1 ⟨n + 1, hn⟩)

/-- Region 1's scratch accumulator as a memref. -/
abbrev scM1 : Memref sig .tc .vmem S1024x1024 .f32 := Memref.whole cc1_scratch0

/-- What gives the class's invariant back once the accumulator is returned at any contents. -/
abbrev back1 (c : Dev nD) : sProp 𝕄 :=
  iprop((∃ d, owns (c : Thread nD τ) scM1 fullShare d) -∗ Pipeline.ΦA spec1 c)

/-- Region 1's invariant before position `n`: the accumulator at anything before the first point, then at what
    the point before left; beside it what returns the rest. -/
def Phi1 (c : Dev nD) : (n : ℕ) → n ≤ cfg1.N → sProp 𝕄
  | 0, _ => iprop((∃ d, owns (c : Thread nD τ) scM1 fullShare d) ∗ back1 c)
  | n + 1, hn => iprop(owns (c : Thread nD τ) scM1 fullShare (acc1 V c n hn) ∗ back1 c)

/-- Region 1's proof data: the three input blocks stay; the output buffer, where it is stored (the last step of a
    run), holds the thresholded accumulator plus bias. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := Phi1 V c t.val (Nat.le_of_lt_succ t.isLt)
  q _ := fullShare
  owed _ := 0

/-! ## Region 2: the classifier, one block of 512 rows at a point -/

/-- Window `w`'s block at point `t`, read off its array as region 2 finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Region 2's proof data: the two input blocks stay; the output buffer holds the body's product of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (iblk2 V c 0 t) (iblk2 V c 1 t)
  Φ _ := Pipeline.ΦA spec2 c
  q _ := fullShare
  owed _ := 0

/-! ## Region 3: the decoding, accumulated over the 4 steps of the innermost axis -/

/-- Window `w`'s block at point `t`, read off its array as region 3 finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch accumulator after point `n`: this step's product added to zero when the step is the first of its
    run of 4, else to what the point before left. -/
def acc3 (c : Dev nD) : (n : ℕ) → n < cfg3.N → Vec F S1024x1024 .f32
  | 0, hn => k3_pay2 (iblk3 V c 0 ⟨0, hn⟩) (k3_pay1 (F := F)) (iblk3 V c 1 ⟨0, hn⟩)
  | n + 1, hn => k3_pay2 (iblk3 V c 0 ⟨n + 1, hn⟩)
      (if (n + 1) % 4 = 0 then (k3_pay1 (F := F)) else acc3 c n (Nat.lt_of_succ_lt hn)) (iblk3 V c 1 ⟨n + 1, hn⟩)

/-- Region 3's scratch accumulator as a memref. -/
abbrev scM3 : Memref sig .tc .vmem S1024x1024 .f32 := Memref.whole cc3_scratch0

/-- What gives the class's invariant back once the accumulator is returned at any contents. -/
abbrev back3 (c : Dev nD) : sProp 𝕄 :=
  iprop((∃ d, owns (c : Thread nD τ) scM3 fullShare d) -∗ Pipeline.ΦA spec3 c)

/-- Region 3's invariant before position `n`. -/
def Phi3 (c : Dev nD) : (n : ℕ) → n ≤ cfg3.N → sProp 𝕄
  | 0, _ => iprop((∃ d, owns (c : Thread nD τ) scM3 fullShare d) ∗ back3 c)
  | n + 1, hn => iprop(owns (c : Thread nD τ) scM3 fullShare (acc3 V c n hn) ∗ back3 c)

/-- Region 3's proof data. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (iblk3 V c 2 t)
  Φ t := Phi3 V c t.val (Nat.le_of_lt_succ t.isLt)
  q _ := fullShare
  owed _ := 0

end Cert.KernelIdeal.Hand

end
-- ==== Proof.KIFrame02.lean ====
/-
  Regions 0 and 2: the body obligations of the two kernels that keep nothing between grid points.

  Each loads its input blocks whole, computes one value and stores it whole into its output block; the class's
  invariant and what the core owes pass through untouched, and every input's staging buffer holds its block at
  every point (fetched there, or fetched earlier with the block index unmoved since).
-/
import proofs.«162706_j42030549959310_1_alg».proof.Proof.KIData
import proofs.«162706_j42030549959310_1_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.WholeStore

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: binarise -/

set_option maxHeartbeats 1000000 in
/-- The body: the output buffer, whatever it held, is left at the payload of the input block. -/
theorem run_body0 (c : Dev nD) (E : Set ℕ) (i : grid0.Coords) (arg1 : Memref sig .tc .vmem S256x8192 .f32) (harg1 : arg1.IsWhole) (arg2 : Memref sig .tc .vmem S256x8192 .bf16) (harg2 : arg2.IsWhole)
    (x0 : Vec F S256x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__binarize_kernel i arg1 harg1 arg2 harg2) K := by
  simp only [cc0__binarize_kernel_eq_skeleton]; unfold cc0__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  simp only [read_writes_head (S := S256x8192) _ _ origin2, readAt_whole (S := S256x8192) _ _ origin2]

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay1 (iblk0 V c 0 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d)))
    ⊢ wp frame (wpE (defs₀ (F := F)) Variants.none c none) Set.univ (bodyAt0 t) (fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t))) := by
  unfold bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (run_body0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

/-! ## Region 2: classify -/

set_option maxHeartbeats 1000000 in
/-- The body: the output buffer, whatever it held, is left at the product of the two input blocks. -/
theorem run_body2 (c : Dev nD) (E : Set ℕ) (i : grid2.Coords) (arg1 : Memref sig .tc .vmem S512x4096 .f32) (harg1 : arg1.IsWhole) (arg2 : Memref sig .tc .vmem S128x4096 .f32) (harg2 : arg2.IsWhole) (arg3 : Memref sig .tc .vmem S512x128 .f32) (harg3 : arg3.IsWhole)
    (x0 : Vec F S512x4096 .f32) (x1 : Vec F S128x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k2_pay1 x0 x1)) -∗ K ⟨⟩))
      ⊢ wp frame (wpE (defs₀ (F := F)) Variants.none c none) E (cc2__classify_kernel i arg1 harg1 arg2 harg2 arg3 harg3) K := by
  simp only [cc2__classify_kernel_eq_skeleton]; unfold cc2__classify_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  simp only [read_writes_head (S := S512x128) _ _ origin2, readAt_whole (S := S512x4096) _ _ origin2,
    readAt_whole (S := S128x4096) _ _ origin2]

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay1 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) (fun _ =>
        iprop((dat2 V c).Φ t.succ ∗ (dat2 V c).owesAt () t.succ
          ∗ owns (c : Thread nD τ) (st2_0 t) fullShare ((dat2 V c).after 0 t)
          ∗ owns (c : Thread nD τ) (st2_1 t) fullShare ((dat2 V c).after 1 t)
          ∗ owns (c : Thread nD τ) (st2_2 t) fullShare ((dat2 V c).after 2 t))) := by
  unfold bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (run_body2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIFrame1.lean ====
/-
  Region 1: the body obligation of the accumulating kernel, at every grid point.

  The innermost grid axis has 8 steps. At a step the body adds the product of the step's two blocks into the
  scratch accumulator, after zeroing it when the step is the first of its run; after the last step of a run it adds
  the bias row to the accumulator, thresholds, and stores the result block. So there are three kinds of point: the
  first of a run (the accumulator may hold anything and is left at zero plus the product), a middle one (the
  accumulator holds what the point before left), and the last (as a middle one, and the output block is stored).
  The output window is idle at every point but the last of a run, where it is also written back. The region's
  invariant carries the accumulator at exactly what the recursion `acc1` says, beside a promise that returns the
  class's invariant once the accumulator is handed back.
-/
import proofs.«162706_j42030549959310_1_alg».proof.Proof.KIData
import proofs.«162706_j42030549959310_1_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.WholeStore

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Which kind of point -/

/-- The innermost coordinate of point `t` is `t mod 8`. -/
theorem inner1 : ∀ t : Fin cfg1.N, ((grid1.coords t) 2).val = t.val % 8 :=
  (by decide +kernel : ∀ t : Fin grid1.N, ((grid1.coords t) 2).val = t.val % 8)

/-- The body's first condition (zero the accumulator) holds exactly at the first step of a run. -/
theorem resets1_iff (i : grid1.Coords) :
    (Scalar.cmpi .ne (Scalar.extui (Scalar.cmpi .eq (BitVec.ofNat 32 (i 2).val) 0#32) : BitVec 32) 0#32 = 1#1) ↔ (i 2).val = 0 := by
  have h : ∀ j : Fin 8, (Scalar.cmpi .ne (Scalar.extui (Scalar.cmpi .eq (BitVec.ofNat 32 j.val) 0#32) : BitVec 32) 0#32 = 1#1) ↔ j.val = 0 := by decide
  exact h (i 2)

/-- The body's second condition (store the output) holds exactly at the last step of a run. -/
theorem stores1_iff (i : grid1.Coords) : k1_cond2 i = 1#1 ↔ (i 2).val = 7 := by
  have h : ∀ j : Fin 8, (Scalar.cmpi .ne (Scalar.extui (Scalar.cmpi .eq (BitVec.ofNat 32 j.val) 7#32) : BitVec 32) 0#32 = 1#1) ↔ j.val = 7 := by decide
  exact h (i 2)

/-! ## The body at each kind of point -/

set_option maxHeartbeats 2000000 in
/-- First step of a run: the accumulator, whatever it held, is left at zero plus the product of the two blocks. -/
theorem run_first1 (c : Dev nD) (E : Set ℕ) (i : grid1.Coords) (hk : (i 2).val = 0)
    (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (x : Vec F S1024x1024 .f32) (w : Vec F S1024x1024 .bf16) (K : PUnit → sProp 𝕄) :
    iprop(owns (c : Thread nD τ) arg3 fullShare x ∗ owns (c : Thread nD τ) arg4 fullShare w
        ∗ (∃ d, owns (c : Thread nD τ) arg7 fullShare d)
        ∗ (iprop(owns (c : Thread nD τ) arg3 fullShare x ∗ owns (c : Thread nD τ) arg4 fullShare w
            ∗ owns (c : Thread nD τ) arg7 fullShare (k1_pay2 x (k1_pay1 (F := F)) w)) -∗ K ⟨⟩))
      ⊢ wp frame (wpE (defs₀ (F := F)) Variants.none c none) E (cc1__encode_kernel i arg3 harg3 arg4 harg4 arg5 harg5 arg6 harg6 arg7 harg7) K := by
  have hc1 : (Scalar.cmpi .ne (Scalar.extui (Scalar.cmpi .eq (BitVec.ofNat 32 (i 2).val) 0#32) : BitVec 32) 0#32 = 1#1) :=
    (resets1_iff i).mpr hk
  have hc2 : ¬ k1_cond2 i = 1#1 := fun h => by have := (stores1_iff i).mp h; omega
  simp only [cc1__encode_kernel_eq_skeleton]; unfold cc1__encode_kernel_skel
  unfold owns
  iintro ⟨⟨%f3, %hf3, H3⟩, ⟨%f4, %hf4, H4⟩, ⟨%d7, %f7, -, H7⟩, Hk⟩
  subst hf3 hf4
  sl_exec (disch := first | exact hc1 | exact hc2)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  sl_unfold_words
  simp only [read_writes_head (S := S1024x1024) _ _ origin2, readAt_whole (S := S1024x1024) _ _ origin2,
    View.readCov_unit_zero (S := S1024x1024) _ origin2]

set_option maxHeartbeats 2000000 in
/-- A middle step: the product of the two blocks is added to what the accumulator held. -/
theorem run_mid1 (c : Dev nD) (E : Set ℕ) (i : grid1.Coords) (hk0 : (i 2).val ≠ 0) (hk1 : (i 2).val ≠ 7)
    (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (x : Vec F S1024x1024 .f32) (w : Vec F S1024x1024 .bf16) (a : Vec F S1024x1024 .f32) (K : PUnit → sProp 𝕄) :
    iprop(owns (c : Thread nD τ) arg3 fullShare x ∗ owns (c : Thread nD τ) arg4 fullShare w
        ∗ owns (c : Thread nD τ) arg7 fullShare a
        ∗ (iprop(owns (c : Thread nD τ) arg3 fullShare x ∗ owns (c : Thread nD τ) arg4 fullShare w
            ∗ owns (c : Thread nD τ) arg7 fullShare (k1_pay2 x a w)) -∗ K ⟨⟩))
      ⊢ wp frame (wpE (defs₀ (F := F)) Variants.none c none) E (cc1__encode_kernel i arg3 harg3 arg4 harg4 arg5 harg5 arg6 harg6 arg7 harg7) K := by
  have hc1 : ¬ (Scalar.cmpi .ne (Scalar.extui (Scalar.cmpi .eq (BitVec.ofNat 32 (i 2).val) 0#32) : BitVec 32) 0#32 = 1#1) :=
    fun h => hk0 ((resets1_iff i).mp h)
  have hc2 : ¬ k1_cond2 i = 1#1 := fun h => hk1 ((stores1_iff i).mp h)
  simp only [cc1__encode_kernel_eq_skeleton]; unfold cc1__encode_kernel_skel
  unfold owns
  iintro ⟨⟨%f3, %hf3, H3⟩, ⟨%f4, %hf4, H4⟩, ⟨%f7, %hf7, H7⟩, Hk⟩
  subst hf3 hf4 hf7
  sl_exec (disch := first | exact hc1 | exact hc2)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  sl_unfold_words
  simp only [read_writes_head (S := S1024x1024) _ _ origin2, readAt_whole (S := S1024x1024) _ _ origin2,
    View.readCov_unit_zero (S := S1024x1024) _ origin2]

set_option maxHeartbeats 2000000 in
/-- Last step of a run: the product is added to the accumulator, and the output block is stored from the new
    accumulator and the bias row. -/
theorem run_last1 (c : Dev nD) (E : Set ℕ) (i : grid1.Coords) (hk : (i 2).val = 7)
    (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (x : Vec F S1024x1024 .f32) (w : Vec F S1024x1024 .bf16) (b : Vec F S1x1024 .f32) (a : Vec F S1024x1024 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 x a w) b) ∗ owns (c : Thread nD τ) arg7 fullShare (k1_pay2 x a w)) -∗ K ⟨⟩))
      ⊢ wp frame (wpE (defs₀ (F := F)) Variants.none c none) E (cc1__encode_kernel i arg3 harg3 arg4 harg4 arg5 harg5 arg6 harg6 arg7 harg7) K := by
  have hc1 : ¬ (Scalar.cmpi .ne (Scalar.extui (Scalar.cmpi .eq (BitVec.ofNat 32 (i 2).val) 0#32) : BitVec 32) 0#32 = 1#1) := fun h => by
    have := (resets1_iff i).mp h; omega
  have hc2 : k1_cond2 i = 1#1 := (stores1_iff i).mpr hk
  simp only [cc1__encode_kernel_eq_skeleton]; unfold cc1__encode_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  subst hf3 hf4 hf5 hf7
  sl_exec (disch := first | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    simp only [read_writes_head (S := S1024x1024) _ _ origin2, readAt_whole (S := S1024x1024) _ _ origin2,
      readAt_whole (S := S1x1024) _ _ origin2, View.readCov_unit_zero (S := S1024x1024) _ origin2]
  iexists _; isplitr
  swap; · iexact H7
  ipureintro
  sl_unfold_words
  simp only [read_writes_head (S := S1024x1024) _ _ origin2, readAt_whole (S := S1024x1024) _ _ origin2,
    View.readCov_unit_zero (S := S1024x1024) _ origin2]

/-! ## The proof data projected -/

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]

/-- Each input's staging buffer holds its block at every point, whether the point fetched it or the block index
    has not moved since it was fetched. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The accumulator's recursion, by kind of point -/

theorem acc1_first (c : Dev nD) (t : Fin cfg1.N) (h : t.val % 8 = 0) :
    acc1 V c t.val t.isLt = k1_pay2 (iblk1 V c 0 t) (k1_pay1 (F := F)) (iblk1 V c 1 t) := by
  obtain ⟨n, hn⟩ := t
  cases n with
  | zero => rfl
  | succ n => simp only [acc1]; rw [if_pos h]

theorem acc1_step (c : Dev nD) (t : Fin cfg1.N) (h : t.val % 8 ≠ 0) :
    acc1 V c t.val t.isLt = k1_pay2 (iblk1 V c 0 t)
      (acc1 V c (t.val - 1) (Nat.lt_of_le_of_lt (Nat.sub_le _ _) t.isLt)) (iblk1 V c 1 t) := by
  obtain ⟨n, hn⟩ := t
  cases n with
  | zero => exact absurd (Nat.zero_mod _) h
  | succ n => simp only [acc1]; rw [if_neg h]; rfl

/-! ## The invariant, by position -/

theorem Phi1_any (c : Dev nD) (n : ℕ) (h : n ≤ cfg1.N) :
    Phi1 V c n h ⊢ iprop((∃ d, owns (c : Thread nD τ) scM1 fullShare d) ∗ back1 c) := by
  cases n with
  | zero => exact .rfl
  | succ n =>
    show iprop(owns (c : Thread nD τ) scM1 fullShare (acc1 V c n h) ∗ back1 c) ⊢ _
    iintro ⟨HS, Hb⟩
    isplitl [HS]
    · iexists _; iexact HS
    iexact Hb

theorem Phi1_pos (c : Dev nD) (n : ℕ) (h : n ≤ cfg1.N) (hz : n ≠ 0) :
    Phi1 V c n h = iprop(owns (c : Thread nD τ) scM1 fullShare (acc1 V c (n - 1) (by omega)) ∗ back1 c) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-! ## The output window: idle but at the last step of a run -/

theorem idle1_3 (t : Fin cfg1.N) (h : t.val % 8 ≠ 7) : cfg1.idle 3 (cfg1.grid.coords t) = true := by
  show (!(k1_cond2 (grid1.coords t) == 1#1)) = true
  have : ¬ k1_cond2 (grid1.coords t) = 1#1 := fun e => h (by rw [← inner1 t]; exact (stores1_iff _).mp e)
  simp [this]

theorem live1_3 (t : Fin cfg1.N) (h : t.val % 8 = 7) : cfg1.idle 3 (cfg1.grid.coords t) = false := by
  show (!(k1_cond2 (grid1.coords t) == 1#1)) = false
  have : k1_cond2 (grid1.coords t) = 1#1 := (stores1_iff _).mpr (by rw [inner1 t]; exact h)
  simp [this]

theorem noflush1_3 (t : Fin cfg1.N) (h : t.val % 8 ≠ 7) : (cfg1.win 3).flush t = false := by
  cases hf : (cfg1.win 3).flush t with
  | false => rfl
  | true => exact absurd ((flush1_3 t).mp hf) h

/-! ## The body obligation -/

set_option maxHeartbeats 4000000 in
/-- The body at any point, by its kind. -/
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
        iprop((dat1 V c).Φ t.succ ∗ (dat1 V c).owesAt () t.succ
          ∗ (dat1 V c).leavesExact 0 t ∗ (dat1 V c).leavesExact 1 t
          ∗ (dat1 V c).leavesExact 2 t ∗ (dat1 V c).leavesExact 3 t)) := by
  unfold bodyAt1
  simp only [before1_0, before1_1, before1_2]
  rw [show (dat1 V c).owesAt () t.succ = (dat1 V c).owesAt () t.castSucc from rfl]
  rw [show (dat1 V c).Φ t.succ = iprop(owns (c : Thread nD τ) scM1 fullShare (acc1 V c t.val t.isLt) ∗ back1 c) from rfl]
  rw [Phi1_castSucc]
  rw [show (dat1 V c).leavesExact 0 t = owns (c : Thread nD τ) (st1_0 t) fullShare (iblk1 V c 0 t) from by
    unfold Dat.leavesExact; rw [show cfg1.idle 0 (cfg1.grid.coords t) = false from rfl, after1_0]]
  rw [show (dat1 V c).leavesExact 1 t = owns (c : Thread nD τ) (st1_1 t) fullShare (iblk1 V c 1 t) from by
    unfold Dat.leavesExact; rw [show cfg1.idle 1 (cfg1.grid.coords t) = false from rfl, after1_1]]
  rw [show (dat1 V c).leavesExact 2 t = owns (c : Thread nD τ) (st1_2 t) fullShare (iblk1 V c 2 t) from by
    unfold Dat.leavesExact; rw [show cfg1.idle 2 (cfg1.grid.coords t) = false from rfl, after1_2]]
  by_cases h0 : t.val % 8 = 0
  · -- first step of a run
    have hne : t.val % 8 ≠ 7 := by omega
    rw [Dat.leavesExact_idle (dat1 V c) 3 t (idle1_3 t hne) (noflush1_3 t hne), acc1_first V c t h0]
    iintro ⟨HΦ, Ho, ⟨%d0, H0⟩, ⟨%d1, H1⟩, ⟨%d2, H2⟩, ⟨%d3, H3⟩⟩
    ihave HΦ' := (Phi1_any V c _ _) $$ HΦ
    icases HΦ' with ⟨HS, Hb⟩
    iapply (run_first1 c Set.univ (grid1.coords t) (by rw [inner1 t]; exact h0) _ _ _ _ _ _ _ _ _ _ (iblk1 V c 0 t) (iblk1 V c 1 t) _)
    isplitl [H0]; · iexact H0
    isplitl [H1]; · iexact H1
    isplitl [HS]; · iexact HS
    iintro ⟨H0, H1, HS⟩
    isplitl [HS Hb]
    · isplitl [HS]; · iexact HS
      iexact Hb
    isplitl [Ho]; · iexact Ho
    isplitl [H0]; · iexact H0
    isplitl [H1]; · iexact H1
    isplitl [H2]; · iexact H2
    iexists d3; iexact H3
  · have hz : t.val ≠ 0 := fun e => h0 (by rw [e])
    rw [Phi1_pos V c _ _ hz, acc1_step V c t h0]
    by_cases h1 : t.val % 8 = 7
    · -- last step of a run
      rw [show (dat1 V c).leavesExact 3 t = owns (c : Thread nD τ) (st1_3 t) fullShare ((dat1 V c).after 3 t) from by
        unfold Dat.leavesExact; rw [live1_3 t h1], after1_3, acc1_step V c t h0]
      iintro ⟨⟨HS, Hb⟩, Ho, ⟨%d0, H0⟩, ⟨%d1, H1⟩, ⟨%d2, H2⟩, ⟨%d3, H3⟩⟩
      iapply (run_last1 c Set.univ (grid1.coords t) (by rw [inner1 t]; exact h1) _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hb]
      · isplitl [HS]; · iexact HS
        iexact Hb
      isplitl [Ho]; · iexact Ho
      isplitl [H0]; · iexact H0
      isplitl [H1]; · iexact H1
      isplitl [H2]; · iexact H2
      iexact H3
    · -- a middle step
      rw [Dat.leavesExact_idle (dat1 V c) 3 t (idle1_3 t h1) (noflush1_3 t h1)]
      iintro ⟨⟨HS, Hb⟩, Ho, ⟨%d0, H0⟩, ⟨%d1, H1⟩, ⟨%d2, H2⟩, ⟨%d3, H3⟩⟩
      iapply (run_mid1 c Set.univ (grid1.coords t) (by rw [inner1 t]; exact h0) (by rw [inner1 t]; exact h1) _ _ _ _ _ _ _ _ _ _ (iblk1 V c 0 t) (iblk1 V c 1 t) _ _)
      isplitl [H0]; · iexact H0
      isplitl [H1]; · iexact H1
      isplitl [HS]; · iexact HS
      iintro ⟨H0, H1, HS⟩
      isplitl [HS Hb]
      · isplitl [HS]; · iexact HS
        iexact Hb
      isplitl [Ho]; · iexact Ho
      isplitl [H0]; · iexact H0
      isplitl [H1]; · iexact H1
      isplitl [H2]; · iexact H2
      iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the region -/

/-- The class's invariant with the accumulator taken out of the scoped rest. -/
theorem PhiA1_split (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [owns_whole]
  rfl

/-- What the region is entered with is the invariant before the first point. -/
theorem hin1 (c : Dev nD) : Pipeline.ΦA spec1 c ⊢ (dat1 V c).Φ 0 := by
  show _ ⊢ iprop((∃ d, owns (c : Thread nD τ) scM1 fullShare d) ∗ back1 c)
  unfold back1
  rw [PhiA1_split]
  iintro ⟨⟨HS, Hrest⟩, Hr⟩
  isplitl [HS]; · iexact HS
  iintro HS
  isplitl [HS Hrest]
  · isplitl [HS]; · iexact HS
    iexact Hrest
  iexact Hr

/-- After the last point the invariant gives the class's invariant back: the accumulator's contents are forgotten. -/
theorem hout1 (c : Dev nD) : (dat1 V c).Φ (Fin.last cfg1.N) ⊢ Pipeline.ΦA spec1 c := by
  have h := Phi1_any V c (Fin.last cfg1.N).val (Nat.le_of_lt_succ (Fin.last cfg1.N).isLt)
  refine (show (dat1 V c).Φ (Fin.last cfg1.N) ⊢ _ from h).trans ?_
  unfold back1
  iintro ⟨HS, Hb⟩
  iapply Hb
  iexact HS

end Cert.KernelIdeal.Hand

end
-- ==== Proof.KIFrame3.lean ====
/-
  Region 3: the body obligation of the accumulating kernel, at every grid point.

  The innermost grid axis has 4 steps. At a step the body adds the product of the step's two blocks into the
  scratch accumulator, after zeroing it when the step is the first of its run; after the last step of a run it adds
  the bias row to the accumulator, thresholds, and stores the result block. So there are three kinds of point: the
  first of a run (the accumulator may hold anything and is left at zero plus the product), a middle one (the
  accumulator holds what the point before left), and the last (as a middle one, and the output block is stored).
  The output window is idle at every point but the last of a run, where it is also written back. The region's
  invariant carries the accumulator at exactly what the recursion `acc3` says, beside a promise that returns the
  class's invariant once the accumulator is handed back.
-/
import proofs.«162706_j42030549959310_1_alg».proof.Proof.KIData
import proofs.«162706_j42030549959310_1_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.WholeStore

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Which kind of point -/

/-- The innermost coordinate of point `t` is `t mod 4`. -/
theorem inner3 : ∀ t : Fin cfg3.N, ((grid3.coords t) 2).val = t.val % 4 :=
  (by decide +kernel : ∀ t : Fin grid3.N, ((grid3.coords t) 2).val = t.val % 4)

/-- The body's first condition (zero the accumulator) holds exactly at the first step of a run. -/
theorem resets3_iff (i : grid3.Coords) :
    (Scalar.cmpi .ne (Scalar.extui (Scalar.cmpi .eq (BitVec.ofNat 32 (i 2).val) 0#32) : BitVec 32) 0#32 = 1#1) ↔ (i 2).val = 0 := by
  have h : ∀ j : Fin 4, (Scalar.cmpi .ne (Scalar.extui (Scalar.cmpi .eq (BitVec.ofNat 32 j.val) 0#32) : BitVec 32) 0#32 = 1#1) ↔ j.val = 0 := by decide
  exact h (i 2)

/-- The body's second condition (store the output) holds exactly at the last step of a run. -/
theorem stores3_iff (i : grid3.Coords) : k3_cond2 i = 1#1 ↔ (i 2).val = 3 := by
  have h : ∀ j : Fin 4, (Scalar.cmpi .ne (Scalar.extui (Scalar.cmpi .eq (BitVec.ofNat 32 j.val) 3#32) : BitVec 32) 0#32 = 1#1) ↔ j.val = 3 := by decide
  exact h (i 2)

/-! ## The body at each kind of point -/

set_option maxHeartbeats 2000000 in
/-- First step of a run: the accumulator, whatever it held, is left at zero plus the product of the two blocks. -/
theorem run_first3 (c : Dev nD) (E : Set ℕ) (i : grid3.Coords) (hk : (i 2).val = 0)
    (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (x : Vec F S1024x1024 .f32) (w : Vec F S1024x1024 .bf16) (K : PUnit → sProp 𝕄) :
    iprop(owns (c : Thread nD τ) arg3 fullShare x ∗ owns (c : Thread nD τ) arg4 fullShare w
        ∗ (∃ d, owns (c : Thread nD τ) arg7 fullShare d)
        ∗ (iprop(owns (c : Thread nD τ) arg3 fullShare x ∗ owns (c : Thread nD τ) arg4 fullShare w
            ∗ owns (c : Thread nD τ) arg7 fullShare (k3_pay2 x (k3_pay1 (F := F)) w)) -∗ K ⟨⟩))
      ⊢ wp frame (wpE (defs₀ (F := F)) Variants.none c none) E (cc3__decode_kernel i arg3 harg3 arg4 harg4 arg5 harg5 arg6 harg6 arg7 harg7) K := by
  have hc1 : (Scalar.cmpi .ne (Scalar.extui (Scalar.cmpi .eq (BitVec.ofNat 32 (i 2).val) 0#32) : BitVec 32) 0#32 = 1#1) :=
    (resets3_iff i).mpr hk
  have hc2 : ¬ k3_cond2 i = 1#1 := fun h => by have := (stores3_iff i).mp h; omega
  simp only [cc3__decode_kernel_eq_skeleton]; unfold cc3__decode_kernel_skel
  unfold owns
  iintro ⟨⟨%f3, %hf3, H3⟩, ⟨%f4, %hf4, H4⟩, ⟨%d7, %f7, -, H7⟩, Hk⟩
  subst hf3 hf4
  sl_exec (disch := first | exact hc1 | exact hc2)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  sl_unfold_words
  simp only [read_writes_head (S := S1024x1024) _ _ origin2, readAt_whole (S := S1024x1024) _ _ origin2,
    View.readCov_unit_zero (S := S1024x1024) _ origin2]

set_option maxHeartbeats 2000000 in
/-- A middle step: the product of the two blocks is added to what the accumulator held. -/
theorem run_mid3 (c : Dev nD) (E : Set ℕ) (i : grid3.Coords) (hk0 : (i 2).val ≠ 0) (hk1 : (i 2).val ≠ 3)
    (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (x : Vec F S1024x1024 .f32) (w : Vec F S1024x1024 .bf16) (a : Vec F S1024x1024 .f32) (K : PUnit → sProp 𝕄) :
    iprop(owns (c : Thread nD τ) arg3 fullShare x ∗ owns (c : Thread nD τ) arg4 fullShare w
        ∗ owns (c : Thread nD τ) arg7 fullShare a
        ∗ (iprop(owns (c : Thread nD τ) arg3 fullShare x ∗ owns (c : Thread nD τ) arg4 fullShare w
            ∗ owns (c : Thread nD τ) arg7 fullShare (k3_pay2 x a w)) -∗ K ⟨⟩))
      ⊢ wp frame (wpE (defs₀ (F := F)) Variants.none c none) E (cc3__decode_kernel i arg3 harg3 arg4 harg4 arg5 harg5 arg6 harg6 arg7 harg7) K := by
  have hc1 : ¬ (Scalar.cmpi .ne (Scalar.extui (Scalar.cmpi .eq (BitVec.ofNat 32 (i 2).val) 0#32) : BitVec 32) 0#32 = 1#1) :=
    fun h => hk0 ((resets3_iff i).mp h)
  have hc2 : ¬ k3_cond2 i = 1#1 := fun h => hk1 ((stores3_iff i).mp h)
  simp only [cc3__decode_kernel_eq_skeleton]; unfold cc3__decode_kernel_skel
  unfold owns
  iintro ⟨⟨%f3, %hf3, H3⟩, ⟨%f4, %hf4, H4⟩, ⟨%f7, %hf7, H7⟩, Hk⟩
  subst hf3 hf4 hf7
  sl_exec (disch := first | exact hc1 | exact hc2)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  sl_unfold_words
  simp only [read_writes_head (S := S1024x1024) _ _ origin2, readAt_whole (S := S1024x1024) _ _ origin2,
    View.readCov_unit_zero (S := S1024x1024) _ origin2]

set_option maxHeartbeats 2000000 in
/-- Last step of a run: the product is added to the accumulator, and the output block is stored from the new
    accumulator and the bias row. -/
theorem run_last3 (c : Dev nD) (E : Set ℕ) (i : grid3.Coords) (hk : (i 2).val = 3)
    (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (x : Vec F S1024x1024 .f32) (w : Vec F S1024x1024 .bf16) (b : Vec F S1x1024 .f32) (a : Vec F S1024x1024 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare (k3_pay3 (k3_pay2 x a w) b) ∗ owns (c : Thread nD τ) arg7 fullShare (k3_pay2 x a w)) -∗ K ⟨⟩))
      ⊢ wp frame (wpE (defs₀ (F := F)) Variants.none c none) E (cc3__decode_kernel i arg3 harg3 arg4 harg4 arg5 harg5 arg6 harg6 arg7 harg7) K := by
  have hc1 : ¬ (Scalar.cmpi .ne (Scalar.extui (Scalar.cmpi .eq (BitVec.ofNat 32 (i 2).val) 0#32) : BitVec 32) 0#32 = 1#1) := fun h => by
    have := (resets3_iff i).mp h; omega
  have hc2 : k3_cond2 i = 1#1 := (stores3_iff i).mpr hk
  simp only [cc3__decode_kernel_eq_skeleton]; unfold cc3__decode_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  subst hf3 hf4 hf5 hf7
  sl_exec (disch := first | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    simp only [read_writes_head (S := S1024x1024) _ _ origin2, readAt_whole (S := S1024x1024) _ _ origin2,
      readAt_whole (S := S1x1024) _ _ origin2, View.readCov_unit_zero (S := S1024x1024) _ origin2]
  iexists _; isplitr
  swap; · iexact H7
  ipureintro
  sl_unfold_words
  simp only [read_writes_head (S := S1024x1024) _ _ origin2, readAt_whole (S := S1024x1024) _ _ origin2,
    View.readCov_unit_zero (S := S1024x1024) _ origin2]

/-! ## The proof data projected -/

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay3 (acc3 V c t.val t.isLt) (iblk3 V c 2 t) := by dsimp only [dat3]

/-- Each input's staging buffer holds its block at every point, whether the point fetched it or the block index
    has not moved since it was fetched. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

/-! ## The accumulator's recursion, by kind of point -/

theorem acc3_first (c : Dev nD) (t : Fin cfg3.N) (h : t.val % 4 = 0) :
    acc3 V c t.val t.isLt = k3_pay2 (iblk3 V c 0 t) (k3_pay1 (F := F)) (iblk3 V c 1 t) := by
  obtain ⟨n, hn⟩ := t
  cases n with
  | zero => rfl
  | succ n => simp only [acc3]; rw [if_pos h]

theorem acc3_step (c : Dev nD) (t : Fin cfg3.N) (h : t.val % 4 ≠ 0) :
    acc3 V c t.val t.isLt = k3_pay2 (iblk3 V c 0 t)
      (acc3 V c (t.val - 1) (Nat.lt_of_le_of_lt (Nat.sub_le _ _) t.isLt)) (iblk3 V c 1 t) := by
  obtain ⟨n, hn⟩ := t
  cases n with
  | zero => exact absurd (Nat.zero_mod _) h
  | succ n => simp only [acc3]; rw [if_neg h]; rfl

/-! ## The invariant, by position -/

theorem Phi3_any (c : Dev nD) (n : ℕ) (h : n ≤ cfg3.N) :
    Phi3 V c n h ⊢ iprop((∃ d, owns (c : Thread nD τ) scM3 fullShare d) ∗ back3 c) := by
  cases n with
  | zero => exact .rfl
  | succ n =>
    show iprop(owns (c : Thread nD τ) scM3 fullShare (acc3 V c n h) ∗ back3 c) ⊢ _
    iintro ⟨HS, Hb⟩
    isplitl [HS]
    · iexists _; iexact HS
    iexact Hb

theorem Phi3_pos (c : Dev nD) (n : ℕ) (h : n ≤ cfg3.N) (hz : n ≠ 0) :
    Phi3 V c n h = iprop(owns (c : Thread nD τ) scM3 fullShare (acc3 V c (n - 1) (by omega)) ∗ back3 c) := by
  cases n with
  | zero => exact absurd rfl hz
  | succ n => rfl

theorem Phi3_castSucc (c : Dev nD) (t : Fin cfg3.N) :
    (dat3 V c).Φ t.castSucc = Phi3 V c t.val (Nat.le_of_lt t.isLt) := by
  dsimp only [dat3]; simp only [Fin.coe_castSucc]

/-! ## The output window: idle but at the last step of a run -/

theorem idle3_3 (t : Fin cfg3.N) (h : t.val % 4 ≠ 3) : cfg3.idle 3 (cfg3.grid.coords t) = true := by
  show (!(k3_cond2 (grid3.coords t) == 1#1)) = true
  have : ¬ k3_cond2 (grid3.coords t) = 1#1 := fun e => h (by rw [← inner3 t]; exact (stores3_iff _).mp e)
  simp [this]

theorem live3_3 (t : Fin cfg3.N) (h : t.val % 4 = 3) : cfg3.idle 3 (cfg3.grid.coords t) = false := by
  show (!(k3_cond2 (grid3.coords t) == 1#1)) = false
  have : k3_cond2 (grid3.coords t) = 1#1 := (stores3_iff _).mpr (by rw [inner3 t]; exact h)
  simp [this]

theorem noflush3_3 (t : Fin cfg3.N) (h : t.val % 4 ≠ 3) : (cfg3.win 3).flush t = false := by
  cases hf : (cfg3.win 3).flush t with
  | false => rfl
  | true => exact absurd ((flush3_3 t).mp hf) h

/-! ## The body obligation -/

set_option maxHeartbeats 4000000 in
/-- The body at any point, by its kind. -/
theorem sound_body3 (c : Dev nD) (t : Fin cfg3.N) :
    iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d)))
    ⊢ wp frame (wpE (defs₀ (F := F)) Variants.none c none) Set.univ (bodyAt3 t) (fun _ =>
        iprop((dat3 V c).Φ t.succ ∗ (dat3 V c).owesAt () t.succ
          ∗ (dat3 V c).leavesExact 0 t ∗ (dat3 V c).leavesExact 1 t
          ∗ (dat3 V c).leavesExact 2 t ∗ (dat3 V c).leavesExact 3 t)) := by
  unfold bodyAt3
  simp only [before3_0, before3_1, before3_2]
  rw [show (dat3 V c).owesAt () t.succ = (dat3 V c).owesAt () t.castSucc from rfl]
  rw [show (dat3 V c).Φ t.succ = iprop(owns (c : Thread nD τ) scM3 fullShare (acc3 V c t.val t.isLt) ∗ back3 c) from rfl]
  rw [Phi3_castSucc]
  rw [show (dat3 V c).leavesExact 0 t = owns (c : Thread nD τ) (st3_0 t) fullShare (iblk3 V c 0 t) from by
    unfold Dat.leavesExact; rw [show cfg3.idle 0 (cfg3.grid.coords t) = false from rfl, after3_0]]
  rw [show (dat3 V c).leavesExact 1 t = owns (c : Thread nD τ) (st3_1 t) fullShare (iblk3 V c 1 t) from by
    unfold Dat.leavesExact; rw [show cfg3.idle 1 (cfg3.grid.coords t) = false from rfl, after3_1]]
  rw [show (dat3 V c).leavesExact 2 t = owns (c : Thread nD τ) (st3_2 t) fullShare (iblk3 V c 2 t) from by
    unfold Dat.leavesExact; rw [show cfg3.idle 2 (cfg3.grid.coords t) = false from rfl, after3_2]]
  by_cases h0 : t.val % 4 = 0
  · -- first step of a run
    have hne : t.val % 4 ≠ 3 := by omega
    rw [Dat.leavesExact_idle (dat3 V c) 3 t (idle3_3 t hne) (noflush3_3 t hne), acc3_first V c t h0]
    iintro ⟨HΦ, Ho, ⟨%d0, H0⟩, ⟨%d1, H1⟩, ⟨%d2, H2⟩, ⟨%d3, H3⟩⟩
    ihave HΦ' := (Phi3_any V c _ _) $$ HΦ
    icases HΦ' with ⟨HS, Hb⟩
    iapply (run_first3 c Set.univ (grid3.coords t) (by rw [inner3 t]; exact h0) _ _ _ _ _ _ _ _ _ _ (iblk3 V c 0 t) (iblk3 V c 1 t) _)
    isplitl [H0]; · iexact H0
    isplitl [H1]; · iexact H1
    isplitl [HS]; · iexact HS
    iintro ⟨H0, H1, HS⟩
    isplitl [HS Hb]
    · isplitl [HS]; · iexact HS
      iexact Hb
    isplitl [Ho]; · iexact Ho
    isplitl [H0]; · iexact H0
    isplitl [H1]; · iexact H1
    isplitl [H2]; · iexact H2
    iexists d3; iexact H3
  · have hz : t.val ≠ 0 := fun e => h0 (by rw [e])
    rw [Phi3_pos V c _ _ hz, acc3_step V c t h0]
    by_cases h1 : t.val % 4 = 3
    · -- last step of a run
      rw [show (dat3 V c).leavesExact 3 t = owns (c : Thread nD τ) (st3_3 t) fullShare ((dat3 V c).after 3 t) from by
        unfold Dat.leavesExact; rw [live3_3 t h1], after3_3, acc3_step V c t h0]
      iintro ⟨⟨HS, Hb⟩, Ho, ⟨%d0, H0⟩, ⟨%d1, H1⟩, ⟨%d2, H2⟩, ⟨%d3, H3⟩⟩
      iapply (run_last3 c Set.univ (grid3.coords t) (by rw [inner3 t]; exact h1) _ _ _ _ _ _ _ _ _ _ (iblk3 V c 0 t) (iblk3 V c 1 t) (iblk3 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hb]
      · isplitl [HS]; · iexact HS
        iexact Hb
      isplitl [Ho]; · iexact Ho
      isplitl [H0]; · iexact H0
      isplitl [H1]; · iexact H1
      isplitl [H2]; · iexact H2
      iexact H3
    · -- a middle step
      rw [Dat.leavesExact_idle (dat3 V c) 3 t (idle3_3 t h1) (noflush3_3 t h1)]
      iintro ⟨⟨HS, Hb⟩, Ho, ⟨%d0, H0⟩, ⟨%d1, H1⟩, ⟨%d2, H2⟩, ⟨%d3, H3⟩⟩
      iapply (run_mid3 c Set.univ (grid3.coords t) (by rw [inner3 t]; exact h0) (by rw [inner3 t]; exact h1) _ _ _ _ _ _ _ _ _ _ (iblk3 V c 0 t) (iblk3 V c 1 t) _ _)
      isplitl [H0]; · iexact H0
      isplitl [H1]; · iexact H1
      isplitl [HS]; · iexact HS
      iintro ⟨H0, H1, HS⟩
      isplitl [HS Hb]
      · isplitl [HS]; · iexact HS
        iexact Hb
      isplitl [Ho]; · iexact Ho
      isplitl [H0]; · iexact H0
      isplitl [H1]; · iexact H1
      isplitl [H2]; · iexact H2
      iexists d3; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Into and out of the region -/

/-- The class's invariant with the accumulator taken out of the scoped rest. -/
theorem PhiA3_split (c : Dev nD) :
    (Pipeline.ΦA spec3 c : sProp 𝕄)
      = iprop(((∃ d, owns (c : Thread nD τ) scM3 fullShare d)
          ∗ Pipeline.scopedRestBut (Ix := Unit) (Name := ℕ) (U := UR sig nD τ) (Lvl := ℕ) (Val := Elt F) spec3 c [cc3_scratch0])
          ∗ (∃ r, prngReg c r)) := by
  unfold Pipeline.ΦA
  rw [Pipeline.scopedRest_split_of_list spec3 c [cc3_scratch0] (by decide) (by decide)]
  simp only [owns_whole]
  rfl

/-- What the region is entered with is the invariant before the first point. -/
theorem hin3 (c : Dev nD) : Pipeline.ΦA spec3 c ⊢ (dat3 V c).Φ 0 := by
  show _ ⊢ iprop((∃ d, owns (c : Thread nD τ) scM3 fullShare d) ∗ back3 c)
  unfold back3
  rw [PhiA3_split]
  iintro ⟨⟨HS, Hrest⟩, Hr⟩
  isplitl [HS]; · iexact HS
  iintro HS
  isplitl [HS Hrest]
  · isplitl [HS]; · iexact HS
    iexact Hrest
  iexact Hr

/-- After the last point the invariant gives the class's invariant back: the accumulator's contents are forgotten. -/
theorem hout3 (c : Dev nD) : (dat3 V c).Φ (Fin.last cfg3.N) ⊢ Pipeline.ΦA spec3 c := by
  have h := Phi3_any V c (Fin.last cfg3.N).val (Nat.le_of_lt_succ (Fin.last cfg3.N).isLt)
  refine (show (dat3 V c).Φ (Fin.last cfg3.N) ⊢ _ from h).trans ?_
  unfold back3
  iintro ⟨HS, Hb⟩
  iapply Hb
  iexact HS

end Cert.KernelIdeal.Hand

end
-- ==== Proof.KIRun.lean ====
/-
  The whole program's run: region 0, two reshapes on the host, regions 1, 2 and 3.

  Between two items the core holds every unscoped buffer whole at a known valuation: the launch memory; after a
  region, the same with that region's output array replaced by what its write-backs leave (its input arrays are
  never written); after the host stretch, the two reshaped bias rows added. Each region is entered with its
  windows' arrays taken out of that valuation and left with them put back; the scoped buffers and the semaphores
  are the pipeline library's business. The run's conclusion reads every unscoped buffer of a final state at the
  last valuation, from which the arguments come back as launched and the three results as the regions' arrays.
-/
import proofs.«162706_j42030549959310_1_alg».proof.Proof.KIFrame02
import proofs.«162706_j42030549959310_1_alg».proof.Proof.KIFrame1
import proofs.«162706_j42030549959310_1_alg».proof.Proof.KIFrame3
import proofs.«162706_j42030549959310_1_alg».proof.Proof.Gen.KernelIdeal.Regions
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- The core's buffers at launch. -/
abbrev W0 : Dev nD → Valuation τ sig (Elt F) := fun c b => m (c, b)
abbrev V0 : (c : Dev nD) → (b : Ref sig .tc) → Buf (Elt F) ((c : Thread nD τ).loc b) := fun c b => W0 m c b

/-- The core's buffers when region 0 ends: its windows' arrays at what the write-backs leave (an input's as
    entered), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the two reshapes. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- The core's buffers when region 1 ends: its windows' arrays at what the write-backs leave (an input's as
    entered), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The core's buffers when region 2 ends: its windows' arrays at what the write-backs leave (an input's as
    entered), every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- The core's buffers when region 3 ends: its windows' arrays at what the write-backs leave (an input's as
    entered), every other buffer as entered. -/
def W5 (c : Dev nD) : Valuation τ sig (Elt F) :=
  Pipeline.withArrays spec3 c (W4 m c) fun w => (dat3 (V4 m) c).arrAt w cfg3.N
theorem W5_arr (c : Dev nD) (w : Fin cfg3.W) :
    W5 m c (Proc.devRef .tc (Pipeline.arrRef spec3 w)) = (dat3 (V4 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) := by
  unfold W5; exact Pipeline.withArrays_of_ne spec3 c _ _ b hb
/-- The same read at the TensorCore's references. -/
abbrev V5 : (c : Dev nD) → (b : Ref sig .tc) → Buf (Elt F) ((c : Thread nD τ).loc b) := fun c b => W5 m c b
theorem hF3 (c : Dev nD) (w : Fin cfg3.W) : (dat3 (V4 m) c).arrAt w cfg3.N = V5 m c (Pipeline.arrRef spec3 w) :=
  (W5_arr m c w).symm
theorem hrest3 (c : Dev nD) : ∀ b, b ∉ Finset.univ.image (Pipeline.arrRef spec3) → V5 m c b = V4 m c b :=
  fun b hb => W5_of_ne m c b fun w e => hb (Finset.mem_image.mpr ⟨w, Finset.mem_univ _, e⟩)

/-! ## What an item leaves alone -/

/-- Region 0 changes only its output array. -/
theorem W1_keep (c : Dev nD) (b : Ref sig .tc) (hb : b ≠ main_v0) : W1 m c (Proc.devRef .tc b) = W0 m c (Proc.devRef .tc b) := by
  by_cases h : ∃ w, Pipeline.arrRef spec0 w = b
  · obtain ⟨w, rfl⟩ := h
    match w with
    | ⟨0, _⟩ => exact (W1_arr m c 0).trans (((dat0 (V0 m) c).arrAt_in 0 rfl _).trans (A_eq0 (V0 m) c 0))
    | ⟨1, _⟩ => exact absurd rfl hb
  · exact W1_of_ne m c b fun w e => h ⟨w, e⟩

/-- The reshapes write only the two bias rows. -/
theorem W2_keep (c : Dev nD) (b : Ref sig .tc) (hb : b ∉ hostOps1_W) : W2 m c (Proc.devRef .tc b) = W1 m c (Proc.devRef .tc b) :=
  StableHlo.after_of_writes_sub hostOps1 _ hostOps1_writes hb

/-- Region 1 changes only its output array. -/
theorem W3_keep (c : Dev nD) (b : Ref sig .tc) (hb : b ≠ main_v3) : W3 m c (Proc.devRef .tc b) = W2 m c (Proc.devRef .tc b) := by
  by_cases h : ∃ w, Pipeline.arrRef spec1 w = b
  · obtain ⟨w, rfl⟩ := h
    match w with
    | ⟨0, _⟩ => exact (W3_arr m c 0).trans (((dat1 (V2 m) c).arrAt_in 0 rfl _).trans (A_eq1 (V2 m) c 0))
    | ⟨1, _⟩ => exact (W3_arr m c 1).trans (((dat1 (V2 m) c).arrAt_in 1 rfl _).trans (A_eq1 (V2 m) c 1))
    | ⟨2, _⟩ => exact (W3_arr m c 2).trans (((dat1 (V2 m) c).arrAt_in 2 rfl _).trans (A_eq1 (V2 m) c 2))
    | ⟨3, _⟩ => exact absurd rfl hb
  · exact W3_of_ne m c b fun w e => h ⟨w, e⟩

/-- Region 2 changes only its output array. -/
theorem W4_keep (c : Dev nD) (b : Ref sig .tc) (hb : b ≠ main_v4) : W4 m c (Proc.devRef .tc b) = W3 m c (Proc.devRef .tc b) := by
  by_cases h : ∃ w, Pipeline.arrRef spec2 w = b
  · obtain ⟨w, rfl⟩ := h
    match w with
    | ⟨0, _⟩ => exact (W4_arr m c 0).trans (((dat2 (V3 m) c).arrAt_in 0 rfl _).trans (A_eq2 (V3 m) c 0))
    | ⟨1, _⟩ => exact (W4_arr m c 1).trans (((dat2 (V3 m) c).arrAt_in 1 rfl _).trans (A_eq2 (V3 m) c 1))
    | ⟨2, _⟩ => exact absurd rfl hb
  · exact W4_of_ne m c b fun w e => h ⟨w, e⟩

/-- Region 3 changes only its output array. -/
theorem W5_keep (c : Dev nD) (b : Ref sig .tc) (hb : b ≠ main_v5) : W5 m c (Proc.devRef .tc b) = W4 m c (Proc.devRef .tc b) := by
  by_cases h : ∃ w, Pipeline.arrRef spec3 w = b
  · obtain ⟨w, rfl⟩ := h
    match w with
    | ⟨0, _⟩ => exact (W5_arr m c 0).trans (((dat3 (V4 m) c).arrAt_in 0 rfl _).trans (A_eq3 (V4 m) c 0))
    | ⟨1, _⟩ => exact (W5_arr m c 1).trans (((dat3 (V4 m) c).arrAt_in 1 rfl _).trans (A_eq3 (V4 m) c 1))
    | ⟨2, _⟩ => exact (W5_arr m c 2).trans (((dat3 (V4 m) c).arrAt_in 2 rfl _).trans (A_eq3 (V4 m) c 2))
    | ⟨3, _⟩ => exact absurd rfl hb
  · exact W5_of_ne m c b fun w e => h ⟨w, e⟩

/-- A buffer no item writes reaches the end as launched. -/
theorem W5_launch (c : Dev nD) (b : Ref sig .tc) (h0 : b ≠ main_v0) (h1 : b ∉ hostOps1_W) (h3 : b ≠ main_v3) (h4 : b ≠ main_v4) (h5 : b ≠ main_v5) :
    W5 m c (Proc.devRef .tc b) = m ((c : Thread nD τ).loc b) :=
  (W5_keep m c b h5).trans <| (W4_keep m c b h4).trans <| (W3_keep m c b h3).trans <| (W2_keep m c b h1).trans <| (W1_keep m c b h0).trans rfl

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V3 m) c
  | ⟨3, _⟩ => fun c => dat3 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 as a segment: entered with every unscoped buffer at `W0`, left with them at `W1`. Its
    windows' arrays are taken out of the unscoped buffers at entry and put back at what the write-backs leave; the
    generator register goes into the invariant and comes back; the core owes nothing; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W2`, left with them at `W3`. Its
    windows' arrays are taken out of the unscoped buffers at entry and put back at what the write-backs leave; the
    generator register goes into the invariant and comes back; the core owes nothing; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from by
      unfold Pipeline.ΦA
      iintro ⟨Hp, -, Hr⟩
      isplitl [Hr]; · iexact Hr
      iexact Hp).trans ?_
    exact hin1 (V2 m) c
  hout c := by
    rw [Pipeline.ownSems0_none]
    refine (show (pdats m 1 c).Φ (Fin.last _) ⊢ (Pipeline.ΦA spec1 c : sProp 𝕄) from hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W3`, left with them at `W4`. Its
    windows' arrays are taken out of the unscoped buffers at entry and put back at what the write-backs leave; the
    generator register goes into the invariant and comes back; the core owes nothing; the kernel has no semaphore
    of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W4`, left with them at `W5`. Its
    windows' arrays are taken out of the unscoped buffers at entry and put back at what the write-backs leave; the
    generator register goes into the invariant and comes back; the core owes nothing; the kernel has no semaphore
    of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m) c).loose
  hwaits := Pipeline.hwaits_of_owed_zero _ _ _ _ L lv 3 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec3 c : sProp 𝕄) from by
      unfold Pipeline.ΦA
      iintro ⟨Hp, -, Hr⟩
      isplitl [Hr]; · iexact Hr
      iexact Hp).trans ?_
    exact hin3 (V4 m) c
  hout c := by
    rw [Pipeline.ownSems0_none]
    refine (show (pdats m 3 c).Φ (Fin.last _) ⊢ (Pipeline.ΦA spec3 c : sProp 𝕄) from hout3 (V4 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V4 m c) (V5 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- @main's five items in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .region (reg2 m),
    .region (reg3 m) ]

theorem main_run (c : Dev nD) : main (F := F) c = Pipeline.Seg.run (segs m) := (main_chain c).trans (by chain_rfl)

set_option backward.isDefEq.respectTransparency.types false in
/-- From any memory with zero counters every weakly fair execution of @main terminates, and every final state holds
    every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN, read: the five arguments end as launched, and the three results hold what regions 3, 2 and 1 leave in
    their output arrays. -/
theorem run_main : θ_run defs (onTc (τ := τ) (main (F := F))) ⟨m, fun _ => 0, ρ⟩ (fun r => ∀ c : Dev nD,
      r.2.mem ((c.tc : Thread nD τ).loc main_v5) = (dat3 (V4 m) c).arrAt 3 cfg3.N
      ∧ r.2.mem ((c.tc : Thread nD τ).loc main_v4) = (dat2 (V3 m) c).arrAt 2 cfg2.N
      ∧ r.2.mem ((c.tc : Thread nD τ).loc main_v3) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
    (h c _ (mem_uc main_v5 (by decide))).trans (W5_arr m c 3),
    (h c _ (mem_uc main_v4 (by decide))).trans ((W5_keep m c main_v4 (by decide)).trans (W4_arr m c 2)),
    (h c _ (mem_uc main_v3 (by decide))).trans ((W5_keep m c main_v3 (by decide)).trans ((W4_keep m c main_v3 (by decide)).trans (W3_arr m c 3))),
    (h c _ (mem_uc main_arg0 (by decide))).trans (W5_launch m c main_arg0 (by decide) (by decide) (by decide) (by decide) (by decide)),
    (h c _ (mem_uc main_arg1 (by decide))).trans (W5_launch m c main_arg1 (by decide) (by decide) (by decide) (by decide) (by decide)),
    (h c _ (mem_uc main_arg2 (by decide))).trans (W5_launch m c main_arg2 (by decide) (by decide) (by decide) (by decide) (by decide)),
    (h c _ (mem_uc main_arg3 (by decide))).trans (W5_launch m c main_arg3 (by decide) (by decide) (by decide) (by decide) (by decide)),
    (h c _ (mem_uc main_arg4 (by decide))).trans (W5_launch m c main_arg4 (by decide) (by decide) (by decide) (by decide) (by decide))⟩)
    (run_all m ρ)

/-! ## What each region is entered with -/

/-- Region 1 reads the data as launched, -/
theorem V2_arg0 (c : Dev nD) : V2 m c main_arg0 = m ((c : Thread nD τ).loc main_arg0) :=
  (W2_keep m c main_arg0 (by decide)).trans ((W1_keep m c main_arg0 (by decide)).trans rfl)
/-- the binarised weights region 0 left, -/
theorem V2_v0 (c : Dev nD) : V2 m c main_v0 = (dat0 (V0 m) c).arrAt 1 cfg0.N :=
  (W2_keep m c main_v0 (by decide)).trans (W1_arr m c 1)
/-- the encoder weights region 0 read, as launched. -/
theorem V0_arg1 (c : Dev nD) : V0 m c main_arg1 = m ((c : Thread nD τ).loc main_arg1) := rfl
/-- Region 2 reads the code region 1 left and the classifier weights as launched. -/
theorem V3_v3 (c : Dev nD) : V3 m c main_v3 = (dat1 (V2 m) c).arrAt 3 cfg1.N := W3_arr m c 3
theorem V3_arg4 (c : Dev nD) : V3 m c main_arg4 = m ((c : Thread nD τ).loc main_arg4) :=
  (W3_keep m c main_arg4 (by decide)).trans ((W2_keep m c main_arg4 (by decide)).trans ((W1_keep m c main_arg4 (by decide)).trans rfl))
/-- Region 3 reads the code, the binarised weights, -/
theorem V4_v3 (c : Dev nD) : V4 m c main_v3 = (dat1 (V2 m) c).arrAt 3 cfg1.N :=
  (W4_keep m c main_v3 (by decide)).trans (W3_arr m c 3)
theorem V4_v0 (c : Dev nD) : V4 m c main_v0 = (dat0 (V0 m) c).arrAt 1 cfg0.N :=
  (W4_keep m c main_v0 (by decide)).trans ((W3_keep m c main_v0 (by decide)).trans (V2_v0 m c))
/-- and the decoder bias as the host stretch reshaped it. -/
theorem V4_v2 (c : Dev nD) : V4 m c main_v2 = V2 m c main_v2 :=
  (W4_keep m c main_v2 (by decide)).trans (W3_keep m c main_v2 (by decide))

end Cert.KernelIdeal.Hand

end
-- ==== Proof.KISpec.lean ====
/-
  The four arrays the kernel's regions produce, as functions of the arrays they read, over the extended reals.

  `step v c` is the indicator of `v > c` as the kernel computes it (the comparison bit widened to a word and read
  as a signed integer): the extended real 1 where `v > c`, else 0.
  * the binarised weights: `step` of each weight against 1/2;
  * the code: `step` against 1 of the row-by-row inner product of the data with the binarised weights, plus the bias;
  * the classification: the row-by-row inner product of the code with the classifier weights;
  * the reconstruction: `step` against 1 of the product of the code with the binarised weights (contracting the
    hidden axis), plus the bias.
-/
import proofs.«162706_j42030549959310_1_alg».proof.KernelIdeal
import Idealize.ShloMosaic.Lib.ValueIdx
import Idealize.ShloMosaic.PureOps.Ideal

noncomputable section

namespace Cert.Spec

open Idealize.ShloMosaic Idealize.ShloMosaic.ValueIdx
open Cert.KernelIdeal

/-- The indicator of `v > c` as the kernel's vector unit computes it. -/
def step (v c : Ideal .f32) : Ideal .f32 :=
  FloatOps.sitofp (F := Ideal) .f32 ((FloatOps.cmpf (F := Ideal) (φ := .f32) .ogt v c).setWidth 32)

/-- The literal 1/2 and the literal 1, as the kernel spells them. -/
abbrev cHalf : Ideal .f32 := Scalar.ofBits (F := Ideal) .f32 0x3F000000#32
abbrev cOne : Ideal .f32 := Scalar.ofBits (F := Ideal) .f32 0x3F800000#32

/-- The binarised encoder weights. -/
def WBfun (enc : Vec Ideal S4096x8192 .f32) : Vec Ideal S4096x8192 .bf16 := fun j => step (enc j) cHalf

/-- One entry of the code: row `p` of the data against row `q` of the binarised weights, plus bias `q`, thresholded. -/
def Zat (x : Vec Ideal S4096x8192 .f32) (wb : Vec Ideal S4096x8192 .bf16) (b : Vec Ideal S1x4096 .f32)
    (p : Fin 4096) (q : Fin 4096) : Ideal .f32 :=
  step ((∑ d : Fin 8192, x (ix2 p d) * wb (ix2 q d)) + b (ix2 (0 : Fin 1) q)) cOne

/-- The code. -/
def Zfun (x : Vec Ideal S4096x8192 .f32) (wb : Vec Ideal S4096x8192 .bf16) (b : Vec Ideal S1x4096 .f32) :
    Vec Ideal S4096x4096 .f32 := fun j => Zat x wb b ⟨(j 0).val, idx2_lt0 j⟩ ⟨(j 1).val, idx2_lt1 j⟩

/-- One entry of the classification: row `p` of the code against row `q` of the classifier weights. -/
def Cat (z : Vec Ideal S4096x4096 .f32) (clf : Vec Ideal S128x4096 .f32) (p : Fin 4096) (q : Fin 128) : Ideal .f32 :=
  ∑ h : Fin 4096, z (ix2 p h) * clf (ix2 q h)

/-- The classification. -/
def Cfun (z : Vec Ideal S4096x4096 .f32) (clf : Vec Ideal S128x4096 .f32) : Vec Ideal S4096x128 .f32 :=
  fun j => Cat z clf ⟨(j 0).val, idx2_lt0 j⟩ ⟨(j 1).val, idx2_lt1 j⟩

/-- One entry of the reconstruction: row `p` of the code against column `q` of the binarised weights, plus bias
    `q`, thresholded. -/
def Oat (z : Vec Ideal S4096x4096 .f32) (wb : Vec Ideal S4096x8192 .bf16) (b : Vec Ideal S1x8192 .f32)
    (p : Fin 4096) (q : Fin 8192) : Ideal .f32 :=
  step ((∑ h : Fin 4096, z (ix2 p h) * wb (ix2 h q)) + b (ix2 (0 : Fin 1) q)) cOne

/-- The reconstruction. -/
def Ofun (z : Vec Ideal S4096x4096 .f32) (wb : Vec Ideal S4096x8192 .bf16) (b : Vec Ideal S1x8192 .f32) :
    Vec Ideal S4096x8192 .f32 := fun j => Oat z wb b ⟨(j 0).val, idx2_lt0 j⟩ ⟨(j 1).val, idx2_lt1 j⟩

/-- A vector of 4096 entries laid out as one row (the reshape of the encoder bias). -/
def row4096 (a : Vec Ideal S4096 .f32) : Vec Ideal S1x4096 .f32 := fun j => a (ix1 ⟨(j 1).val, idx2_lt1 j⟩)

/-- A vector of 8192 entries laid out as one row (the reshape of the decoder bias). -/
def row8192 (a : Vec Ideal S8192 .f32) : Vec Ideal S1x8192 .f32 := fun j => a (ix1 ⟨(j 1).val, idx2_lt1 j⟩)

/-- Every entry of the array is a real number. -/
def IsRealArr {S : Shape} (a : S.Idx → EReal) : Prop := ∀ j, ∃ r : ℝ, a j = (r : EReal)

end Cert.Spec

end
-- ==== Proof.KIVal0.lean ====
import proofs.«162706_j42030549959310_1_alg».proof.Proof.KIData
import proofs.«162706_j42030549959310_1_alg».proof.Proof.KISpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-- The body's payload read at one index: the indicator of "the weight exceeds one half". -/
theorem binarize_apply (x : Vec Ideal S256x8192 .f32) (j : S256x8192.Idx) :
    k0_pay1 x j = Cert.Spec.step (x j) Cert.Spec.cHalf := rfl

/-- The printed index maps over the grid: at point `t` both windows sit at block `(t, 0)`. -/
theorem blockIndex0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the binarised weights. -/
theorem wb_flushed (c : Dev nD) (t : Fin cfg0.N) :
    (dat0 V c).flushed 1 t = ((cfg0.win 1).blk t).view.read (Elt Ideal) (Cert.Spec.WBfun (V c main_arg1)) := by
  obtain ⟨e0, e1, e2, e3⟩ := blockIndex0 t
  funext j
  show k0_pay1 (iblk0 V c 0 t) j = _
  rw [binarize_apply, View.read_apply]
  show Cert.Spec.step (iblk0 V c 0 t j) Cert.Spec.cHalf
      = Cert.Spec.step (V c main_arg1 (((cfg0.win 1).blk t).view.emb j)) Cert.Spec.cHalf
  refine congrArg (fun v => Cert.Spec.step v Cert.Spec.cHalf) ?_
  unfold iblk0
  rw [View.read_apply]
  show V c main_arg1 (((cfg0.win 0).blk t).view.emb j) = V c main_arg1 (((cfg0.win 1).blk t).view.emb j)
  refine congrArg (V c main_arg1) ?_
  funext a
  apply Fin.ext
  match a with
  | ⟨0, _⟩ =>
    show win0_0.index t (0 : Fin 2) * 256 + 1 * (j 0).val = win0_1.index t (0 : Fin 2) * 256 + 1 * (j 0).val
    rw [e0, e2]
  | ⟨1, _⟩ =>
    show win0_0.index t (1 : Fin 2) * 8192 + 1 * (j 1).val = win0_1.index t (1 : Fin 2) * 8192 + 1 * (j 1).val
    rw [e1, e3]

/-- An index of the weight array lies in point `t`'s output block iff each coordinate lies in the block's range. -/
theorem mem_wbBlock (t : Fin cfg0.N) (i : S4096x8192.Idx) :
    i ∈ ((cfg0.win 1).blk t).view.set ↔ ∀ a : Fin 2, win0_1.index t a * S256x8192.size a ≤ (i a).val
      ∧ (i a).val < win0_1.index t a * S256x8192.size a + S256x8192.size a := by
  show i ∈ ((View.whole main_v0).slice (win0_1.rect t)).set ↔ _
  rw [View.set_slice_whole, Rect.mem_set_unit]
  exact Iff.rfl

/-- The sixteen row blocks tile the weight array: row `r` lies in the block of point `r / 256`. -/
theorem wb_cover (i : S4096x8192.Idx) :
    ∃ t : Fin cfg0.N, (cfg0.win 1).flush t = true ∧ i ∈ ((cfg0.win 1).blk t).view.set := by
  have hi0 : (i 0).val < 4096 := (i 0).isLt
  have hi1 : (i 1).val < 8192 := (i 1).isLt
  have hN : cfg0.N = 16 := N_0
  let t : Fin cfg0.N := ⟨(i 0).val / 256, by rw [hN]; omega⟩
  have ht : t.val = (i 0).val / 256 := rfl
  obtain ⟨-, -, e2, e3⟩ := blockIndex0 t
  refine ⟨t, flush0_1 t, ?_⟩
  rw [mem_wbBlock]
  intro a
  match a with
  | ⟨0, _⟩ =>
    show win0_1.index t (0 : Fin 2) * 256 ≤ (i 0).val ∧ (i 0).val < win0_1.index t (0 : Fin 2) * 256 + 256
    rw [e2, ht]; omega
  | ⟨1, _⟩ =>
    show win0_1.index t (1 : Fin 2) * 8192 ≤ (i 1).val ∧ (i 1).val < win0_1.index t (1 : Fin 2) * 8192 + 8192
    rw [e3]; omega

/-- Region 0's result array after its last point, at the extended reals. -/
theorem wb_array (c : Dev nD) :
    (dat0 V c).arrAt 1 cfg0.N = Cert.Spec.WBfun (V c main_arg1) :=
  (dat0 V c).arrAt_eq_of_cover 1 (Cert.Spec.WBfun (V c main_arg1)) (fun t _ => wb_flushed V c t) wb_cover

end Cert.KernelIdeal.HandValue
end
-- ==== Proof.LibTransposedRhs.lean ====
/-
  A matrix product whose RIGHT operand is contracted along its second axis (`DotDims.transposedRhs M K N`: an M×K
  matrix times the transpose of an N×K matrix, what `einsum('mk,nk->mn')` lowers to), read at one entry at the ideal
  values: into the zero accumulator a `tpu.matmul` is the plain sum over the contracted coordinate of the products of
  the two rows' entries,
      (A · Bᵀ)(a, b) = Σ_c A(a, c) · B(b, c).
  Namespace `Cert.TransposedRhs`; imports only the library.
-/
import Idealize.ShloMosaic.Lib.ValueIdx
import Idealize.ShloMosaic.PureOps.Ideal.Laws

noncomputable section

namespace Cert.TransposedRhs

open Idealize.ShloMosaic Idealize.ShloMosaic.ValueIdx

variable {M K N : Nat}

/-- The left operand's index at output entry (a, b) and contracted coordinate c is (a, c). -/
theorem lhsIdx_eq (a : Fin M) (b : Fin N) (c : Fin K) :
    (DotDims.transposedRhs M K N).lhsIdx (ix2 a b) ((contrEquiv1 (DotDims.transposedRhs M K N) K rfl rfl).symm c) = ix2 a c := by
  have hc := contrEquiv1_symm_val (DotDims.transposedRhs M K N) K rfl rfl c
  funext ax; apply Fin.ext
  match ax with
  | ⟨0, _⟩ => simp [DotDims.lhsIdx, DotDims.transposedRhs]; rfl
  | ⟨1, _⟩ => simp [DotDims.lhsIdx, DotDims.transposedRhs]; exact hc

/-- The right operand's index there is (b, c): its second axis is the contracted one. -/
theorem rhsIdx_eq (a : Fin M) (b : Fin N) (c : Fin K) :
    (DotDims.transposedRhs M K N).rhsIdx (ix2 a b) ((contrEquiv1 (DotDims.transposedRhs M K N) K rfl rfl).symm c) = ix2 b c := by
  have hc := contrEquiv1_symm_val (DotDims.transposedRhs M K N) K rfl rfl c
  funext ax; apply Fin.ext
  match ax with
  | ⟨0, _⟩ => simp [DotDims.rhsIdx, DotDims.transposedRhs]; rfl
  | ⟨1, _⟩ => simp [DotDims.rhsIdx, DotDims.transposedRhs]; exact hc

/-- A `tpu.matmul` with the right operand contracted along its second axis, into the zero accumulator, read at
    entry (a, b): the sum over c of A(a, c) · B(b, c). -/
theorem matmul_zero_apply {φ₁ φ₂ : FTy} (prec : Option ContractPrecision)
    (A : FVec Ideal ⟨2, ![M, K]⟩ φ₁) (B : FVec Ideal ⟨2, ![N, K]⟩ φ₂) (a : Fin M) (b : Fin N) :
    FloatOps.matmul (DotDims.transposedRhs M K N) prec A B (constant ⟨2, ![M, N]⟩ .f32 0x00000000#32) (ix2 a b)
      = ∑ c : Fin K, A (ix2 a c) * B (ix2 b c) := by
  rw [Ideal.matmul_constant_zero_apply, ← Equiv.sum_comp (contrEquiv1 (DotDims.transposedRhs M K N) K rfl rfl).symm]
  refine Finset.sum_congr rfl fun c _ => ?_
  rw [lhsIdx_eq, rhsIdx_eq]

end Cert.TransposedRhs

end
-- ==== Proof.LibSums.lean ====
/-
  Finite sums regrouped: a sum over `a + b` indices split at `a`; a sum over `T * R` indices as `T` blocks of
  `R` consecutive indices (index `R * t + r`: the position `r` inside a block is the fast coordinate); and the
  block-by-block partial sums an induction over the blocks needs. Everything holds in any additive commutative
  monoid, so in particular on the extended reals with no finiteness side condition.
-/
import Mathlib.Algebra.BigOperators.Fin
import Mathlib.Algebra.BigOperators.Group.Finset.Basic
import Mathlib.Logic.Equiv.Fin.Basic

namespace Cert.Sums

open scoped BigOperators

variable {M : Type*} [AddCommMonoid M]

/-! ## A sum split in two -/

/-- A sum over `a + b` indices is the sum over the first `a` of them plus the sum over the last `b`. -/
theorem sum_split (a b : ℕ) (f : Fin (a + b) → M) :
    ∑ k, f k = ∑ k : Fin a, f (Fin.castAdd b k) + ∑ k : Fin b, f (Fin.natAdd a k) :=
  Fin.sum_univ_add f

/-- A sum over 256 indices is the sum over the indices `k < 128` plus the sum over the indices `128 + k`. -/
theorem sum_split_128_128 (f : Fin 256 → M) :
    ∑ k, f k = ∑ k : Fin 128, f ⟨k.val, by omega⟩ + ∑ k : Fin 128, f ⟨128 + k.val, by omega⟩ :=
  sum_split 128 128 f

/-! ## A sum cut into blocks -/

/-- Position `r < R` of block `t < T` is an index below `T * R`. -/
theorem block_index_lt {T R t r : ℕ} (ht : t < T) (hr : r < R) : R * t + r < T * R := by
  calc R * t + r < R * t + R := by omega
    _ = R * (t + 1) := (Nat.mul_succ R t).symm
    _ ≤ R * T := Nat.mul_le_mul_left _ ht
    _ = T * R := Nat.mul_comm _ _

/-- A sum over `T * R` indices is the sum over the `T` blocks of the sum over the `R` positions of each block;
position `r` of block `t` is the index `R * t + r`. -/
theorem sum_blocks (T R : ℕ) (f : Fin (T * R) → M) :
    ∑ n, f n = ∑ t : Fin T, ∑ r : Fin R, f ⟨R * t.val + r.val, block_index_lt t.isLt r.isLt⟩ := by
  rw [← (finProdFinEquiv (m := T) (n := R)).sum_comp f, Fintype.sum_prod_type]
  refine Finset.sum_congr rfl fun t _ => Finset.sum_congr rfl fun r _ => ?_
  congr 1
  apply Fin.ext
  simp only [finProdFinEquiv_apply_val]
  omega

/-- A sum over 50000 indices is the sum over 25 blocks of 2000: position `r` of block `t` is `2000 * t + r`. -/
theorem sum_blocks_25_2000 (f : Fin 50000 → M) :
    ∑ n, f n = ∑ t : Fin 25, ∑ r : Fin 2000, f ⟨2000 * t.val + r.val, by omega⟩ :=
  sum_blocks 25 2000 f

/-! ## Partial sums, block by block -/

/-- The sum of the first `n` blocks (`n ≤ T`) of a family over `T * R` indices. -/
def prefixBlocks (T R : ℕ) (f : Fin (T * R) → M) (n : ℕ) (hn : n ≤ T) : M :=
  ∑ t : Fin n, ∑ r : Fin R, f ⟨R * t.val + r.val, block_index_lt (lt_of_lt_of_le t.isLt hn) r.isLt⟩

/-- No block: the partial sum is zero. -/
theorem prefixBlocks_zero (T R : ℕ) (f : Fin (T * R) → M) : prefixBlocks T R f 0 (Nat.zero_le T) = 0 := by
  simp [prefixBlocks]

/-- The sum of the first `n + 1` blocks is the sum of the first `n` blocks plus the sum over block `n`. -/
theorem prefixBlocks_succ (T R : ℕ) (f : Fin (T * R) → M) (n : ℕ) (hn : n < T) :
    prefixBlocks T R f (n + 1) hn
      = prefixBlocks T R f n (Nat.le_of_lt hn) + ∑ r : Fin R, f ⟨R * n + r.val, block_index_lt hn r.isLt⟩ := by
  unfold prefixBlocks
  rw [Fin.sum_univ_castSucc]
  rfl

/-- All `T` blocks: the partial sum is the whole sum. -/
theorem prefixBlocks_all (T R : ℕ) (f : Fin (T * R) → M) : prefixBlocks T R f T (Nat.le_refl T) = ∑ n, f n := by
  rw [sum_blocks T R f]; rfl

/-- A running total that starts at zero and, at block `n`, grows by the sum over block `n`, is after the last
block the sum over all `T * R` indices. -/
theorem sum_of_block_recursion (T R : ℕ) (f : Fin (T * R) → M) (acc : ℕ → M) (h0 : acc 0 = 0)
    (hs : ∀ (n : ℕ) (hn : n < T), acc (n + 1) = acc n + ∑ r : Fin R, f ⟨R * n + r.val, block_index_lt hn r.isLt⟩) :
    acc T = ∑ n, f n := by
  have key : ∀ (n : ℕ) (hn : n ≤ T), acc n = prefixBlocks T R f n hn := by
    intro n
    induction n with
    | zero => intro _; rw [h0, prefixBlocks_zero]
    | succ n ih => intro hn; rw [hs n hn, ih (Nat.le_of_lt hn), prefixBlocks_succ]
  rw [key T (Nat.le_refl T), prefixBlocks_all]

/-- The same over sums indexed by natural numbers: the sum over the first `(n + 1) * R` indices is the sum over the
first `n * R` plus the sum over the `R` indices `R * n + r` of block `n`. -/
theorem sum_range_succ_mul (R n : ℕ) (g : ℕ → M) :
    ∑ i ∈ Finset.range ((n + 1) * R), g i
      = ∑ i ∈ Finset.range (n * R), g i + ∑ r ∈ Finset.range R, g (R * n + r) := by
  rw [Nat.succ_mul, Finset.sum_range_add, Nat.mul_comm n R]

/-- 25 blocks of 2000: a running total that starts at zero and at block `n` grows by the sum over the indices
`2000 * n + r` is, after block 24, the sum over all 50000 indices. -/
theorem sum_of_block_recursion_25_2000 (f : Fin 50000 → M) (acc : ℕ → M) (h0 : acc 0 = 0)
    (hs : ∀ (n : ℕ) (hn : n < 25), acc (n + 1) = acc n + ∑ r : Fin 2000, f ⟨2000 * n + r.val, by omega⟩) :
    acc 25 = ∑ n, f n :=
  sum_of_block_recursion 25 2000 f acc h0 hs

end Cert.Sums
-- ==== Proof.KIVal1.lean ====
/-
  Region 1's result array, entry by entry, over the extended reals.

  A point t = (i·4 + j)·8 + k of the grid adds to a scratch accumulator the product of block (i, k) of the data with
  the transpose of block (j, k) of the binarised weights, restarting from zero at k = 0. After point t the
  accumulator's entry (p, q) is therefore the inner product of row 1024·i + p of the data with row 1024·j + q of the
  weights over the first k + 1 blocks of 1024 columns (induction along the run; addition on the extended reals is
  associative and commutative, so no finiteness is needed). At k = 7 this is the inner product over all 8192 columns,
  and what the point writes back is the indicator of "inner product plus bias exceeds 1": block (i, j) of the code.
  The 16 written blocks tile the 4096 × 4096 result.
-/
import proofs.«162706_j42030549959310_1_alg».proof.Proof.KIData
import proofs.«162706_j42030549959310_1_alg».proof.Proof.KISpec
import proofs.«162706_j42030549959310_1_alg».proof.Proof.LibTransposedRhs
import proofs.«162706_j42030549959310_1_alg».proof.Proof.LibSums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

namespace Region1

/-! ## The body's three payloads read at one entry -/

/-- The restart value of the accumulator is zero at every entry. -/
theorem pay1_apply (p q : Fin 1024) : (k1_pay1 (F := Ideal)) (ix2 p q) = 0 := by
  unfold k1_pay1
  rw [shapeCast_self]
  exact Ideal.ofBits_zero_f32

/-- One step of the accumulation at entry (p, q): the accumulator's entry plus the inner product of row p of the
    data block with row q of the weight block (the narrowing of the data block is the identity on extended reals). -/
theorem pay2_apply (x a : Vec Ideal S1024x1024 .f32) (w : Vec Ideal S1024x1024 .bf16) (p q : Fin 1024) :
    k1_pay2 x a w (ix2 p q) = a (ix2 p q) + ∑ r : Fin 1024, x (ix2 p r) * w (ix2 q r) := by
  unfold k1_pay2
  rw [shapeCast_self, shapeCast_self]
  refine congrArg (fun z => a (ix2 p q) + z) ?_
  exact Cert.TransposedRhs.matmul_zero_apply (M := 1024) (K := 1024) (N := 1024) none (truncf .bf16 x bitsLt_bf16_f32) w p q

/-- The stored block at entry (p, q): the indicator of "accumulator plus bias q exceeds 1". -/
theorem pay3_apply (a : Vec Ideal S1024x1024 .f32) (b : Vec Ideal S1x1024 .f32) (p q : Fin 1024) :
    k1_pay3 a b (ix2 p q) = Cert.Spec.step (a (ix2 p q) + b (ix2 (0 : Fin 1) q)) Cert.Spec.cOne := by
  unfold k1_pay3
  rw [shapeCast_self]
  show Cert.Spec.step (a (ix2 p q) + broadcastTo S1024x1024 b broadcasts_S1x1024_S1024x1024 (ix2 p q)) Cert.Spec.cOne = _
  rw [broadcastTo_1b_ab_apply]

/-! ## The arrays the region reads and the blocks a point sees -/

/-- The data, the binarised weights and the bias row as the region finds them. -/
abbrev Xarr (c : Dev nD) : Vec Ideal S4096x8192 .f32 := V c main_arg0
abbrev Warr (c : Dev nD) : Vec Ideal S4096x8192 .bf16 := V c main_v0
abbrev Barr (c : Dev nD) : Vec Ideal S1x4096 .f32 := V c main_v1
/-- Their blocks at point t. -/
abbrev xblk (c : Dev nD) (t : Fin cfg1.N) : Vec Ideal S1024x1024 .f32 := iblk1 V c 0 t
abbrev wblk (c : Dev nD) (t : Fin cfg1.N) : Vec Ideal S1024x1024 .bf16 := iblk1 V c 1 t
abbrev bblk (c : Dev nD) (t : Fin cfg1.N) : Vec Ideal S1x1024 .f32 := iblk1 V c 2 t

/-- The grid has 4 · 4 · 8 = 128 points. -/
theorem N1 : cfg1.N = 128 := by decide
theorem lt128 (t : Fin cfg1.N) : t.val < 128 := lt_of_lt_of_eq t.isLt N1

/-- Row 1024 · i + p of a 4096-row array (i < 4). -/
def rowOf (i : ℕ) (p : Fin 1024) : Fin 4096 := ⟨(1024 * i + p.val) % 4096, Nat.mod_lt _ (by decide)⟩

/-- The printed index maps over the grid: point t = (i·4 + j)·8 + k reads block (i, k) of the data, block (j, k) of
    the weights, block (0, j) of the bias, and owns block (i, j) of the result. -/
theorem index_facts : ∀ t : Fin cfg1.N,
    win1_0.index t (0 : Fin 2) = t.val / 32 ∧ win1_0.index t (1 : Fin 2) = t.val % 8
    ∧ win1_1.index t (0 : Fin 2) = t.val / 8 % 4 ∧ win1_1.index t (1 : Fin 2) = t.val % 8
    ∧ win1_2.index t (0 : Fin 2) = 0 ∧ win1_2.index t (1 : Fin 2) = t.val / 8 % 4
    ∧ win1_3.index t (0 : Fin 2) = t.val / 32 ∧ win1_3.index t (1 : Fin 2) = t.val / 8 % 4 :=
  (by decide +kernel : ∀ t : Fin grid1.N, _)

/-- The data block at point t: rows 1024·(t/32) + p, columns 1024·(t%8) + r. -/
theorem xblk_apply (c : Dev nD) (t : Fin cfg1.N) (p r : Fin 1024) :
    xblk V c t (ix2 p r)
      = Xarr V c (ix2 (rowOf (t.val / 32) p) (⟨1024 * (t.val % 8) + r.val, by omega⟩ : Fin 8192)) := by
  show V c main_arg0 (((cfg1.win 0).blk t).view.emb (ix2 p r)) = V c main_arg0 _
  refine congrArg (V c main_arg0) ?_
  obtain ⟨e0, e1, -⟩ := index_facts t
  have ht := lt128 t
  funext a; apply Fin.ext
  match a with
  | ⟨0, _⟩ => show win1_0.index t (0 : Fin 2) * 1024 + 1 * p.val = (1024 * (t.val / 32) + p.val) % 4096; omega
  | ⟨1, _⟩ => show win1_0.index t (1 : Fin 2) * 1024 + 1 * r.val = 1024 * (t.val % 8) + r.val; omega

/-- The weight block at point t: rows 1024·(t/8 % 4) + q, columns 1024·(t%8) + r. -/
theorem wblk_apply (c : Dev nD) (t : Fin cfg1.N) (q r : Fin 1024) :
    wblk V c t (ix2 q r)
      = Warr V c (ix2 (rowOf (t.val / 8 % 4) q) (⟨1024 * (t.val % 8) + r.val, by omega⟩ : Fin 8192)) := by
  show V c main_v0 (((cfg1.win 1).blk t).view.emb (ix2 q r)) = V c main_v0 _
  refine congrArg (V c main_v0) ?_
  obtain ⟨-, -, e2, e3, -⟩ := index_facts t
  have ht := lt128 t
  funext a; apply Fin.ext
  match a with
  | ⟨0, _⟩ => show win1_1.index t (0 : Fin 2) * 1024 + 1 * q.val = (1024 * (t.val / 8 % 4) + q.val) % 4096; omega
  | ⟨1, _⟩ => show win1_1.index t (1 : Fin 2) * 1024 + 1 * r.val = 1024 * (t.val % 8) + r.val; omega

/-- The bias block at point t: columns 1024·(t/8 % 4) + q of the one row. -/
theorem bblk_apply (c : Dev nD) (t : Fin cfg1.N) (q : Fin 1024) :
    bblk V c t (ix2 (0 : Fin 1) q) = Barr V c (ix2 (0 : Fin 1) (rowOf (t.val / 8 % 4) q)) := by
  show V c main_v1 (((cfg1.win 2).blk t).view.emb (ix2 (0 : Fin 1) q)) = V c main_v1 _
  refine congrArg (V c main_v1) ?_
  obtain ⟨-, -, -, -, e4, e5, -⟩ := index_facts t
  have ht := lt128 t
  funext a; apply Fin.ext
  match a with
  | ⟨0, _⟩ => show win1_2.index t (0 : Fin 2) * 1 + 1 * 0 = 0; omega
  | ⟨1, _⟩ => show win1_2.index t (1 : Fin 2) * 1024 + 1 * q.val = (1024 * (t.val / 8 % 4) + q.val) % 4096; omega

/-! ## The accumulator along a run of 8 points -/

/-- The product of entry d of row a of the data with entry d of row b of the weights (zero past the last column). -/
def term (c : Dev nD) (a b : Fin 4096) (d : ℕ) : EReal :=
  if h : d < 8192 then Xarr V c (ix2 a ⟨d, h⟩) * Warr V c (ix2 b ⟨d, h⟩) else 0

/-- The inner product of row 1024·i + p of the data with row 1024·j + q of the weights over the first m blocks of
    1024 columns. -/
def psum (c : Dev nD) (i j : ℕ) (p q : Fin 1024) (m : ℕ) : EReal :=
  ∑ d ∈ Finset.range (m * 1024), term V c (rowOf i p) (rowOf j q) d

theorem psum_zero (c : Dev nD) (i j : ℕ) (p q : Fin 1024) : psum V c i j p q 0 = 0 := by
  unfold psum; rw [Nat.zero_mul, Finset.range_zero, Finset.sum_empty]

theorem psum_succ (c : Dev nD) (i j : ℕ) (p q : Fin 1024) (m : ℕ) :
    psum V c i j p q (m + 1)
      = psum V c i j p q m + ∑ r ∈ Finset.range 1024, term V c (rowOf i p) (rowOf j q) (1024 * m + r) :=
  Cert.Sums.sum_range_succ_mul 1024 m _

/-- All 8 blocks: the whole inner product over the 8192 columns. -/
theorem psum_full (c : Dev nD) (i j : ℕ) (p q : Fin 1024) :
    psum V c i j p q 8 = ∑ d : Fin 8192, Xarr V c (ix2 (rowOf i p) d) * Warr V c (ix2 (rowOf j q) d) := by
  unfold psum
  rw [show 8 * 1024 = 8192 from rfl, Finset.sum_range]
  refine Finset.sum_congr rfl fun d _ => ?_
  unfold term
  rw [dif_pos d.isLt]

/-- The step's partial product at point n, entry (p, q), is block n % 8 of that inner product. -/
theorem block_sum (c : Dev nD) (n : ℕ) (hn : n < cfg1.N) (p q : Fin 1024) :
    ∑ r : Fin 1024, xblk V c ⟨n, hn⟩ (ix2 p r) * wblk V c ⟨n, hn⟩ (ix2 q r)
      = ∑ r ∈ Finset.range 1024, term V c (rowOf (n / 32) p) (rowOf (n / 8 % 4) q) (1024 * (n % 8) + r) := by
  rw [Finset.sum_range]
  refine Finset.sum_congr rfl fun r _ => ?_
  rw [xblk_apply, wblk_apply]
  unfold term
  rw [dif_pos (by have := r.isLt; omega : 1024 * (n % 8) + r.val < 8192)]

/-- At the first point of a run the accumulator restarts from zero. -/
theorem acc1_reset (c : Dev nD) (n : ℕ) (hn : n < cfg1.N) (h : n % 8 = 0) :
    acc1 V c n hn = k1_pay2 (xblk V c ⟨n, hn⟩) (k1_pay1 (F := Ideal)) (wblk V c ⟨n, hn⟩) := by
  cases n with
  | zero => rfl
  | succ m =>
    show k1_pay2 _ (if (m + 1) % 8 = 0 then (k1_pay1 (F := Ideal)) else acc1 V c m (Nat.lt_of_succ_lt hn)) _ = _
    rw [if_pos h]

/-- At every other point it continues from what the point before left. -/
theorem acc1_succ (c : Dev nD) (m : ℕ) (hn : m + 1 < cfg1.N) (h : ¬ (m + 1) % 8 = 0) :
    acc1 V c (m + 1) hn
      = k1_pay2 (xblk V c ⟨m + 1, hn⟩) (acc1 V c m (Nat.lt_of_succ_lt hn)) (wblk V c ⟨m + 1, hn⟩) := by
  show k1_pay2 _ (if (m + 1) % 8 = 0 then (k1_pay1 (F := Ideal)) else acc1 V c m (Nat.lt_of_succ_lt hn)) _ = _
  rw [if_neg h]

/-- THE INVARIANT: after point n the accumulator's entry (p, q) is the inner product of row 1024·(n/32) + p of the
    data with row 1024·(n/8 % 4) + q of the weights over the first n % 8 + 1 blocks of columns. -/
theorem acc_inv (c : Dev nD) (n : ℕ) : ∀ (hn : n < cfg1.N) (p q : Fin 1024),
    acc1 V c n hn (ix2 p q) = psum V c (n / 32) (n / 8 % 4) p q (n % 8 + 1) := by
  have reset : ∀ (n : ℕ) (hn : n < cfg1.N) (h : n % 8 = 0) (p q : Fin 1024),
      acc1 V c n hn (ix2 p q) = psum V c (n / 32) (n / 8 % 4) p q (n % 8 + 1) := by
    intro n hn h p q
    rw [acc1_reset V c n hn h, pay2_apply, pay1_apply, zero_add, block_sum V c n hn p q, h, psum_succ, psum_zero,
      zero_add]
  induction n with
  | zero => exact fun hn p q => reset 0 hn rfl p q
  | succ m ih =>
    intro hn p q
    by_cases h : (m + 1) % 8 = 0
    · exact reset (m + 1) hn h p q
    · have e1 : (m + 1) / 32 = m / 32 := by omega
      have e2 : (m + 1) / 8 % 4 = m / 8 % 4 := by omega
      have e3 : (m + 1) % 8 = m % 8 + 1 := by omega
      rw [acc1_succ V c m hn h, pay2_apply, ih (Nat.lt_of_succ_lt hn) p q, block_sum V c (m + 1) hn p q, e1, e2, e3,
        psum_succ V c (m / 32) (m / 8 % 4) p q (m % 8 + 1)]

/-! ## From the blocks to the array -/

/-- WHAT A FLUSHING POINT WRITES BACK is its block of the code. -/
theorem flushed_eq (c : Dev nD) (t : Fin cfg1.N) (hf : (cfg1.win 3).flush t = true) :
    (dat1 V c).flushed 3 t
      = ((cfg1.win 3).blk t).view.read (Elt Ideal) (Cert.Spec.Zfun (Xarr V c) (Warr V c) (Barr V c)) := by
  have h7 : t.val % 8 = 7 := (flush1_3 t).mp hf
  have ht := lt128 t
  obtain ⟨-, -, -, -, -, -, e6, e7⟩ := index_facts t
  funext j
  obtain ⟨p, q, rfl⟩ : ∃ (p q : Fin 1024), j = ix2 p q := ⟨j 0, j 1, eq_ix2 j⟩
  show k1_pay3 (acc1 V c t.val t.isLt) (bblk V c t) (ix2 p q)
    = Cert.Spec.Zat (Xarr V c) (Warr V c) (Barr V c)
        ⟨((((cfg1.win 3).blk t).view.emb (ix2 p q)) 0).val, idx2_lt0 _⟩
        ⟨((((cfg1.win 3).blk t).view.emb (ix2 p q)) 1).val, idx2_lt1 _⟩
  have hr : (⟨((((cfg1.win 3).blk t).view.emb (ix2 p q)) 0).val, idx2_lt0 _⟩ : Fin 4096) = rowOf (t.val / 32) p :=
    Fin.ext (by show win1_3.index t (0 : Fin 2) * 1024 + 1 * p.val = (1024 * (t.val / 32) + p.val) % 4096; omega)
  have hc : (⟨((((cfg1.win 3).blk t).view.emb (ix2 p q)) 1).val, idx2_lt1 _⟩ : Fin 4096) = rowOf (t.val / 8 % 4) q :=
    Fin.ext (by show win1_3.index t (1 : Fin 2) * 1024 + 1 * q.val = (1024 * (t.val / 8 % 4) + q.val) % 4096; omega)
  rw [hr, hc, pay3_apply, acc_inv V c t.val t.isLt p q, h7, psum_full, bblk_apply]
  rfl

/-- An entry of the result array is in point t's block iff each coordinate is in the block's range on its axis. -/
theorem mem_blk (t : Fin cfg1.N) (i : S4096x4096.Idx) :
    i ∈ ((cfg1.win 3).blk t).view.set
      ↔ ∀ a : Fin 2, win1_3.index t a * S1024x1024.size a ≤ (i a).val
          ∧ (i a).val < win1_3.index t a * S1024x1024.size a + S1024x1024.size a := by
  show i ∈ ((View.whole main_v3).slice (win1_3.rect t)).set ↔ _
  rw [View.set_slice_whole, Rect.mem_set_unit]
  exact Iff.rfl

/-- Every entry (b, h) of the result is written back by the last point of the run of block (b / 1024, h / 1024). -/
theorem cover (i : S4096x4096.Idx) :
    ∃ t : Fin cfg1.N, (cfg1.win 3).flush t = true ∧ i ∈ ((cfg1.win 3).blk t).view.set := by
  have hi0 : (i 0).val < 4096 := idx2_lt0 i
  have hi1 : (i 1).val < 4096 := idx2_lt1 i
  have hlt : ((i 0).val / 1024 * 4 + (i 1).val / 1024) * 8 + 7 < cfg1.N := by rw [N1]; omega
  refine ⟨⟨((i 0).val / 1024 * 4 + (i 1).val / 1024) * 8 + 7, hlt⟩, ?_, ?_⟩
  · exact (flush1_3 _).mpr (by show (((i 0).val / 1024 * 4 + (i 1).val / 1024) * 8 + 7) % 8 = 7; omega)
  · obtain ⟨-, -, -, -, -, -, e6, e7⟩ := index_facts ⟨((i 0).val / 1024 * 4 + (i 1).val / 1024) * 8 + 7, hlt⟩
    have e6' : win1_3.index ⟨((i 0).val / 1024 * 4 + (i 1).val / 1024) * 8 + 7, hlt⟩ (0 : Fin 2)
        = (((i 0).val / 1024 * 4 + (i 1).val / 1024) * 8 + 7) / 32 := e6
    have e7' : win1_3.index ⟨((i 0).val / 1024 * 4 + (i 1).val / 1024) * 8 + 7, hlt⟩ (1 : Fin 2)
        = (((i 0).val / 1024 * 4 + (i 1).val / 1024) * 8 + 7) / 8 % 4 := e7
    rw [mem_blk]
    intro a
    match a with
    | ⟨0, _⟩ =>
      show win1_3.index _ (0 : Fin 2) * 1024 ≤ (i 0).val ∧ (i 0).val < win1_3.index _ (0 : Fin 2) * 1024 + 1024
      omega
    | ⟨1, _⟩ =>
      show win1_3.index _ (1 : Fin 2) * 1024 ≤ (i 1).val ∧ (i 1).val < win1_3.index _ (1 : Fin 2) * 1024 + 1024
      omega

end Region1

/-- Region 1's result array after its last point, at the extended reals. -/
theorem code_array (c : Dev nD) :
    (dat1 V c).arrAt 3 cfg1.N = Cert.Spec.Zfun (V c main_arg0) (V c main_v0) (V c main_v1) :=
  (dat1 V c).arrAt_eq_of_cover 3 (Cert.Spec.Zfun (V c main_arg0) (V c main_v0) (V c main_v1))
    (fun t hf => Region1.flushed_eq V c t hf) (fun i => Region1.cover i)

end Cert.KernelIdeal.HandValue
end
-- ==== Proof.KIVal2.lean ====
import proofs.«162706_j42030549959310_1_alg».proof.Proof.KIData
import proofs.«162706_j42030549959310_1_alg».proof.Proof.KISpec
import proofs.«162706_j42030549959310_1_alg».proof.Proof.LibTransposedRhs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-- The printed contraction record is the product with the right operand contracted along its second axis. -/
theorem classifyDims_eq :
    dot_S512x4096_S128x4096_S512x128_1_1_0_0_n_n = DotDims.transposedRhs 512 4096 128 := rfl

/-- The body's payload read at one entry: row `p` of the code block against row `q` of the classifier weights. -/
theorem classify_apply (z : Vec Ideal S512x4096 .f32) (clf : Vec Ideal S128x4096 .f32) (p : Fin 512) (q : Fin 128) :
    k2_pay1 z clf (ix2 p q) = ∑ r : Fin 4096, z (ix2 p r) * clf (ix2 q r) := by
  unfold k2_pay1
  rw [shapeCast_self]
  refine (Cert.TransposedRhs.matmul_zero_apply (M := 512) (K := 4096) (N := 128) none
    (truncf .bf16 z bitsLt_bf16_f32) (truncf .bf16 clf bitsLt_bf16_f32) p q).trans ?_
  refine Finset.sum_congr rfl fun r _ => ?_
  rw [truncf_apply, truncf_apply]

/-- The payload read at any index of the result block. -/
theorem classify_at (z : Vec Ideal S512x4096 .f32) (clf : Vec Ideal S128x4096 .f32) (y : S512x128.Idx) :
    k2_pay1 z clf y = ∑ r : Fin 4096, z (ix2 ⟨(y 0).val, idx2_lt0 y⟩ r) * clf (ix2 ⟨(y 1).val, idx2_lt1 y⟩ r) := by
  have ey : y = ix2 (⟨(y 0).val, idx2_lt0 y⟩ : Fin 512) (⟨(y 1).val, idx2_lt1 y⟩ : Fin 128) := by
    funext a
    match a with
    | ⟨0, _⟩ => rfl
    | ⟨1, _⟩ => rfl
  exact (congrArg (k2_pay1 z clf) ey).trans (classify_apply z clf ⟨(y 0).val, idx2_lt0 y⟩ ⟨(y 1).val, idx2_lt1 y⟩)

/-- The printed index maps over the grid: at point `t` the code window and the result window sit at block
    `(t, 0)`, the classifier window at block `(0, 0)`. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The code window's block at point `t` is rows `512 t … 512 t + 511` of the code. -/
theorem codeBlock_apply (c : Dev nD) (t : Fin cfg2.N) (x : S512x4096.Idx) (k : S4096x4096.Idx)
    (hk0 : (k 0).val = t.val * 512 + (x 0).val) (hk1 : (k 1).val = (x 1).val) :
    (iblk2 V c 0 t : Vec Ideal S512x4096 .f32) x = (V c main_v3 : S4096x4096.Idx → Elt Ideal .f32) k := by
  obtain ⟨e0, e1, -, -, -, -⟩ := blockIndex2 t
  unfold iblk2
  rw [View.read_apply]
  show V c main_v3 (((cfg2.win 0).blk t).view.emb x) = V c main_v3 k
  refine congrArg (V c main_v3) ?_
  funext a
  apply Fin.ext
  match a with
  | ⟨0, _⟩ => show win2_0.index t (0 : Fin 2) * 512 + 1 * (x 0).val = (k 0).val; rw [e0, hk0]; omega
  | ⟨1, _⟩ => show win2_0.index t (1 : Fin 2) * 4096 + 1 * (x 1).val = (k 1).val; rw [e1, hk1]; omega

/-- The classifier window's block at every point is the whole classifier array. -/
theorem clfBlock_apply (c : Dev nD) (t : Fin cfg2.N) (x : S128x4096.Idx) :
    (iblk2 V c 1 t : Vec Ideal S128x4096 .f32) x = (V c main_arg4 : S128x4096.Idx → Elt Ideal .f32) x := by
  obtain ⟨-, -, e2, e3, -, -⟩ := blockIndex2 t
  unfold iblk2
  rw [View.read_apply]
  show V c main_arg4 (((cfg2.win 1).blk t).view.emb x) = V c main_arg4 x
  refine congrArg (V c main_arg4) ?_
  funext a
  apply Fin.ext
  match a with
  | ⟨0, _⟩ => show win2_1.index t (0 : Fin 2) * 128 + 1 * (x 0).val = (x 0).val; rw [e2]; omega
  | ⟨1, _⟩ => show win2_1.index t (1 : Fin 2) * 4096 + 1 * (x 1).val = (x 1).val; rw [e3]; omega

/-- What point `t` writes back is block `t` of the classification. -/
theorem class_flushed (c : Dev nD) (t : Fin cfg2.N) :
    (dat2 V c).flushed 2 t
      = ((cfg2.win 2).blk t).view.read (Elt Ideal) (Cert.Spec.Cfun (V c main_v3) (V c main_arg4)) := by
  obtain ⟨-, -, -, -, e4, e5⟩ := blockIndex2 t
  funext j
  refine (classify_at (iblk2 V c 0 t) (iblk2 V c 1 t) j).trans ?_
  rw [View.read_apply]
  have hr0 : ((((cfg2.win 2).blk t).view.emb j) 0).val = t.val * 512 + (j 0).val := by
    show win2_2.index t (0 : Fin 2) * 512 + 1 * (j 0).val = _
    rw [e4]; omega
  have hr1 : ((((cfg2.win 2).blk t).view.emb j) 1).val = (j 1).val := by
    show win2_2.index t (1 : Fin 2) * 128 + 1 * (j 1).val = _
    rw [e5]; omega
  show _ = Cert.Spec.Cat (V c main_v3) (V c main_arg4)
      ⟨((((cfg2.win 2).blk t).view.emb j) 0).val, _⟩ ⟨((((cfg2.win 2).blk t).view.emb j) 1).val, _⟩
  unfold Cert.Spec.Cat
  refine Finset.sum_congr rfl fun r _ => ?_
  refine congrArg₂ (fun a b : Ideal .f32 => a * b) ?_ ?_
  · exact codeBlock_apply V c t _ _ hr0 rfl
  · refine (clfBlock_apply V c t _).trans ?_
    refine congrArg (V c main_arg4) ?_
    funext a
    apply Fin.ext
    match a with
    | ⟨0, _⟩ => exact hr1.symm
    | ⟨1, _⟩ => rfl

/-- An index of the classification lies in point `t`'s result block iff each coordinate lies in the block's range. -/
theorem mem_classBlock (t : Fin cfg2.N) (i : S4096x128.Idx) :
    i ∈ ((cfg2.win 2).blk t).view.set ↔ ∀ a : Fin 2, win2_2.index t a * S512x128.size a ≤ (i a).val
      ∧ (i a).val < win2_2.index t a * S512x128.size a + S512x128.size a := by
  show i ∈ ((View.whole main_v4).slice (win2_2.rect t)).set ↔ _
  rw [View.set_slice_whole, Rect.mem_set_unit]
  exact Iff.rfl

/-- The eight row blocks tile the classification: row `b` lies in the block of point `b / 512`. -/
theorem class_cover (i : S4096x128.Idx) :
    ∃ t : Fin cfg2.N, (cfg2.win 2).flush t = true ∧ i ∈ ((cfg2.win 2).blk t).view.set := by
  have hi0 : (i 0).val < 4096 := (i 0).isLt
  have hi1 : (i 1).val < 128 := (i 1).isLt
  have hN : cfg2.N = 8 := N_2
  let t : Fin cfg2.N := ⟨(i 0).val / 512, by rw [hN]; omega⟩
  have ht : t.val = (i 0).val / 512 := rfl
  obtain ⟨-, -, -, -, e4, e5⟩ := blockIndex2 t
  refine ⟨t, flush2_2 t, ?_⟩
  rw [mem_classBlock]
  intro a
  match a with
  | ⟨0, _⟩ =>
    show win2_2.index t (0 : Fin 2) * 512 ≤ (i 0).val ∧ (i 0).val < win2_2.index t (0 : Fin 2) * 512 + 512
    rw [e4, ht]; omega
  | ⟨1, _⟩ =>
    show win2_2.index t (1 : Fin 2) * 128 ≤ (i 1).val ∧ (i 1).val < win2_2.index t (1 : Fin 2) * 128 + 128
    rw [e5]; omega

/-- Region 2's result array after its last point, at the extended reals. -/
theorem class_array (c : Dev nD) :
    (dat2 V c).arrAt 2 cfg2.N = Cert.Spec.Cfun (V c main_v3) (V c main_arg4) :=
  (dat2 V c).arrAt_eq_of_cover 2 (Cert.Spec.Cfun (V c main_v3) (V c main_arg4))
    (fun t _ => class_flushed V c t) class_cover

end Cert.KernelIdeal.HandValue
end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.KIVal3.lean ====
/-
  The decoding region's result array, over the extended reals.

  The region walks a grid of 4 × 8 × 4 points; point t = (i·8 + j)·4 + k reads block (i, k) of the code, block (k, j)
  of the binarised weights and block (0, j) of the bias. Along a run of 4 points (k = 0 … 3) a scratch block is set
  to the first product of blocks and then grows by one product per point, so that after the last point of the run its
  entry (p, q) is the sum, over all 4096 coordinates h of the hidden axis, of code(1024·i + p, h) · weights(h, 1024·j + q)
  (a sum over 4 · 1024 indices taken as 4 blocks of 1024; addition on the extended reals is associative and commutative,
  so no finiteness is needed). That last point adds the bias, thresholds against 1 and writes the block back; the 32
  blocks so written tile the 4096 × 8192 array, which therefore ends as the reconstruction, entry by entry.
-/
import proofs.«162706_j42030549959310_1_alg».proof.Proof.KIData
import proofs.«162706_j42030549959310_1_alg».proof.Proof.KISpec
import proofs.«162706_j42030549959310_1_alg».proof.Proof.LibPlainProduct
import proofs.«162706_j42030549959310_1_alg».proof.Proof.LibSums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

namespace Decode

/-! ## The body's three payloads, entry by entry -/

/-- The kernel's product contracts the left operand's columns against the right operand's rows. -/
theorem dot_plain : dot_S1024x1024_S1024x1024_S1024x1024_1_0_0_1_n_n = DotDims.plain 1024 1024 1024 := rfl

/-- The restart value of the scratch is zero everywhere. -/
theorem pay1_apply (p q : Fin 1024) : (k3_pay1 (F := Ideal)) (ix2 p q) = 0 := by
  unfold k3_pay1
  simp only [shapeCast_self]
  exact Ideal.ofBits_zero_f32

/-- One step adds to the scratch entry (p, q) the product of row p of the code block with column q of the weight block. -/
theorem pay2_apply (z a : Vec Ideal S1024x1024 .f32) (w : Vec Ideal S1024x1024 .bf16) (p q : Fin 1024) :
    k3_pay2 z a w (ix2 p q) = a (ix2 p q) + ∑ r : Fin 1024, z (ix2 p r) * w (ix2 r q) := by
  unfold k3_pay2
  simp only [shapeCast_self]
  exact congrArg (a (ix2 p q) + ·)
    (Cert.PlainProduct.matmul_zero_apply (M := 1024) (K := 1024) (N := 1024) none
      (truncf (F := Ideal) .bf16 z bitsLt_bf16_f32) w p q)

/-- The last step's output entry (p, q) is the indicator of scratch + bias q > 1. -/
theorem pay3_apply (acc : Vec Ideal S1024x1024 .f32) (b : Vec Ideal S1x1024 .f32) (p q : Fin 1024) :
    k3_pay3 acc b (ix2 p q) = Cert.Spec.step (acc (ix2 p q) + b (ix2 (0 : Fin 1) q)) Cert.Spec.cOne := by
  unfold k3_pay3
  simp only [shapeCast_self]
  have hb : broadcastTo S1024x1024 b broadcasts_S1x1024_S1024x1024 (ix2 p q) = b (ix2 (0 : Fin 1) q) :=
    broadcastTo_apply b broadcasts_S1x1024_S1024x1024 (ix2 p q) (ix2 (0 : Fin 1) q) (fun a => by
      match a with
      | ⟨0, _⟩ => rfl
      | ⟨1, _⟩ => rfl)
  show Cert.Spec.step (acc (ix2 p q) + broadcastTo S1024x1024 b broadcasts_S1x1024_S1024x1024 (ix2 p q)) Cert.Spec.cOne = _
  rw [hb]

/-! ## The blocks a point reads, as entries of the region's input arrays -/

/-- The code, the binarised weights and the bias as the region finds them, and their blocks at a point. -/
abbrev Zarr (c : Dev nD) : Vec Ideal S4096x4096 .f32 := V c main_v3
abbrev Warr (c : Dev nD) : Vec Ideal S4096x8192 .bf16 := V c main_v0
abbrev Barr (c : Dev nD) : Vec Ideal S1x8192 .f32 := V c main_v2
abbrev zblk (c : Dev nD) (t : Fin cfg3.N) : Vec Ideal S1024x1024 .f32 := iblk3 V c 0 t
abbrev wblk (c : Dev nD) (t : Fin cfg3.N) : Vec Ideal S1024x1024 .bf16 := iblk3 V c 1 t
abbrev bblk (c : Dev nD) (t : Fin cfg3.N) : Vec Ideal S1x1024 .f32 := iblk3 V c 2 t

/-- The block indices of the four windows at point t = (i·8 + j)·4 + k: (i, k), (k, j), (0, j), (i, j). -/
theorem idx_facts : ∀ t : Fin cfg3.N,
    win3_0.index t (0 : Fin 2) = t.val / 32 ∧ win3_0.index t (1 : Fin 2) = t.val % 4
    ∧ win3_1.index t (0 : Fin 2) = t.val % 4 ∧ win3_1.index t (1 : Fin 2) = t.val / 4 % 8
    ∧ win3_2.index t (0 : Fin 2) = 0 ∧ win3_2.index t (1 : Fin 2) = t.val / 4 % 8
    ∧ win3_3.index t (0 : Fin 2) = t.val / 32 ∧ win3_3.index t (1 : Fin 2) = t.val / 4 % 8 :=
  (by decide +kernel : ∀ t : Fin grid3.N, _)

/-- Entry (p, r) of the code block at t is the code's entry (1024·(t / 32) + p, 1024·(t % 4) + r). -/
theorem zblk_apply (c : Dev nD) (t : Fin cfg3.N) (p r : Fin 1024) (P R : Fin 4096)
    (hP : P.val = 1024 * (t.val / 32) + p.val) (hR : R.val = 1024 * (t.val % 4) + r.val) :
    zblk V c t (ix2 p r) = Zarr V c (ix2 P R) := by
  obtain ⟨e0, e1, -⟩ := idx_facts t
  show V c main_v3 (((cfg3.win 0).blk t).view.emb (ix2 p r)) = V c main_v3 (ix2 P R)
  congr 1
  funext a; apply Fin.ext
  match a with
  | ⟨0, _⟩ => show win3_0.index t (0 : Fin 2) * 1024 + 1 * p.val = P.val; omega
  | ⟨1, _⟩ => show win3_0.index t (1 : Fin 2) * 1024 + 1 * r.val = R.val; omega

/-- Entry (r, q) of the weight block at t is the weights' entry (1024·(t % 4) + r, 1024·(t / 4 % 8) + q). -/
theorem wblk_apply (c : Dev nD) (t : Fin cfg3.N) (r q : Fin 1024) (R : Fin 4096) (Q : Fin 8192)
    (hR : R.val = 1024 * (t.val % 4) + r.val) (hQ : Q.val = 1024 * (t.val / 4 % 8) + q.val) :
    wblk V c t (ix2 r q) = Warr V c (ix2 R Q) := by
  obtain ⟨-, -, e0, e1, -⟩ := idx_facts t
  show V c main_v0 (((cfg3.win 1).blk t).view.emb (ix2 r q)) = V c main_v0 (ix2 R Q)
  congr 1
  funext a; apply Fin.ext
  match a with
  | ⟨0, _⟩ => show win3_1.index t (0 : Fin 2) * 1024 + 1 * r.val = R.val; omega
  | ⟨1, _⟩ => show win3_1.index t (1 : Fin 2) * 1024 + 1 * q.val = Q.val; omega

/-- Entry (0, q) of the bias block at t is the bias's entry (0, 1024·(t / 4 % 8) + q). -/
theorem bblk_apply (c : Dev nD) (t : Fin cfg3.N) (q : Fin 1024) (Q : Fin 8192)
    (hQ : Q.val = 1024 * (t.val / 4 % 8) + q.val) :
    bblk V c t (ix2 (0 : Fin 1) q) = Barr V c (ix2 (0 : Fin 1) Q) := by
  obtain ⟨-, -, -, -, e0, e1, -⟩ := idx_facts t
  show V c main_v2 (((cfg3.win 2).blk t).view.emb (ix2 (0 : Fin 1) q)) = V c main_v2 (ix2 (0 : Fin 1) Q)
  congr 1
  funext a; apply Fin.ext
  match a with
  | ⟨0, _⟩ => show win3_2.index t (0 : Fin 2) * 1 + 1 * 0 = 0; omega
  | ⟨1, _⟩ => show win3_2.index t (1 : Fin 2) * 1024 + 1 * q.val = Q.val; omega

/-! ## The scratch along a run of 4 points -/

/-- The scratch is restarted at the first point of a run of 4 … -/
theorem acc3_reset (c : Dev nD) : ∀ (n : ℕ) (h : n < cfg3.N), n % 4 = 0 →
    acc3 V c n h = k3_pay2 (zblk V c ⟨n, h⟩) (k3_pay1 (F := Ideal)) (wblk V c ⟨n, h⟩)
  | 0, h, _ => rfl
  | n + 1, h, hm => by
    show k3_pay2 _ (if (n + 1) % 4 = 0 then _ else _) _ = _
    rw [if_pos hm]

/-- … and carried from the point before elsewhere. -/
theorem acc3_step (c : Dev nD) (n : ℕ) (h : n + 1 < cfg3.N) (hm : ¬(n + 1) % 4 = 0) :
    acc3 V c (n + 1) h
      = k3_pay2 (zblk V c ⟨n + 1, h⟩) (acc3 V c n (Nat.lt_of_succ_lt h)) (wblk V c ⟨n + 1, h⟩) := by
  show k3_pay2 _ (if (n + 1) % 4 = 0 then _ else _) _ = _
  rw [if_neg hm]

/-- The terms of the sum over the hidden axis for the entry in row P, column Q. -/
abbrev term (c : Dev nD) (P : Fin 4096) (Q : Fin 8192) : Fin (4 * 1024) → EReal :=
  fun n => Zarr V c (ix2 P ⟨n.val, n.isLt⟩) * Warr V c (ix2 ⟨n.val, n.isLt⟩ Q)

/-- One step's product of blocks is the sum of the terms of one block of 1024 of the hidden axis. -/
theorem block_sum (c : Dev nD) (g k : ℕ) (hk : k < 4) (h : 4 * g + k < cfg3.N) (p q : Fin 1024)
    (P : Fin 4096) (Q : Fin 8192) (hP : P.val = 1024 * (g / 8) + p.val) (hQ : Q.val = 1024 * (g % 8) + q.val) :
    (∑ r : Fin 1024, zblk V c ⟨4 * g + k, h⟩ (ix2 p r) * wblk V c ⟨4 * g + k, h⟩ (ix2 r q))
      = ∑ r : Fin 1024, term V c P Q ⟨1024 * k + r.val, Cert.Sums.block_index_lt hk r.isLt⟩ := by
  refine Finset.sum_congr rfl fun r _ => ?_
  have hr := r.isLt
  rw [zblk_apply V c ⟨4 * g + k, h⟩ p r P ⟨1024 * k + r.val, by omega⟩ (by dsimp only; omega) (by dsimp only; omega),
    wblk_apply V c ⟨4 * g + k, h⟩ r q ⟨1024 * k + r.val, by omega⟩ Q (by dsimp only; omega) (by dsimp only; omega)]

/-- After step k of run g the scratch entry (p, q) is the sum over the first k + 1 blocks of the hidden axis. -/
theorem acc_inv (c : Dev nD) (g : ℕ) (p q : Fin 1024) (P : Fin 4096) (Q : Fin 8192)
    (hP : P.val = 1024 * (g / 8) + p.val) (hQ : Q.val = 1024 * (g % 8) + q.val) :
    ∀ (k : ℕ) (hk : k < 4) (h : 4 * g + k < cfg3.N),
      acc3 V c (4 * g + k) h (ix2 p q) = Cert.Sums.prefixBlocks 4 1024 (term V c P Q) (k + 1) hk
  | 0, hk, h => by
    rw [acc3_reset V c (4 * g + 0) h (by omega)]
    refine (pay2_apply (zblk V c ⟨4 * g + 0, h⟩) (k3_pay1 (F := Ideal)) (wblk V c ⟨4 * g + 0, h⟩) p q).trans ?_
    rw [pay1_apply, Cert.Sums.prefixBlocks_succ 4 1024 (term V c P Q) 0 hk, Cert.Sums.prefixBlocks_zero,
      block_sum V c g 0 hk h p q P Q hP hQ]
  | k + 1, hk, h => by
    have ih := acc_inv c g p q P Q hP hQ k (Nat.lt_of_succ_lt hk) (Nat.lt_of_succ_lt h)
    show acc3 V c ((4 * g + k) + 1) h (ix2 p q) = _
    rw [acc3_step V c (4 * g + k) h (by omega)]
    refine (pay2_apply (zblk V c ⟨4 * g + k + 1, h⟩) (acc3 V c (4 * g + k) (Nat.lt_of_succ_lt h)) (wblk V c ⟨4 * g + k + 1, h⟩) p q).trans ?_
    rw [ih, Cert.Sums.prefixBlocks_succ 4 1024 (term V c P Q) (k + 1) hk]
    exact congrArg (Cert.Sums.prefixBlocks 4 1024 (term V c P Q) (k + 1) (Nat.le_of_lt hk) + ·)
      (block_sum V c g (k + 1) hk h p q P Q hP hQ)

/-- After the last step of run g the scratch entry (p, q) is the whole sum over the hidden axis. -/
theorem acc_last (c : Dev nD) (g : ℕ) (h : 4 * g + 3 < cfg3.N) (p q : Fin 1024) (P : Fin 4096) (Q : Fin 8192)
    (hP : P.val = 1024 * (g / 8) + p.val) (hQ : Q.val = 1024 * (g % 8) + q.val) :
    acc3 V c (4 * g + 3) h (ix2 p q) = ∑ n : Fin 4096, Zarr V c (ix2 P n) * Warr V c (ix2 n Q) := by
  rw [acc_inv V c g p q P Q hP hQ 3 (by omega) h]
  exact Cert.Sums.prefixBlocks_all 4 1024 (term V c P Q)

/-! ## From blocks to the array -/

/-- The reconstruction as one array of the region's three inputs. -/
abbrev G (c : Dev nD) : Vec Ideal S4096x8192 .f32 := Cert.Spec.Ofun (Zarr V c) (Warr V c) (Barr V c)

/-- At the last step of run g the output block's entry (p, q) is the reconstruction's entry in row
    1024·(g / 8) + p, column 1024·(g % 8) + q. -/
theorem out_apply (c : Dev nD) (g : ℕ) (h : 4 * g + 3 < cfg3.N) (p q : Fin 1024) (P : Fin 4096) (Q : Fin 8192)
    (hP : P.val = 1024 * (g / 8) + p.val) (hQ : Q.val = 1024 * (g % 8) + q.val) :
    k3_pay3 (acc3 V c (4 * g + 3) h) (bblk V c ⟨4 * g + 3, h⟩) (ix2 p q)
      = Cert.Spec.Oat (Zarr V c) (Warr V c) (Barr V c) P Q := by
  refine (pay3_apply (acc3 V c (4 * g + 3) h) (bblk V c ⟨4 * g + 3, h⟩) p q).trans ?_
  rw [acc_last V c g h p q P Q hP hQ, bblk_apply V c ⟨4 * g + 3, h⟩ q Q (by dsimp only; omega)]
  rfl

/-- What a flushing point writes back is its block of the reconstruction. -/
theorem flushed_eq (c : Dev nD) (t : Fin cfg3.N) (hf : (cfg3.win 3).flush t = true) :
    (dat3 V c).flushed 3 t = ((cfg3.win 3).blk t).view.read (Elt Ideal) (G V c) := by
  have hN : cfg3.N = 128 := N_3
  have h3 : t.val % 4 = 3 := (flush3_3 t).mp hf
  obtain ⟨-, -, -, -, -, -, e0, e1⟩ := idx_facts t
  obtain ⟨n, hn⟩ := t
  obtain ⟨g, rfl⟩ : ∃ g, n = 4 * g + 3 := ⟨n / 4, by dsimp only at h3; omega⟩
  refine funext fun (j : S1024x1024.Idx) => ?_
  obtain ⟨p, q, rfl⟩ : ∃ (p q : Fin 1024), j = ix2 p q := ⟨j 0, j 1, eq_ix2 j⟩
  show k3_pay3 (acc3 V c (4 * g + 3) hn) (bblk V c ⟨4 * g + 3, hn⟩) (ix2 p q)
    = G V c (((cfg3.win 3).blk ⟨4 * g + 3, hn⟩).view.emb (ix2 p q))
  have hemb : ((cfg3.win 3).blk ⟨4 * g + 3, hn⟩).view.emb (ix2 p q)
      = ix2 (⟨1024 * (g / 8) + p.val, by have := p.isLt; omega⟩ : Fin 4096)
          (⟨1024 * (g % 8) + q.val, by have := q.isLt; omega⟩ : Fin 8192) := by
    funext a; apply Fin.ext
    match a with
    | ⟨0, _⟩ =>
      show win3_3.index ⟨4 * g + 3, hn⟩ (0 : Fin 2) * 1024 + 1 * p.val = 1024 * (g / 8) + p.val
      dsimp only at e0; omega
    | ⟨1, _⟩ =>
      show win3_3.index ⟨4 * g + 3, hn⟩ (1 : Fin 2) * 1024 + 1 * q.val = 1024 * (g % 8) + q.val
      dsimp only at e1; omega
  rw [hemb]
  exact out_apply V c g hn p q _ _ rfl rfl

/-- An entry of the output array is in point t's block iff each coordinate is in the block's range. -/
theorem mem_blk (t : Fin cfg3.N) (i : S4096x8192.Idx) :
    i ∈ ((cfg3.win 3).blk t).view.set ↔ ∀ a : Fin 2, win3_3.index t a * S1024x1024.size a ≤ (i a).val
      ∧ (i a).val < win3_3.index t a * S1024x1024.size a + S1024x1024.size a := by
  show i ∈ ((View.whole main_v5).slice (win3_3.rect t)).set ↔ _
  rw [View.set_slice_whole, Rect.mem_set_unit]
  exact Iff.rfl

/-- Entry (b, d) is written by the last point of the run for block (b / 1024, d / 1024). -/
theorem cover (i : S4096x8192.Idx) :
    ∃ t : Fin cfg3.N, (cfg3.win 3).flush t = true ∧ i ∈ ((cfg3.win 3).blk t).view.set := by
  have hN : cfg3.N = 128 := N_3
  have h0 : (i 0).val < 4096 := idx2_lt0 i
  have h1 : (i 1).val < 8192 := idx2_lt1 i
  obtain ⟨t, ht⟩ : ∃ t : Fin cfg3.N, t.val = ((i 0).val / 1024 * 8 + (i 1).val / 1024) * 4 + 3 :=
    ⟨⟨((i 0).val / 1024 * 8 + (i 1).val / 1024) * 4 + 3, by omega⟩, rfl⟩
  obtain ⟨-, -, -, -, -, -, e0, e1⟩ := idx_facts t
  refine ⟨t, (flush3_3 t).mpr (by omega), ?_⟩
  rw [mem_blk]
  intro a
  match a with
  | ⟨0, _⟩ =>
    show win3_3.index t (0 : Fin 2) * 1024 ≤ (i 0).val ∧ (i 0).val < win3_3.index t (0 : Fin 2) * 1024 + 1024
    omega
  | ⟨1, _⟩ =>
    show win3_3.index t (1 : Fin 2) * 1024 ≤ (i 1).val ∧ (i 1).val < win3_3.index t (1 : Fin 2) * 1024 + 1024
    omega

end Decode

open Decode in
/-- Region 3's result array after its last point, at the extended reals. -/
theorem recon_array (c : Dev nD) :
    (dat3 V c).arrAt 3 cfg3.N = Cert.Spec.Ofun (V c main_v3) (V c main_v0) (V c main_v2) :=
  (dat3 V c).arrAt_eq_of_cover 3 (G V c) (fun t hf => flushed_eq V c t hf) cover

end Cert.KernelIdeal.HandValue
end
-- ==== Proof.KIBridge.lean ====
/-
  The kernel's three results over the extended reals, as functions of the launch arrays.

  Each region's output array is a function of the arrays the region is entered with (the four array lemmas); what a
  region is entered with is the launch memory, an earlier region's output, or a bias vector laid out as a row by the
  host's reshape. Composing: the code is `Zfun` of the data, the binarised weights and the encoder bias row; the
  classification `Cfun` of the code and the classifier weights; the reconstruction `Ofun` of the code, the
  binarised weights and the decoder bias row.
-/
import proofs.«162706_j42030549959310_1_alg».proof.Proof.KIRun
import proofs.«162706_j42030549959310_1_alg».proof.Proof.KIVal0
import proofs.«162706_j42030549959310_1_alg».proof.Proof.KIVal1
import proofs.«162706_j42030549959310_1_alg».proof.Proof.KIVal2
import proofs.«162706_j42030549959310_1_alg».proof.Proof.KIVal3
import Idealize.ShloMosaic.Lib.StableHlo.Run
import Idealize.ShloMosaic.Lib.Pipeline.Value
import Idealize.ShloMosaic.Lib.ValueLayout

set_option maxRecDepth 16384

noncomputable section

namespace Cert.KernelIdeal.HandValue

open Idealize.ShloMosaic Idealize.ShloMosaic.TcCoe Idealize.ShloMosaic.ValueIdx
open Idealize.SL Idealize.SL.Sem
open Cert.KernelIdeal Cert.KernelIdeal.Gen Cert.KernelIdeal.Hand

variable (m : (ℓ : Loc nD τ sig) → Buf (Elt Ideal) ℓ)

/-- The host's reshape of the encoder bias, read at an index: the vector's entry at the column. -/
theorem V2_v1 (c : Dev nD) : V2 m c main_v1 = Cert.Spec.row4096 (m ((c : Thread nD τ).loc main_arg2)) := by
  show StableHlo.after hostOps1 (W1 m c) (Proc.devRef .tc main_v1) = _
  after_results
  funext j
  obtain ⟨p, q, rfl⟩ : ∃ (p : Fin 1) (q : Fin 4096), j = ix2 p q := ⟨j 0, j 1, eq_ix2 j⟩
  show shapeCast S1x4096 (W1 m c (Proc.devRef .tc main_arg2)) shapeCasts_S4096_S1x4096 (ix2 p q) = _
  rw [shapeCast_apply _ _ _ (ix1 q) (by
    rw [Shape.rowMajor_val_one, Shape.rowMajor_val_two]
    have hp : p.val = 0 := by omega
    show q.val = p.val * 4096 + q.val
    omega)]
  rw [W1_keep m c main_arg2 (by decide)]
  rfl

/-- The host's reshape of the decoder bias, read at an index: the vector's entry at the column. -/
theorem V2_v2 (c : Dev nD) : V2 m c main_v2 = Cert.Spec.row8192 (m ((c : Thread nD τ).loc main_arg3)) := by
  show StableHlo.after hostOps1 (W1 m c) (Proc.devRef .tc main_v2) = _
  after_results
  funext j
  obtain ⟨p, q, rfl⟩ : ∃ (p : Fin 1) (q : Fin 8192), j = ix2 p q := ⟨j 0, j 1, eq_ix2 j⟩
  show shapeCast S1x8192 (W1 m c (Proc.devRef .tc main_arg3)) shapeCasts_S8192_S1x8192 (ix2 p q) = _
  rw [shapeCast_apply _ _ _ (ix1 q) (by
    rw [Shape.rowMajor_val_one, Shape.rowMajor_val_two]
    have hp : p.val = 0 := by omega
    show q.val = p.val * 8192 + q.val
    omega)]
  rw [W1_keep m c main_arg3 (by decide)]
  rfl

/-- The binarised weights, from the launch memory. -/
theorem kernel_wb (c : Dev nD) :
    (dat0 (V0 m) c).arrAt 1 cfg0.N = Cert.Spec.WBfun (m ((c : Thread nD τ).loc main_arg1)) :=
  wb_array (V0 m) c

/-- The code, from the launch memory. -/
theorem kernel_z (c : Dev nD) :
    (dat1 (V2 m) c).arrAt 3 cfg1.N
      = Cert.Spec.Zfun (m ((c : Thread nD τ).loc main_arg0)) (Cert.Spec.WBfun (m ((c : Thread nD τ).loc main_arg1)))
          (Cert.Spec.row4096 (m ((c : Thread nD τ).loc main_arg2))) := by
  rw [code_array (V2 m) c, V2_arg0 m c, V2_v0 m c, kernel_wb m c, V2_v1 m c]

/-- The classification, from the launch memory. -/
theorem kernel_c (c : Dev nD) :
    (dat2 (V3 m) c).arrAt 2 cfg2.N
      = Cert.Spec.Cfun (Cert.Spec.Zfun (m ((c : Thread nD τ).loc main_arg0)) (Cert.Spec.WBfun (m ((c : Thread nD τ).loc main_arg1)))
          (Cert.Spec.row4096 (m ((c : Thread nD τ).loc main_arg2)))) (m ((c : Thread nD τ).loc main_arg4)) := by
  rw [class_array (V3 m) c, V3_v3 m c, kernel_z m c, V3_arg4 m c]

/-- The reconstruction, from the launch memory. -/
theorem kernel_o (c : Dev nD) :
    (dat3 (V4 m) c).arrAt 3 cfg3.N
      = Cert.Spec.Ofun (Cert.Spec.Zfun (m ((c : Thread nD τ).loc main_arg0)) (Cert.Spec.WBfun (m ((c : Thread nD τ).loc main_arg1)))
          (Cert.Spec.row4096 (m ((c : Thread nD τ).loc main_arg2)))) (Cert.Spec.WBfun (m ((c : Thread nD τ).loc main_arg1)))
          (Cert.Spec.row8192 (m ((c : Thread nD τ).loc main_arg3))) := by
  rw [recon_array (V4 m) c, V4_v3 m c, kernel_z m c, V4_v0 m c, kernel_wb m c, V4_v2 m c, V2_v2 m c]

end Cert.KernelIdeal.HandValue

end
-- ==== Proof.LibReal.lean ====
/-
  Real-valued arrays over the extended reals.

  An extended real is REAL when it is neither +∞ nor -∞; an array is real when every element is. The exact
  (idealized) operations keep real arrays real: products and sums of reals are real, so are maxima and selections,
  a gather only moves elements, and finite sums (a matrix product, an accumulating scatter) of reals are real.
  The reciprocal square root of a positive real is real.
-/
import Idealize.ShloMosaic.PureOps.Ideal
import Idealize.ShloMosaic.PureOps.Ideal.Laws
import Idealize.ShloMosaic.PureOps.Contract
import Idealize.ShloMosaic.Lib.ValueIdx
import Idealize.ShloMosaic.Lib.IdealHost

noncomputable section

namespace Cert.RealVal

open Idealize.ShloMosaic

open scoped BigOperators

/-- Every element is a real number: neither +∞ nor -∞. -/
def IsReal {ι : Type} (v : ι → EReal) : Prop := ∀ i, v i ≠ ⊤ ∧ v i ≠ ⊥

theorem IsReal.exists_real {ι : Type} {v : ι → EReal} (h : IsReal v) (i : ι) : ∃ r : ℝ, v i = (r : EReal) :=
  ⟨(v i).toReal, (EReal.coe_toReal (h i).1 (h i).2).symm⟩

/-! ### One extended real -/

/-- One extended real is real: neither +∞ nor -∞. -/
def Real1 (x : EReal) : Prop := x ≠ ⊤ ∧ x ≠ ⊥

theorem isReal_iff {ι : Type} {v : ι → EReal} : IsReal v ↔ ∀ i, Real1 (v i) := Iff.rfl

theorem real1_coe (r : ℝ) : Real1 (r : EReal) := ⟨EReal.coe_ne_top r, EReal.coe_ne_bot r⟩

theorem Real1.exists_coe {x : EReal} (h : Real1 x) : ∃ r : ℝ, x = (r : EReal) :=
  ⟨x.toReal, (EReal.coe_toReal h.1 h.2).symm⟩

theorem real1_zero : Real1 (0 : EReal) := by
  have := real1_coe 0
  rwa [EReal.coe_zero] at this

theorem real1_one : Real1 (1 : EReal) := by
  have := real1_coe 1
  rwa [EReal.coe_one] at this

/-- The sum of two reals is real. -/
theorem Real1.add {a b : EReal} (ha : Real1 a) (hb : Real1 b) : Real1 (a + b) := by
  obtain ⟨r, rfl⟩ := ha.exists_coe
  obtain ⟨q, rfl⟩ := hb.exists_coe
  rw [← EReal.coe_add]
  exact real1_coe _

/-- The product of two reals is real. -/
theorem Real1.mul {a b : EReal} (ha : Real1 a) (hb : Real1 b) : Real1 (a * b) := by
  obtain ⟨r, rfl⟩ := ha.exists_coe
  obtain ⟨q, rfl⟩ := hb.exists_coe
  rw [← EReal.coe_mul]
  exact real1_coe _

/-- The maximum of two reals is one of them. -/
theorem Real1.max {a b : EReal} (ha : Real1 a) (hb : Real1 b) : Real1 (max a b) := by
  rcases max_choice a b with h | h <;> rw [h] <;> assumption

/-- A finite sum of reals is real. -/
theorem real1_sum {κ : Type} (s : Finset κ) (f : κ → EReal) (h : ∀ k ∈ s, Real1 (f k)) : Real1 (∑ k ∈ s, f k) :=
  Finset.sum_induction f Real1 (fun _ _ ha hb => ha.add hb) real1_zero h

/-- The reciprocal square root of a positive real is the real `(√r)⁻¹`. -/
theorem Real1.rsqrt {x : EReal} (hx : Real1 x) (hpos : 0 < x) : Real1 (Ideal.rsqrt x) := by
  obtain ⟨r, rfl⟩ := hx.exists_coe
  have hr : 0 < r := by exact_mod_cast hpos
  rw [Ideal.rsqrt_coe, if_neg (not_lt.mpr hr.le), if_neg hr.ne']
  exact real1_coe _

/-! ### Arrays: the operations of a host program, generic in the shapes -/

section Arrays
variable {s t : Shape} {φ : FTy}

/-- The zero word's splat is the array of zeros. -/
theorem constant_zero_apply (s : Shape) (i : s.Idx) : constant (F := Ideal) s .f32 0x00000000#32 i = 0 :=
  Ideal.ofBits_zero_f32

/-- The word 0x3F800000's splat is the array of ones. -/
theorem constant_one_apply (s : Shape) (i : s.Idx) : constant (F := Ideal) s .f32 0x3F800000#32 i = 1 :=
  Ideal.ofBits_one_f32

theorem isReal_constant_zero (s : Shape) : IsReal (constant (F := Ideal) s .f32 0x00000000#32) := fun i => by
  rw [constant_zero_apply]; exact real1_zero

theorem isReal_constant_one (s : Shape) : IsReal (constant (F := Ideal) s .f32 0x3F800000#32) := fun i => by
  rw [constant_one_apply]; exact real1_one

/-- A broadcast's element is an element of its operand: whatever holds of every operand element holds of
    every result element. -/
theorem broadcastInDim_forall {α : Type} (P : α → Prop) (dims : Fin s.rank → Fin t.rank) (h : s.BroadcastsInDim t dims)
    {x : s.Idx → α} (hx : ∀ i, P (x i)) : ∀ j, P (broadcastInDim t dims h x j) :=
  fun _ => hx _

theorem isReal_broadcastInDim (dims : Fin s.rank → Fin t.rank) (h : s.BroadcastsInDim t dims) {x : s.Idx → EReal}
    (hx : IsReal x) : IsReal (broadcastInDim t dims h x) :=
  broadcastInDim_forall Real1 dims h hx

theorem isReal_mulf {x y : FVec Ideal s φ} (hx : IsReal x) (hy : IsReal y) : IsReal (mulf x y) :=
  fun i => Real1.mul (hx i) (hy i)

theorem isReal_addf {x y : FVec Ideal s φ} (hx : IsReal x) (hy : IsReal y) : IsReal (addf x y) :=
  fun i => Real1.add (hx i) (hy i)

theorem isReal_maximumf {x y : FVec Ideal s φ} (hx : IsReal x) (hy : IsReal y) : IsReal (maximumf x y) :=
  fun i => Real1.max (hx i) (hy i)

/-- A maximum is at least its right operand. -/
theorem le_maximumf_right (x y : FVec Ideal s φ) (i : s.Idx) : y i ≤ maximumf x y i := le_max_right _ _

/-- A selection's element is an element of one of the two branches. -/
theorem isReal_select (c : IVec s 1) {a b : s.Idx → EReal} (ha : IsReal a) (hb : IsReal b) : IsReal (select c a b) :=
  fun i => by
    show Real1 (Scalar.select (c i) (a i) (b i))
    unfold Scalar.select
    split
    · exact ha i
    · exact hb i

/-- The host's reciprocal square root of an array of positive reals is real. -/
theorem isReal_hostRsqrt {x : FVec Ideal s φ} (hx : IsReal x) (hpos : ∀ i, 0 < x i) : IsReal (Host.rsqrt x) :=
  fun i => Real1.rsqrt (hx i) (hpos i)

/-- A gather's element is an element of its operand. -/
theorem isReal_gather {si : Shape} {w : Nat} (d : GatherDims s si t) {x : s.Idx → EReal} (hx : IsReal x) (idx : IVec si w) :
    IsReal (Host.gather d x idx) :=
  fun _ => hx _

/-- An accumulating scatter's element is the operand's plus a finite sum of update elements. -/
theorem isReal_scatterAdd {si u : Shape} {w : Nat} (d : ScatterDims s si u) {x : FVec Ideal s φ} (hx : IsReal x)
    (idx : IVec si w) {upd : FVec Ideal u φ} (hu : IsReal upd) : IsReal (Host.scatterAdd d x idx upd) :=
  fun i => by
    have e : Host.scatterAdd d x idx upd i = Ideal.hostScatterAdd d x idx upd i := rfl
    rw [e]
    unfold Ideal.hostScatterAdd
    exact Real1.add (hx i) (real1_sum _ _ fun j _ => hu j)

/-- An accumulating scatter of elements that are not negative is at least its operand. -/
theorem le_scatterAdd {si u : Shape} {w : Nat} (d : ScatterDims s si u) (x : FVec Ideal s φ)
    (idx : IVec si w) {upd : FVec Ideal u φ} (hu : ∀ j, 0 ≤ upd j) (i : s.Idx) : x i ≤ Host.scatterAdd d x idx upd i := by
  have e : Host.scatterAdd d x idx upd i = Ideal.hostScatterAdd d x idx upd i := rfl
  rw [e]
  unfold Ideal.hostScatterAdd
  exact le_add_of_nonneg_right (Finset.sum_nonneg fun j _ => hu j)

/-- A matrix product's element is a finite sum of products. -/
theorem isReal_dotGeneral {sl sr so : Shape} {φ₁ φ₂ : FTy} (d : DotDims sl sr so) (prec : Option ContractPrecision)
    {lhs : FVec Ideal sl φ₁} (hl : IsReal lhs) {rhs : FVec Ideal sr φ₂} (hr : IsReal rhs) :
    IsReal (Host.dotGeneral d prec lhs rhs) :=
  fun j => by
    show Real1 (FloatOps.dotGeneral d prec .single lhs rhs j)
    rw [Ideal.dotGeneral_apply]
    exact real1_sum _ _ fun k _ => Real1.mul (hl _) (hr _)

end Arrays

end Cert.RealVal

end
-- ==== Proof.KIRef.lean ====
/-
  The reference's three results over the extended reals, as the functions the kernel's regions compute.

  The reference binarises with a straight-through estimator: it computes v + (step(v) - v). Where v is a real
  number this is step(v); at an infinity it is not, so every cancellation below uses that the arrays hold real
  numbers: the inputs by the precondition, the pre-activations because they are finite sums of products of reals
  plus a real bias. The reference's matrix products are plain sums over the contracted axis at the extended reals.
-/
import proofs.«162706_j42030549959310_1_alg».proof.Proof.Gen.ReferenceIdeal.Run
import proofs.«162706_j42030549959310_1_alg».proof.Proof.Gen.ReferenceIdeal.Read
import proofs.«162706_j42030549959310_1_alg».proof.Proof.Gen.Pre_finite_inputs
import proofs.«162706_j42030549959310_1_alg».proof.Proof.KISpec
import proofs.«162706_j42030549959310_1_alg».proof.Proof.LibReal
import Idealize.ShloMosaic.Lib.ValueIdx
import Idealize.ShloMosaic.Lib.ValueLayout
import Idealize.ShloMosaic.Lib.ReduceAll
import Idealize.ShloMosaic.PureOps.Ideal.Laws

noncomputable section

namespace Cert.ReferenceIdeal.RefValue

open Idealize.ShloMosaic Idealize.ShloMosaic.TcCoe Idealize.ShloMosaic.ValueIdx Idealize.SL.Sem
open Cert.ReferenceIdeal Cert.ReferenceIdeal.Gen
open Cert.Spec (IsRealArr)

/-- The reference's binarised weights: v + (step(v > 1/2) - v). -/
def refWB (a1 : FVec Ideal S4096x8192 .f32) : FVec Ideal S4096x8192 .f32 :=
  addf a1 (subf (uitofp .f32 (cmpf .ogt a1 (broadcastInDim S4096x8192 ![] bcast_S_S4096x8192 (constant S_ .f32 0x3F000000#32)))) a1)

/-- The reference's pre-activation of the code: data times binarised weights (contracting the data axis), plus bias. -/
def refH (a0 a1 : FVec Ideal S4096x8192 .f32) (a2 : FVec Ideal S4096 .f32) : FVec Ideal S4096x4096 .f32 :=
  addf (Host.dotGeneral dot_S4096x8192_S4096x8192_S4096x4096_1_1_0_0_n_n none a0 (refWB a1))
    (broadcastInDim S4096x4096 ![0, 1] bcast_S1x4096_S4096x4096_0_1 (broadcastInDim S1x4096 ![1] bcast_S4096_S1x4096_1 a2))

/-- The reference's code: h + (step(h > 1) - h). -/
def refZ (a0 a1 : FVec Ideal S4096x8192 .f32) (a2 : FVec Ideal S4096 .f32) : FVec Ideal S4096x4096 .f32 :=
  addf (refH a0 a1 a2) (subf (uitofp .f32 (cmpf .ogt (refH a0 a1 a2) (broadcastInDim S4096x4096 ![] bcast_S_S4096x4096 (constant S_ .f32 0x3F800000#32)))) (refH a0 a1 a2))

/-- The reference's classification. -/
def refC (a0 a1 : FVec Ideal S4096x8192 .f32) (a2 : FVec Ideal S4096 .f32) (a4 : FVec Ideal S128x4096 .f32) : FVec Ideal S4096x128 .f32 :=
  Host.dotGeneral dot_S4096x4096_S128x4096_S4096x128_1_1_0_0_n_n none (refZ a0 a1 a2) a4

/-- The reference's pre-activation of the reconstruction. -/
def refR (a0 a1 : FVec Ideal S4096x8192 .f32) (a2 : FVec Ideal S4096 .f32) (a3 : FVec Ideal S8192 .f32) : FVec Ideal S4096x8192 .f32 :=
  addf (Host.dotGeneral dot_S4096x4096_S4096x8192_S4096x8192_1_0_0_1_n_n none (refZ a0 a1 a2) (refWB a1))
    (broadcastInDim S4096x8192 ![0, 1] bcast_S1x8192_S4096x8192_0_1 (broadcastInDim S1x8192 ![1] bcast_S8192_S1x8192_1 a3))

/-- The reference's reconstruction: r + (step(r > 1) - r). -/
def refO (a0 a1 : FVec Ideal S4096x8192 .f32) (a2 : FVec Ideal S4096 .f32) (a3 : FVec Ideal S8192 .f32) : FVec Ideal S4096x8192 .f32 :=
  addf (refR a0 a1 a2 a3) (subf (uitofp .f32 (cmpf .ogt (refR a0 a1 a2 a3) (broadcastInDim S4096x8192 ![] bcast_S_S4096x8192 (constant S_ .f32 0x3F800000#32)))) (refR a0 a1 a2 a3))

/-- The generated run's three result terms are these. -/
theorem run_terms (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = refO (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v14) = refC (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v13) = refZ (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

/-! ### One extended real -/

open Cert.RealVal (Real1 real1_coe real1_sum)

/-- An entry of a real-valued array is real. -/
theorem real1_of_arr {S : Shape} {a : S.Idx → EReal} (h : IsRealArr a) (j : S.Idx) : Real1 (a j) := by
  obtain ⟨r, hr⟩ := h j
  rw [hr]
  exact real1_coe r

/-- On real numbers, v + (s - v) is s. -/
theorem add_sub_cancel_real {x s : EReal} (hx : Real1 x) (hs : Real1 s) : x + (s - x) = s := by
  obtain ⟨r, rfl⟩ := hx.exists_coe
  obtain ⟨q, rfl⟩ := hs.exists_coe
  rw [← EReal.coe_sub, ← EReal.coe_add]
  congr 1
  ring

/-- A one-bit word widened to 32 bits and read signed is the bit read unsigned. -/
theorem toInt_setWidth_bit : ∀ b : BitVec 1, (b.setWidth 32).toInt = (b.toNat : Int) := by decide

/-- The kernel's indicator (the bit widened, read signed) is the reference's (the bit read unsigned). -/
theorem step_eq_uitofp (v c : EReal) :
    Cert.Spec.step v c = FloatOps.uitofp (F := Ideal) .f32 (FloatOps.cmpf (F := Ideal) (φ := .f32) .ogt v c) := by
  show ((((FloatOps.cmpf (F := Ideal) (φ := .f32) .ogt v c).setWidth 32).toInt : ℝ) : EReal)
      = (((FloatOps.cmpf (F := Ideal) (φ := .f32) .ogt v c).toNat : ℝ) : EReal)
  rw [toInt_setWidth_bit, Int.cast_natCast]

/-- The indicator is a real number (0 or 1). -/
theorem real1_step (v c : EReal) : Real1 (Cert.Spec.step v c) := by
  rw [step_eq_uitofp]
  exact real1_coe _

/-- The straight-through estimator at a real number is the indicator. -/
theorem ste_step {x : EReal} (c : EReal) (hx : Real1 x) :
    x + (FloatOps.uitofp (F := Ideal) .f32 (FloatOps.cmpf (F := Ideal) (φ := .f32) .ogt x c) - x) = Cert.Spec.step x c := by
  rw [← step_eq_uitofp]
  exact add_sub_cancel_real hx (real1_step x c)

/-! ### The binarised weights -/

/-- The reference's binarised weights, entry by entry, are the indicator of the weight against 1/2. -/
theorem refWB_apply (a1 : FVec Ideal S4096x8192 .f32) (h1 : IsRealArr a1) (j : S4096x8192.Idx) :
    refWB a1 j = Cert.Spec.WBfun a1 j := by
  have hK : broadcastInDim S4096x8192 ![] bcast_S_S4096x8192 (constant (F := Ideal) S_ .f32 0x3F000000#32) j = Cert.Spec.cHalf :=
    Read.val_main_v0_apply (F := Ideal) j
  show a1 j + (FloatOps.uitofp (F := Ideal) .f32 (FloatOps.cmpf (F := Ideal) (φ := .f32) .ogt (a1 j)
      (broadcastInDim S4096x8192 ![] bcast_S_S4096x8192 (constant (F := Ideal) S_ .f32 0x3F000000#32) j)) - a1 j) = Cert.Spec.step (a1 j) Cert.Spec.cHalf
  rw [hK]
  exact ste_step _ (real1_of_arr h1 j)

/-- The binarised weights are real. -/
theorem real1_WB (a1 : FVec Ideal S4096x8192 .f32) (j : S4096x8192.Idx) : Real1 (Cert.Spec.WBfun a1 j) :=
  real1_step _ _

/-! ### The code -/

/-- The pre-activation of the code at an entry: a data row against a binarised weight row, plus the bias. -/
theorem refH_apply (a0 a1 : FVec Ideal S4096x8192 .f32) (a2 : FVec Ideal S4096 .f32) (h1 : IsRealArr a1) (p q : Fin 4096) :
    refH a0 a1 a2 (ix2 p q)
      = (∑ d : Fin 8192, a0 (ix2 p d) * Cert.Spec.WBfun a1 (ix2 q d)) + Cert.Spec.row4096 a2 (ix2 (0 : Fin 1) q) := by
  show Read.val_main_v5 (F := Ideal) a0 a1 (ix2 p q) + Read.val_main_v7 (F := Ideal) a2 (ix2 p q) = _
  rw [Read.val_main_v5_apply, Read.val_main_v7_apply, Read.val_main_v6_apply]
  congr 1
  · refine Finset.sum_congr rfl fun d _ => ?_
    have el : Read.lidx_main_v5 (ix2 p q) d = ix2 p d := by
      funext a; match a with | ⟨0, _⟩ => rfl | ⟨1, _⟩ => rfl
    have er : Read.ridx_main_v5 (ix2 p q) d = ix2 q d := by
      funext a; match a with | ⟨0, _⟩ => rfl | ⟨1, _⟩ => rfl
    rw [el, er]
    exact congrArg (a0 (ix2 p d) * ·) (refWB_apply a1 h1 (ix2 q d))
  · exact congrArg a2 (funext fun a => match a with | ⟨0, _⟩ => rfl)

/-- The pre-activation of the code is real. -/
theorem real1_refH (a0 a1 : FVec Ideal S4096x8192 .f32) (a2 : FVec Ideal S4096 .f32)
    (h0 : IsRealArr a0) (h1 : IsRealArr a1) (h2 : IsRealArr a2) (p q : Fin 4096) : Real1 (refH a0 a1 a2 (ix2 p q)) := by
  rw [refH_apply a0 a1 a2 h1]
  exact (real1_sum _ _ fun d _ => (real1_of_arr h0 _).mul (real1_WB a1 _)).add (real1_of_arr h2 _)

/-! ### Finiteness from the precondition -/

/-- The word 0x7F800000 is +∞. -/
theorem ofBits_inf_f32 : Ideal.ofBits .f32 0x7F800000#32 = ⊤ := by simp [Ideal.ofBits, Ideal.ieee]

/-- An extended real whose absolute value is below +∞ is a real number. -/
theorem real_of_abs_lt_inf (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf_f32] at h
  change BitVec.ofBool (decide (max x (-x) < ⊤)) = 1#1 at h
  induction x using EReal.rec with
  | bot => simp at h
  | coe r => exact ⟨r, rfl⟩
  | top => simp at h

/-- An array all of whose absolute values are below +∞ (the printed `all` of the comparison is true) is real-valued. -/
theorem isReal_of_all {S : Shape} (a : FVec Ideal S .f32) (hb : (⟨0, ![]⟩ : Shape).BroadcastsInDim S (![] : Fin 0 → Fin S.rank))
    {axes : List (Fin S.rank)} (hr : S.ReducesTo axes ⟨0, ![]⟩) (hu : 0 < (⟨0, ![]⟩ : Shape).numel)
    (e : Host.reduce IntOp.andi (cmpf .olt (Host.absf a) (broadcastInDim S ![] hb (constant (F := Ideal) ⟨0, ![]⟩ .f32 0x7F800000#32)))
      (constantI ⟨0, ![]⟩ 1 1#1) hr hu ix0 = 1#1) : IsRealArr a := by
  intro j
  haveI : Subsingleton (⟨0, ![]⟩ : Shape).Idx := ⟨fun a b => funext fun d => d.elim0⟩
  have hj := Host.reduce_andi_all _ _ hr hu ix0 e j
  exact real_of_abs_lt_inf (a j) hj

/-- Under the precondition every input array holds real numbers. -/
theorem real_of_pre (a0 a1 : FVec Ideal S4096x8192 .f32) (a2 : FVec Ideal S4096 .f32) (a3 : FVec Ideal S8192 .f32) (a4 : FVec Ideal S128x4096 .f32)
    (h : Cert.Pre_finite_inputs.fn (F := Ideal) a0 a1 a2 a3 a4 = fun _ => 1#1) :
    IsRealArr a0 ∧ IsRealArr a1 ∧ IsRealArr a2 ∧ IsRealArr a3 ∧ IsRealArr a4 := by
  have h' := congrFun h ValueIdx.ix0
  dsimp only [Cert.Pre_finite_inputs.fn, Cert.Pre_finite_inputs.fn_part1] at h'
  obtain ⟨h0123, e4⟩ := IntOp.andi_eq_one.1 h'
  obtain ⟨h012, e3⟩ := IntOp.andi_eq_one.1 h0123
  obtain ⟨h01, e2⟩ := IntOp.andi_eq_one.1 h012
  obtain ⟨e0, e1⟩ := IntOp.andi_eq_one.1 h01
  exact ⟨isReal_of_all a0 _ _ _ e0, isReal_of_all a1 _ _ _ e1, isReal_of_all a2 _ _ _ e2, isReal_of_all a3 _ _ _ e3,
    isReal_of_all a4 _ _ _ e4⟩

/-- The reference's code is the kernel's function of the same arrays. -/
theorem refZ_eq (a0 a1 : FVec Ideal S4096x8192 .f32) (a2 : FVec Ideal S4096 .f32)
    (h0 : IsRealArr a0) (h1 : IsRealArr a1) (h2 : IsRealArr a2) :
    refZ a0 a1 a2 = Cert.Spec.Zfun a0 (Cert.Spec.WBfun a1) (Cert.Spec.row4096 a2) := by
  funext j
  obtain ⟨p, q, rfl⟩ : ∃ p q, j = ix2 p q := ⟨j 0, j 1, eq_ix2 j⟩
  have hK : broadcastInDim S4096x4096 ![] bcast_S_S4096x4096 (constant (F := Ideal) S_ .f32 0x3F800000#32) (ix2 p q) = Cert.Spec.cOne :=
    Read.val_main_v9_apply (F := Ideal) (ix2 p q)
  show refH a0 a1 a2 (ix2 p q) + (FloatOps.uitofp (F := Ideal) .f32 (FloatOps.cmpf (F := Ideal) (φ := .f32) .ogt (refH a0 a1 a2 (ix2 p q))
      (broadcastInDim S4096x4096 ![] bcast_S_S4096x4096 (constant (F := Ideal) S_ .f32 0x3F800000#32) (ix2 p q))) - refH a0 a1 a2 (ix2 p q))
    = Cert.Spec.Zat a0 (Cert.Spec.WBfun a1) (Cert.Spec.row4096 a2) p q
  rw [hK, ste_step _ (real1_refH a0 a1 a2 h0 h1 h2 p q), refH_apply a0 a1 a2 h1]
  rfl

/-- The reference's code as the generated reading names it. -/
theorem refZ_val (a0 a1 : FVec Ideal S4096x8192 .f32) (a2 : FVec Ideal S4096 .f32) :
    Read.val_main_v13 (F := Ideal) a0 a1 a2 = refZ a0 a1 a2 := rfl

/-- The reference's binarised weights as the generated reading names them. -/
theorem refWB_val (a1 : FVec Ideal S4096x8192 .f32) : Read.val_main_v4 (F := Ideal) a1 = refWB a1 := rfl

/-- Every entry of the code is real (it is an indicator). -/
theorem real1_Z (x : Vec Ideal S4096x8192 .f32) (wb : Vec Ideal S4096x8192 .bf16) (b : Vec Ideal S1x4096 .f32)
    (j : S4096x4096.Idx) : Real1 (Cert.Spec.Zfun x wb b j) :=
  real1_step _ _

/-- The reference's classification is the kernel's function of the same arrays. -/
theorem refC_eq (a0 a1 : FVec Ideal S4096x8192 .f32) (a2 : FVec Ideal S4096 .f32) (a4 : FVec Ideal S128x4096 .f32)
    (h0 : IsRealArr a0) (h1 : IsRealArr a1) (h2 : IsRealArr a2) :
    refC a0 a1 a2 a4 = Cert.Spec.Cfun (Cert.Spec.Zfun a0 (Cert.Spec.WBfun a1) (Cert.Spec.row4096 a2)) a4 := by
  funext j
  obtain ⟨p, q, rfl⟩ : ∃ p q, j = ix2 p q := ⟨j 0, j 1, eq_ix2 j⟩
  show Read.val_main_v14 (F := Ideal) a0 a1 a2 a4 (ix2 p q)
    = Cert.Spec.Cat (Cert.Spec.Zfun a0 (Cert.Spec.WBfun a1) (Cert.Spec.row4096 a2)) a4 p q
  rw [Read.val_main_v14_apply, refZ_val, refZ_eq a0 a1 a2 h0 h1 h2]
  refine Finset.sum_congr rfl fun k _ => ?_
  have el : Read.lidx_main_v14 (ix2 p q) k = ix2 p k := by
    funext a; match a with | ⟨0, _⟩ => rfl | ⟨1, _⟩ => rfl
  have er : Read.ridx_main_v14 (ix2 p q) k = ix2 q k := by
    funext a; match a with | ⟨0, _⟩ => rfl | ⟨1, _⟩ => rfl
  rw [el, er]

/-! ### The reconstruction -/

/-- The pre-activation of the reconstruction at an entry: a code row against a binarised weight column, plus the bias. -/
theorem refR_apply (a0 a1 : FVec Ideal S4096x8192 .f32) (a2 : FVec Ideal S4096 .f32) (a3 : FVec Ideal S8192 .f32)
    (h0 : IsRealArr a0) (h1 : IsRealArr a1) (h2 : IsRealArr a2) (p : Fin 4096) (q : Fin 8192) :
    refR a0 a1 a2 a3 (ix2 p q)
      = (∑ h : Fin 4096, Cert.Spec.Zfun a0 (Cert.Spec.WBfun a1) (Cert.Spec.row4096 a2) (ix2 p h) * Cert.Spec.WBfun a1 (ix2 h q))
        + Cert.Spec.row8192 a3 (ix2 (0 : Fin 1) q) := by
  show Read.val_main_v15 (F := Ideal) a0 a1 a2 (ix2 p q) + Read.val_main_v17 (F := Ideal) a3 (ix2 p q) = _
  rewrite [Read.val_main_v15_apply, Read.val_main_v17_apply, Read.val_main_v16_apply, refZ_val, refZ_eq a0 a1 a2 h0 h1 h2]
  have hsum : (∑ k : Fin 4096, Cert.Spec.Zfun a0 (Cert.Spec.WBfun a1) (Cert.Spec.row4096 a2) (Read.lidx_main_v15 (ix2 p q) k)
        * Read.val_main_v4 (F := Ideal) a1 (Read.ridx_main_v15 (ix2 p q) k))
      = ∑ h : Fin 4096, Cert.Spec.Zfun a0 (Cert.Spec.WBfun a1) (Cert.Spec.row4096 a2) (ix2 p h) * Cert.Spec.WBfun a1 (ix2 h q) := by
    refine Finset.sum_congr rfl fun k _ => ?_
    have el : Read.lidx_main_v15 (ix2 p q) k = ix2 p k := by
      funext a; match a with | ⟨0, _⟩ => rfl | ⟨1, _⟩ => rfl
    have er : Read.ridx_main_v15 (ix2 p q) k = ix2 k q := by
      funext a; match a with | ⟨0, _⟩ => rfl | ⟨1, _⟩ => rfl
    rewrite [el, er, refWB_val, refWB_apply a1 h1]
    rfl
  have hb : a3 (Read.idx_main_v16 (Read.idx_main_v17 (ix2 p q))) = Cert.Spec.row8192 a3 (ix2 (0 : Fin 1) q) :=
    congrArg a3 (funext fun a => match a with | ⟨0, _⟩ => rfl)
  rewrite [hsum, hb]
  rfl

/-- The pre-activation of the reconstruction is real. -/
theorem real1_refR (a0 a1 : FVec Ideal S4096x8192 .f32) (a2 : FVec Ideal S4096 .f32) (a3 : FVec Ideal S8192 .f32)
    (h0 : IsRealArr a0) (h1 : IsRealArr a1) (h2 : IsRealArr a2) (h3 : IsRealArr a3) (p : Fin 4096) (q : Fin 8192) :
    Real1 (refR a0 a1 a2 a3 (ix2 p q)) := by
  rw [refR_apply a0 a1 a2 a3 h0 h1 h2]
  exact (real1_sum _ _ fun k _ => (real1_Z _ _ _ _).mul (real1_WB a1 _)).add (real1_of_arr h3 _)

/-- The reference's reconstruction is the kernel's function of the same arrays. -/
theorem refO_eq (a0 a1 : FVec Ideal S4096x8192 .f32) (a2 : FVec Ideal S4096 .f32) (a3 : FVec Ideal S8192 .f32)
    (h0 : IsRealArr a0) (h1 : IsRealArr a1) (h2 : IsRealArr a2) (h3 : IsRealArr a3) :
    refO a0 a1 a2 a3 = Cert.Spec.Ofun (Cert.Spec.Zfun a0 (Cert.Spec.WBfun a1) (Cert.Spec.row4096 a2)) (Cert.Spec.WBfun a1) (Cert.Spec.row8192 a3) := by
  funext j
  obtain ⟨p, q, rfl⟩ : ∃ p q, j = ix2 p q := ⟨j 0, j 1, eq_ix2 j⟩
  have hK : broadcastInDim S4096x8192 ![] bcast_S_S4096x8192 (constant (F := Ideal) S_ .f32 0x3F800000#32) (ix2 p q) = Cert.Spec.cOne :=
    Read.val_main_v19_apply (F := Ideal) (ix2 p q)
  show refR a0 a1 a2 a3 (ix2 p q) + (FloatOps.uitofp (F := Ideal) .f32 (FloatOps.cmpf (F := Ideal) (φ := .f32) .ogt (refR a0 a1 a2 a3 (ix2 p q))
      (broadcastInDim S4096x8192 ![] bcast_S_S4096x8192 (constant (F := Ideal) S_ .f32 0x3F800000#32) (ix2 p q))) - refR a0 a1 a2 a3 (ix2 p q))
    = Cert.Spec.Oat (Cert.Spec.Zfun a0 (Cert.Spec.WBfun a1) (Cert.Spec.row4096 a2)) (Cert.Spec.WBfun a1) (Cert.Spec.row8192 a3) p q
  rw [hK, ste_step _ (real1_refR a0 a1 a2 a3 h0 h1 h2 h3 p q), refR_apply a0 a1 a2 a3 h0 h1 h2]
  rfl

end Cert.ReferenceIdeal.RefValue

end
-- ==== Proof.lean ====
/-
  Kernel and reference compute the same three arrays over the extended reals.

  The program binarises the encoder weights, encodes the data into a binary code (a matrix product accumulated in
  a scratch buffer over eight grid steps, thresholded after the last), classifies the code and decodes it (a second
  accumulated product, over four steps). Its run is certified region by region: each region's body keeps the
  pipeline's proof data, the accumulating regions carrying the scratch buffer's exact contents in their invariant;
  the same text serves the word-level program and its idealization, which print alike. Over the extended reals
  each region's output array is a plain function of the arrays it reads: an indicator, a sum over the contracted
  axis regrouped from the grid steps' partial sums, an indicator again. The reference computes the same indicators
  as v + (indicator − v), which is the indicator exactly where v is a real number: the inputs are real by the
  precondition, and every pre-activation is a finite sum of products of reals plus a real.
-/
import proofs.«162706_j42030549959310_1_alg».proof.Defs
import proofs.«162706_j42030549959310_1_alg».proof.Proof.Gen.Kernel
import proofs.«162706_j42030549959310_1_alg».proof.Proof.Gen.KernelIdeal
import proofs.«162706_j42030549959310_1_alg».proof.Proof.Gen.ReferenceIdeal
import proofs.«162706_j42030549959310_1_alg».proof.Proof.Gen.Pre_finite_inputs
import proofs.«162706_j42030549959310_1_alg».proof.Proof.KBRun
import proofs.«162706_j42030549959310_1_alg».proof.Proof.KIRun
import proofs.«162706_j42030549959310_1_alg».proof.Proof.KIBridge
import proofs.«162706_j42030549959310_1_alg».proof.Proof.KIRef
import Idealize.ShloMosaic.Adequacy
import Idealize.ShloMosaic.Init

noncomputable section

namespace Cert.Proof

open Idealize.ShloMosaic Idealize.SL.Sem

/-- The word-level program runs, faults nowhere and leaves its arguments as launched. -/
theorem frame_k : Cert.frame_Kernel := fun m ρ _ =>
  (θ_run Cert.Kernel.defs _ _).mono (fun _ h c => (h c).2.2.2) (Cert.Kernel.Hand.run_main (F := Bits) m ρ)

/-- So does its idealization. -/
theorem frame_ki : Cert.frame_KernelIdeal := fun m ρ _ =>
  (θ_run Cert.KernelIdeal.defs _ _).mono (fun _ h c => (h c).2.2.2) (Cert.KernelIdeal.Hand.run_main (F := Ideal) m ρ)

/-- And the reference: its generated run with the results dropped. -/
theorem frame_ri : Cert.frame_ReferenceIdeal := fun m ρ _ =>
  (θ_run Cert.ReferenceIdeal.defs _ _).mono (fun _ h c => (h c).2.2.2) (Cert.ReferenceIdeal.RefValue.run_terms m ρ)

/-- The idealization rewrote nothing. -/
theorem preserves : Cert.preserves_Kernel_KernelIdeal := trivial

/-- From memories agreeing on the arguments, under the precondition, both programs end with the same three arrays:
    the kernel's are the regions' functions of the launch arrays, the reference's the same functions because its
    inputs are real numbers. -/
theorem algebraic : Cert.algebraic_KernelIdeal_ReferenceIdeal := by
  intro m ρ m' ρ' hpre hagree
  refine ⟨fun c => (Cert.KernelIdeal.Hand.dat3 (Cert.KernelIdeal.Hand.V4 m) c).arrAt 3 Cert.KernelIdeal.cfg3.N,
    fun c => (Cert.KernelIdeal.Hand.dat2 (Cert.KernelIdeal.Hand.V3 m) c).arrAt 2 Cert.KernelIdeal.cfg2.N,
    fun c => (Cert.KernelIdeal.Hand.dat1 (Cert.KernelIdeal.Hand.V2 m) c).arrAt 3 Cert.KernelIdeal.cfg1.N,
    Cert.KernelIdeal.Hand.run_main (F := Ideal) m ρ, ?_⟩
  refine (θ_run Cert.ReferenceIdeal.defs _ _).mono (fun _ h c => ?_) (Cert.ReferenceIdeal.RefValue.run_terms m' ρ')
  obtain ⟨e0, e1, e2, e3, e4⟩ := hagree c
  obtain ⟨r0, r1, r2, r3, r4⟩ := Cert.ReferenceIdeal.RefValue.real_of_pre _ _ _ _ _ (hpre c)
  refine ⟨(h c).1.trans ?_, (h c).2.1.trans ?_, (h c).2.2.1.trans ?_, (h c).2.2.2⟩
  · rw [e0, e1, e2, e3, Cert.ReferenceIdeal.RefValue.refO_eq _ _ _ _ r0 r1 r2 r3]
    exact (Cert.KernelIdeal.HandValue.kernel_o m c).symm
  · rw [e0, e1, e2, e4, Cert.ReferenceIdeal.RefValue.refC_eq _ _ _ _ r0 r1 r2]
    exact (Cert.KernelIdeal.HandValue.kernel_c m c).symm
  · rw [e0, e1, e2, Cert.ReferenceIdeal.RefValue.refZ_eq _ _ _ r0 r1 r2]
    exact (Cert.KernelIdeal.HandValue.kernel_z m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
